-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S96x4096x32 : Shape := ⟨3, ![96, 4096, 32]⟩
abbrev S96x4096 : Shape := ⟨2, ![96, 4096]⟩
abbrev S6x1024 : Shape := ⟨2, ![6, 1024]⟩
abbrev S1x512 : Shape := ⟨2, ![1, 512]⟩
abbrev S4096x3267 : Shape := ⟨2, ![4096, 3267]⟩
abbrev S3267 : Shape := ⟨1, ![3267]⟩
abbrev S4096 : Shape := ⟨1, ![4096]⟩
abbrev S_ : Shape := ⟨0, ![]⟩

class Facts : Prop where
  bcast_S_S96x4096x32 : S_.BroadcastsInDim S96x4096x32 (![] : Fin 0 → Fin S96x4096x32.rank)
  reducesTo_S96x4096x32_S_d0_1_2 : S96x4096x32.ReducesTo [0, 1, 2] S_
  h_S_ : 0 < S_.numel
  bcast_S_S96x4096 : S_.BroadcastsInDim S96x4096 (![] : Fin 0 → Fin S96x4096.rank)
  reducesTo_S96x4096_S_d0_1 : S96x4096.ReducesTo [0, 1] S_
  bcast_S_S6x1024 : S_.BroadcastsInDim S6x1024 (![] : Fin 0 → Fin S6x1024.rank)
  reducesTo_S6x1024_S_d0_1 : S6x1024.ReducesTo [0, 1] S_
  bcast_S_S1x512 : S_.BroadcastsInDim S1x512 (![] : Fin 0 → Fin S1x512.rank)
  reducesTo_S1x512_S_d0_1 : S1x512.ReducesTo [0, 1] S_
  bcast_S_S4096x3267 : S_.BroadcastsInDim S4096x3267 (![] : Fin 0 → Fin S4096x3267.rank)
  reducesTo_S4096x3267_S_d0_1 : S4096x3267.ReducesTo [0, 1] S_
  bcast_S_S3267 : S_.BroadcastsInDim S3267 (![] : Fin 0 → Fin S3267.rank)
  reducesTo_S3267_S_d0 : S3267.ReducesTo [0] S_

variable [Facts]

def fn_part3 {F : FTy → Type} [FloatOps F] (main_arg11 : FVec F S3267 .f32) (main_v48 : IVec S_ 1) (main_v49 : FVec F S4096x3267 .f32) (main_v50 : FVec F S4096x3267 .f32) : IVec S_ 1 :=
  let main_v51 : IVec S4096x3267 1 := cmpf .olt main_v49 main_v50
  let main_c_19 : IVec S_ 1 := constantI S_ 1 1#1
  let main_v52 : IVec S_ 1 := (fun x v => Host.reduce IntOp.andi x v reducesTo_S4096x3267_S_d0_1 h_S_) main_v51 main_c_19
  let main_v53 : IVec S_ 1 := andi main_v48 main_v52
  let main_v54 : FVec F S3267 .f32 := Host.absf main_arg11
  let main_cst_20 : FVec F S_ .f32 := constant S_ .f32 0x7F800000#32
  let main_v55 : FVec F S3267 .f32 := broadcastInDim S3267 ![] bcast_S_S3267 main_cst_20
  let main_v56 : IVec S3267 1 := cmpf .olt main_v54 main_v55
  let main_c_21 : IVec S_ 1 := constantI S_ 1 1#1
  let main_v57 : IVec S_ 1 := (fun x v => Host.reduce IntOp.andi x v reducesTo_S3267_S_d0 h_S_) main_v56 main_c_21
  let main_v58 : IVec S_ 1 := andi main_v53 main_v57
  main_v58

def fn_part2 {F : FTy → Type} [FloatOps F] (main_arg7 : FVec F S96x4096 .f32) (main_arg8 : FVec F S6x1024 .f32) (main_arg9 : FVec F S1x512 .f32) (main_arg10 : FVec F S4096x3267 .f32) (main_arg11 : FVec F S3267 .f32) (main_v33 : IVec S_ 1) : IVec S_ 1 :=
  let main_v34 : FVec F S96x4096 .f32 := Host.absf main_arg7
  let main_cst_12 : FVec F S_ .f32 := constant S_ .f32 0x7F800000#32
  let main_v35 : FVec F S96x4096 .f32 := broadcastInDim S96x4096 ![] bcast_S_S96x4096 main_cst_12
  let main_v36 : IVec S96x4096 1 := cmpf .olt main_v34 main_v35
  let main_c_13 : IVec S_ 1 := constantI S_ 1 1#1
  let main_v37 : IVec S_ 1 := (fun x v => Host.reduce IntOp.andi x v reducesTo_S96x4096_S_d0_1 h_S_) main_v36 main_c_13
  let main_v38 : IVec S_ 1 := andi main_v33 main_v37
  let main_v39 : FVec F S6x1024 .f32 := Host.absf main_arg8
  let main_cst_14 : FVec F S_ .f32 := constant S_ .f32 0x7F800000#32
  let main_v40 : FVec F S6x1024 .f32 := broadcastInDim S6x1024 ![] bcast_S_S6x1024 main_cst_14
  let main_v41 : IVec S6x1024 1 := cmpf .olt main_v39 main_v40
  let main_c_15 : IVec S_ 1 := constantI S_ 1 1#1
  let main_v42 : IVec S_ 1 := (fun x v => Host.reduce IntOp.andi x v reducesTo_S6x1024_S_d0_1 h_S_) main_v41 main_c_15
  let main_v43 : IVec S_ 1 := andi main_v38 main_v42
  let main_v44 : FVec F S1x512 .f32 := Host.absf main_arg9
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  let main_v49 : FVec F S4096x3267 .f32 := Host.absf main_arg10
  let main_cst_18 : FVec F S_ .f32 := constant S_ .f32 0x7F800000#32
  let main_v50 : FVec F S4096x3267 .f32 := broadcastInDim S4096x3267 ![] bcast_S_S4096x3267 main_cst_18
  fn_part3 (F := F) main_arg11 main_v48 main_v49 main_v50

def fn_part1 {F : FTy → Type} [FloatOps F] (main_arg4 : FVec F S6x1024 .f32) (main_arg5 : FVec F S1x512 .f32) (main_arg6 : FVec F S1x512 .f32) (main_arg7 : FVec F S96x4096 .f32) (main_arg8 : FVec F S6x1024 .f32) (main_arg9 : FVec F S1x512 .f32) (main_arg10 : FVec F S4096x3267 .f32) (main_arg11 : FVec F S3267 .f32) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S6x1024 .f32 := Host.absf main_arg4
  let main_cst_6 : FVec F S_ .f32 := constant S_ .f32 0x7F800000#32
  let main_v20 : FVec F S6x1024 .f32 := broadcastInDim S6x1024 ![] bcast_S_S6x1024 main_cst_6
  let main_v21 : IVec S6x1024 1 := cmpf .olt main_v19 main_v20
  let main_c_7 : IVec S_ 1 := constantI S_ 1 1#1
  let main_v22 : IVec S_ 1 := (fun x v => Host.reduce IntOp.andi x v reducesTo_S6x1024_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S96x4096x32 .f32) (main_arg1 : FVec F S96x4096 .f32) (main_arg2 : FVec F S96x4096 .f32) (main_arg3 : FVec F S6x1024 .f32) (main_arg4 : FVec F S6x1024 .f32) (main_arg5 : FVec F S1x512 .f32) (main_arg6 : FVec F S1x512 .f32) (main_arg7 : FVec F S96x4096 .f32) (main_arg8 : FVec F S6x1024 .f32) (main_arg9 : FVec F S1x512 .f32) (main_arg10 : FVec F S4096x3267 .f32) (main_arg11 : FVec F S3267 .f32) (main_arg12 : IVec S4096 32) (main_arg13 : IVec S4096 32) : IVec S_ 1 :=
  let main_v0 : FVec F S96x4096x32 .f32 := Host.absf main_arg0
  let main_cst : FVec F S_ .f32 := constant S_ .f32 0x7F800000#32
  let main_v1 : FVec F S96x4096x32 .f32 := broadcastInDim S96x4096x32 ![] bcast_S_S96x4096x32 main_cst
  let main_v2 : IVec S96x4096x32 1 := cmpf .olt main_v0 main_v1
  let main_c : IVec S_ 1 := constantI S_ 1 1#1
  let main_v3 : IVec S_ 1 := (fun x v => Host.reduce IntOp.andi x v reducesTo_S96x4096x32_S_d0_1_2 h_S_) main_v2 main_c
  let main_v4 : FVec F S96x4096 .f32 := Host.absf main_arg1
  let main_cst_0 : FVec F S_ .f32 := constant S_ .f32 0x7F800000#32
  let main_v5 : FVec F S96x4096 .f32 := broadcastInDim S96x4096 ![] bcast_S_S96x4096 main_cst_0
  let main_v6 : IVec S96x4096 1 := cmpf .olt main_v4 main_v5
  let main_c_1 : IVec S_ 1 := constantI S_ 1 1#1
  let main_v7 : IVec S_ 1 := (fun x v => Host.reduce IntOp.andi x v reducesTo_S96x4096_S_d0_1 h_S_) main_v6 main_c_1
  let main_v8 : IVec S_ 1 := andi main_v3 main_v7
  let main_v9 : FVec F S96x4096 .f32 := Host.absf main_arg2
  let main_cst_2 : FVec F S_ .f32 := constant S_ .f32 0x7F800000#32
  let main_v10 : FVec F S96x4096 .f32 := broadcastInDim S96x4096 ![] bcast_S_S96x4096 main_cst_2
  let main_v11 : IVec S96x4096 1 := cmpf .olt main_v9 main_v10
  let main_c_3 : IVec S_ 1 := constantI S_ 1 1#1
  let main_v12 : IVec S_ 1 := (fun x v => Host.reduce IntOp.andi x v reducesTo_S96x4096_S_d0_1 h_S_) main_v11 main_c_3
  let main_v13 : IVec S_ 1 := andi main_v8 main_v12
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg4 main_arg5 main_arg6 main_arg7 main_arg8 main_arg9 main_arg10 main_arg11 main_v13 main_v16
-- ==== Kernel.lean ====
abbrev S96x4096x32 : Shape := ⟨3, ![96, 4096, 32]⟩
abbrev S96x4096 : Shape := ⟨2, ![96, 4096]⟩
abbrev S6x1024 : Shape := ⟨2, ![6, 1024]⟩
abbrev S1x512 : Shape := ⟨2, ![1, 512]⟩
abbrev S4096x3267 : Shape := ⟨2, ![4096, 3267]⟩
abbrev S3267 : Shape := ⟨1, ![3267]⟩
abbrev S4096 : Shape := ⟨1, ![4096]⟩
abbrev S_ : Shape := ⟨0, ![]⟩
abbrev S96 : Shape := ⟨1, ![96]⟩
abbrev S96x1 : Shape := ⟨2, ![96, 1]⟩
abbrev S96x1024 : Shape := ⟨2, ![96, 1024]⟩
abbrev S4096x1 : Shape := ⟨2, ![4096, 1]⟩
abbrev S96x512 : Shape := ⟨2, ![96, 512]⟩
abbrev S1x3267 : Shape := ⟨2, ![1, 3267]⟩
abbrev S96x3267 : Shape := ⟨2, ![96, 3267]⟩
abbrev S512x3267 : Shape := ⟨2, ![512, 3267]⟩
abbrev S96x1056 : Shape := ⟨2, ![96, 1056]⟩
abbrev S96x32 : Shape := ⟨2, ![96, 32]⟩
abbrev S96x32x32 : Shape := ⟨3, ![96, 32, 32]⟩
abbrev S96x99 : Shape := ⟨2, ![96, 99]⟩
abbrev S96x3 : Shape := ⟨2, ![96, 3]⟩
abbrev S96x96 : Shape := ⟨2, ![96, 96]⟩
abbrev S96x32x3 : Shape := ⟨3, ![96, 32, 3]⟩
abbrev S96x1x32 : Shape := ⟨3, ![96, 1, 32]⟩
abbrev S96x256x32 : Shape := ⟨3, ![96, 256, 32]⟩
abbrev S96x1x3 : Shape := ⟨3, ![96, 1, 3]⟩
abbrev S96x256x3 : Shape := ⟨3, ![96, 256, 3]⟩
abbrev S96x4096x3 : Shape := ⟨3, ![96, 4096, 3]⟩

abbrev nBuf : Space → Nat
  | .hbm => 175
  | .vmem => 19
  | .smem => 0
  | _ => 0

abbrev hbmTy0_0 (i : Nat) : BufTy := match i % 128 with
  | 0 => ⟨S96x4096x32, .f32⟩
  | 1 => ⟨S96x4096, .f32⟩
  | 2 => ⟨S96x4096, .f32⟩
  | 3 => ⟨S6x1024, .f32⟩
  | 4 => ⟨S6x1024, .f32⟩
  | 5 => ⟨S1x512, .f32⟩
  | 6 => ⟨S1x512, .f32⟩
  | 7 => ⟨S96x4096, .f32⟩
  | 8 => ⟨S6x1024, .f32⟩
  | 9 => ⟨S1x512, .f32⟩
  | 10 => ⟨S4096x3267, .f32⟩
  | 11 => ⟨S3267, .f32⟩
  | 12 => ⟨S4096, .i32⟩
  | 13 => ⟨S4096, .i32⟩
  | 14 => ⟨S_, .f32⟩
  | 15 => ⟨S96x4096, .f32⟩
  | 16 => ⟨S96x4096, .f32⟩
  | 17 => ⟨S96x4096, .f32⟩
  | 18 => ⟨S96x4096, .f32⟩
  | 19 => ⟨S96x4096, .i1⟩
  | 20 => ⟨S96x4096, .f32⟩
  | 21 => ⟨S96x4096, .f32⟩
  | 22 => ⟨S96x4096, .f32⟩
  | 23 => ⟨S96x4096, .f32⟩
  | 24 => ⟨S96x4096, .f32⟩
  | 25 => ⟨S96x4096, .f32⟩
  | 26 => ⟨S96x4096, .f32⟩
  | 27 => ⟨S96x4096, .f32⟩
  | 28 => ⟨S_, .f32⟩
  | 29 => ⟨S96x4096, .f32⟩
  | 30 => ⟨S96x4096, .f32⟩
  | 31 => ⟨S96x4096, .f32⟩
  | 32 => ⟨S96x4096, .f32⟩
  | 33 => ⟨S_, .f32⟩
  | 34 => ⟨S6x1024, .f32⟩
  | 35 => ⟨S6x1024, .f32⟩
  | 36 => ⟨S6x1024, .f32⟩
  | 37 => ⟨S6x1024, .f32⟩
  | 38 => ⟨S6x1024, .i1⟩
  | 39 => ⟨S6x1024, .f32⟩
  | 40 => ⟨S6x1024, .f32⟩
  | 41 => ⟨S6x1024, .f32⟩
  | 42 => ⟨S6x1024, .f32⟩
  | 43 => ⟨S6x1024, .f32⟩
  | 44 => ⟨S6x1024, .f32⟩
  | 45 => ⟨S6x1024, .f32⟩
  | 46 => ⟨S6x1024, .f32⟩
  | 47 => ⟨S_, .f32⟩
  | 48 => ⟨S6x1024, .f32⟩
  | 49 => ⟨S6x1024, .f32⟩
  | 50 => ⟨S6x1024, .f32⟩
  | 51 => ⟨S6x1024, .f32⟩
  | 52 => ⟨S_, .f32⟩
  | 53 => ⟨S1x512, .f32⟩
  | 54 => ⟨S1x512, .f32⟩
  | 55 => ⟨S1x512, .f32⟩
  | 56 => ⟨S1x512, .f32⟩
  | 57 => ⟨S1x512, .i1⟩
  | 58 => ⟨S1x512, .f32⟩
  | 59 => ⟨S1x512, .f32⟩
  | 60 => ⟨S1x512, .f32⟩
  | 61 => ⟨S1x512, .f32⟩
  | 62 => ⟨S1x512, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S1x512, .f32⟩
  | 71 => ⟨S96, .i32⟩
  | 72 => ⟨S_, .i32⟩
  | 73 => ⟨S_, .i32⟩
  | 74 => ⟨S96, .i32⟩
  | 75 => ⟨S96, .i32⟩
  | 76 => ⟨S96, .i32⟩
  | 77 => ⟨S_, .i32⟩
  | 78 => ⟨S96, .i32⟩
  | 79 => ⟨S96, .i1⟩
  | 80 => ⟨S96, .i32⟩
  | 81 => ⟨S96, .i32⟩
  | 82 => ⟨S_, .i32⟩
  | 83 => ⟨S96, .i32⟩
  | 84 => ⟨S96, .i1⟩
  | 85 => ⟨S96, .i1⟩
  | 86 => ⟨S_, .i32⟩
  | 87 => ⟨S96, .i32⟩
  | 88 => ⟨S96, .i32⟩
  | 89 => ⟨S96, .i32⟩
  | 90 => ⟨S96, .i32⟩
  | 91 => ⟨S_, .i32⟩
  | 92 => ⟨S_, .i32⟩
  | 93 => ⟨S96, .i32⟩
  | 94 => ⟨S96, .i32⟩
  | 95 => ⟨S96, .i32⟩
  | 96 => ⟨S_, .i32⟩
  | 97 => ⟨S96, .i32⟩
  | 98 => ⟨S96, .i1⟩
  | 99 => ⟨S96, .i32⟩
  | 100 => ⟨S96, .i32⟩
  | 101 => ⟨S_, .i32⟩
  | 102 => ⟨S96, .i32⟩
  | 103 => ⟨S96, .i1⟩
  | 104 => ⟨S96, .i1⟩
  | 105 => ⟨S_, .i32⟩
  | 106 => ⟨S96, .i32⟩
  | 107 => ⟨S96, .i32⟩
  | 108 => ⟨S96, .i32⟩
  | 109 => ⟨S_, .i32⟩
  | 110 => ⟨S96, .i32⟩
  | 111 => ⟨S96, .i1⟩
  | 112 => ⟨S_, .i32⟩
  | 113 => ⟨S96, .i32⟩
  | 114 => ⟨S96, .i32⟩
  | 115 => ⟨S96, .i32⟩
  | 116 => ⟨S96x1, .i32⟩
  | 117 => ⟨S96x1024, .f32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S4096x1, .i32⟩
  | 126 => ⟨S96x4096, .f32⟩
  | 127 => ⟨S96x4096, .f32⟩
  | _ => ⟨S96x4096x32, .f32⟩

abbrev hbmTy0_1 (i : Nat) : BufTy := match i % 128 with
  | 0 => ⟨S_, .i32⟩
  | 1 => ⟨S96, .i32⟩
  | 2 => ⟨S96, .i1⟩
  | 3 => ⟨S_, .i32⟩
  | 4 => ⟨S96, .i32⟩
  | 5 => ⟨S96, .i32⟩
  | 6 => ⟨S96, .i32⟩
  | 7 => ⟨S96x1, .i32⟩
  | 8 => ⟨S96x512, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S96x4096, .f32⟩
  | 18 => ⟨S96x4096, .f32⟩
  | 19 => ⟨S1x3267, .f32⟩
  | 20 => ⟨S96x3267, .f32⟩
  | 21 => ⟨S96x3267, .f32⟩
  | 22 => ⟨S96x1056, .f32⟩
  | 23 => ⟨S96x32, .f32⟩
  | 24 => ⟨S96x1024, .f32⟩
  | 25 => ⟨S96x32x32, .f32⟩
  | 26 => ⟨S96x1056, .f32⟩
  | 27 => ⟨S96x32, .f32⟩
  | 28 => ⟨S96x1024, .f32⟩
  | 29 => ⟨S96x32x32, .f32⟩
  | 30 => ⟨S96x1056, .f32⟩
  | 31 => ⟨S96x32, .f32⟩
  | 32 => ⟨S96x1024, .f32⟩
  | 33 => ⟨S96x32x32, .f32⟩
  | 34 => ⟨S96x99, .f32⟩
  | 35 => ⟨S96x3, .f32⟩
  | 36 => ⟨S96x96, .f32⟩
  | 37 => ⟨S96x32x3, .f32⟩
  | 38 => ⟨S96x1x32, .f32⟩
  | 39 => ⟨S96x256x32, .f32⟩
  | 40 => ⟨S96x1x32, .f32⟩
  | 41 => ⟨S96x256x32, .f32⟩
  | 42 => ⟨S96x1x32, .f32⟩
  | 43 => ⟨S96x256x32, .f32⟩
  | 44 => ⟨S96x1x3, .f32⟩
  | 45 => ⟨S96x256x3, .f32⟩
  | 46 => ⟨S96x4096x3, .f32⟩
  | _ => ⟨S96x4096x32, .f32⟩

abbrev hbmTy (i : Nat) : BufTy := match i / 128 with
  | 0 => hbmTy0_0 i
  | 1 => hbmTy0_1 i
  | _ => ⟨S96x4096x32, .f32⟩

abbrev bufTy : (tb : Table) → Fin (tcTables nBuf tb) → BufTy
  | .hbm, ⟨i, _⟩ => hbmTy i
  | .local _ .vmem, ⟨0, _⟩ => ⟨S96x512, .f32⟩
  | .local _ .vmem, ⟨1, _⟩ => ⟨S96x512, .f32⟩
  | .local _ .vmem, ⟨2, _⟩ => ⟨S512x3267, .f32⟩
  | .local _ .vmem, ⟨3, _⟩ => ⟨S512x3267, .f32⟩
  | .local _ .vmem, ⟨4, _⟩ => ⟨S96x3267, .f32⟩
  | .local _ .vmem, ⟨5, _⟩ => ⟨S96x3267, .f32⟩
  | .local _ .vmem, ⟨6, _⟩ => ⟨S96x3267, .f32⟩
  | .local _ .vmem, ⟨7, _⟩ => ⟨S96x256x32, .f32⟩
  | .local _ .vmem, ⟨8, _⟩ => ⟨S96x256x32, .f32⟩
  | .local _ .vmem, ⟨9, _⟩ => ⟨S96x32x32, .f32⟩
  | .local _ .vmem, ⟨10, _⟩ => ⟨S96x256x32, .f32⟩
  | .local _ .vmem, ⟨11, _⟩ => ⟨S96x32x32, .f32⟩
  | .local _ .vmem, ⟨12, _⟩ => ⟨S96x256x32, .f32⟩
  | .local _ .vmem, ⟨13, _⟩ => ⟨S96x32x32, .f32⟩
  | .local _ .vmem, ⟨14, _⟩ => ⟨S96x256x32, .f32⟩
  | .local _ .vmem, ⟨15, _⟩ => ⟨S96x32x3, .f32⟩
  | .local _ .vmem, ⟨16, _⟩ => ⟨S96x256x3, .f32⟩
  | .local _ .vmem, ⟨17, _⟩ => ⟨S96x256x3, .f32⟩
  | .local _ .vmem, ⟨18, _⟩ => ⟨S96x256x3, .f32⟩
  | _, _ => ⟨S96x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v5 : Ref sig .tc := ⟨.hbm, 46, rfl⟩
abbrev main_cst_0 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_v10 : Ref sig .tc := ⟨.hbm, 65, rfl⟩
abbrev main_cst_1 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_c : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_c : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_0 : Ref sig .tc := ⟨.hbm, 86, rfl⟩
abbrev main_call3_v12 : Ref sig .tc := ⟨.hbm, 87, rfl⟩
abbrev main_call3_v13 : Ref sig .tc := ⟨.hbm, 88, rfl⟩
abbrev main_v16 : Ref sig .tc := ⟨.hbm, 89, rfl⟩
abbrev main_v17 : Ref sig .tc := ⟨.hbm, 90, rfl⟩
abbrev main_c_2 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_c : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_0 : Ref sig .tc := ⟨.hbm, 105, rfl⟩
abbrev main_call4_v12 : Ref sig .tc := ⟨.hbm, 106, rfl⟩
abbrev main_call4_v13 : Ref sig .tc := ⟨.hbm, 107, rfl⟩
abbrev main_v18 : Ref sig .tc := ⟨.hbm, 108, rfl⟩
abbrev main_c_3 : Ref sig .tc := ⟨.hbm, 109, rfl⟩
abbrev main_v19 : Ref sig .tc := ⟨.hbm, 110, rfl⟩
abbrev main_v20 : Ref sig .tc := ⟨.hbm, 111, rfl⟩
abbrev main_c_4 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_c_5 : Ref sig .tc := ⟨.hbm, 118, rfl⟩
abbrev main_v26 : Ref sig .tc := ⟨.hbm, 119, rfl⟩
abbrev main_v27 : Ref sig .tc := ⟨.hbm, 120, rfl⟩
abbrev main_c_6 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev main_c_7 : Ref sig .tc := ⟨.hbm, 128, rfl⟩
abbrev main_v34 : Ref sig .tc := ⟨.hbm, 129, rfl⟩
abbrev main_v35 : Ref sig .tc := ⟨.hbm, 130, rfl⟩
abbrev main_c_8 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_c_9 : Ref sig .tc := ⟨.hbm, 137, rfl⟩
abbrev main_v41 : Ref sig .tc := ⟨.hbm, 138, rfl⟩
abbrev main_v42 : Ref sig .tc := ⟨.hbm, 139, rfl⟩
abbrev main_c_10 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S96x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3267 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x3267 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x3267 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S96x256x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x256x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x256x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96x256x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S96x32x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S96x256x3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S96x256x3 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S96x4096 : S_.BroadcastsInDim S96x4096 (![] : Fin 0 → Fin S96x4096.rank)
  bcast_S_S6x1024 : S_.BroadcastsInDim S6x1024 (![] : Fin 0 → Fin S6x1024.rank)
  bcast_S_S1x512 : S_.BroadcastsInDim S1x512 (![] : Fin 0 → Fin S1x512.rank)
  bcast_S_S96 : S_.BroadcastsInDim S96 (![] : Fin 0 → Fin S96.rank)
  bcast_S96_S96x1_0 : S96.BroadcastsInDim S96x1 (![0] : Fin 1 → Fin S96x1.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S3267_S1x3267 : S3267.ShapeCasts S1x3267
  bcast_S1x3267_S96x3267_0_1 : S1x3267.BroadcastsInDim S96x3267 (![0, 1] : Fin 2 → Fin S96x3267.rank)
  inb_S96x3267_S96x3267_0_0 : ∀ a, (![0, 0] : Fin 2 → Nat) a + S96x3267.size a ≤ S96x3267.size a
  h_S96x3267 : 0 < S96x3267.numel
  shapeCasts_S96x3267_S96x3267 : S96x3267.ShapeCasts S96x3267
  inb_S96x512_S96x512_0_0 : ∀ a, (![0, 0] : Fin 2 → Nat) a + S96x512.size a ≤ S96x512.size a
  h_S96x512 : 0 < S96x512.numel
  shapeCasts_S96x512_S96x512 : S96x512.ShapeCasts S96x512
  bitsLt_bf16_f32 : FTy.bits .bf16 < FTy.bits .f32
  inb_S512x3267_S512x3267_0_0 : ∀ a, (![0, 0] : Fin 2 → Nat) a + S512x3267.size a ≤ S512x3267.size a
  h_S512x3267 : 0 < S512x3267.numel
  slices_S96x3267_S96x1056_0_0 : S96x3267.Slices ![0, 0] S96x1056
  slices_S96x1056_S96x32_0_0 : S96x1056.Slices ![0, 0] S96x32
  slices_S96x1056_S96x1024_0_32 : S96x1056.Slices ![0, 32] S96x1024
  shapeCasts_S96x1024_S96x32x32 : S96x1024.ShapeCasts S96x32x32
  slices_S96x3267_S96x1056_0_1056 : S96x3267.Slices ![0, 1056] S96x1056
  slices_S96x3267_S96x1056_0_2112 : S96x3267.Slices ![0, 2112] S96x1056
  slices_S96x3267_S96x99_0_3168 : S96x3267.Slices ![0, 3168] S96x99
  slices_S96x99_S96x3_0_0 : S96x99.Slices ![0, 0] S96x3
  slices_S96x99_S96x96_0_3 : S96x99.Slices ![0, 3] S96x96
  shapeCasts_S96x96_S96x32x3 : S96x96.ShapeCasts S96x32x3
  bcast_S96x32_S96x1x32_0_2 : S96x32.BroadcastsInDim S96x1x32 (![0, 2] : Fin 2 → Fin S96x1x32.rank)
  bcast_S96x1x32_S96x256x32_0_1_2 : S96x1x32.BroadcastsInDim S96x256x32 (![0, 1, 2] : Fin 3 → Fin S96x256x32.rank)
  bcast_S96x3_S96x1x3_0_2 : S96x3.BroadcastsInDim S96x1x3 (![0, 2] : Fin 2 → Fin S96x1x3.rank)
  bcast_S96x1x3_S96x256x3_0_1_2 : S96x1x3.BroadcastsInDim S96x256x3 (![0, 1, 2] : Fin 3 → Fin S96x256x3.rank)
  inb_S96x256x32_S96x256x32_0_0_0 : ∀ a, (![0, 0, 0] : Fin 3 → Nat) a + S96x256x32.size a ≤ S96x256x32.size a
  h_S96x256x32 : 0 < S96x256x32.numel
  inb_S96x32x32_S96x32x32_0_0_0 : ∀ a, (![0, 0, 0] : Fin 3 → Nat) a + S96x32x32.size a ≤ S96x32x32.size a
  h_S96x32x32 : 0 < S96x32x32.numel
  shapeCasts_S96x32x32_S96x32x32 : S96x32x32.ShapeCasts S96x32x32
  shapeCasts_S96x256x32_S96x256x32 : S96x256x32.ShapeCasts S96x256x32
  inb_S96x32x3_S96x32x3_0_0_0 : ∀ a, (![0, 0, 0] : Fin 3 → Nat) a + S96x32x3.size a ≤ S96x32x3.size a
  h_S96x32x3 : 0 < S96x32x3.numel
  shapeCasts_S96x32x3_S96x32x3 : S96x32x3.ShapeCasts S96x32x3
  inb_S96x256x3_S96x256x3_0_0_0 : ∀ a, (![0, 0, 0] : Fin 3 → Nat) a + S96x256x3.size a ≤ S96x256x3.size a
  h_S96x256x3 : 0 < S96x256x3.numel
  shapeCasts_S96x256x3_S96x256x3 : S96x256x3.ShapeCasts S96x256x3
  gather_S6x1024_S96x1_S96x1024_1_0_n_n_0_1_11024_wf : GatherDims.WF S6x1024 S96x1 S96x1024 [1] [0] [] [0] [] 1 ![1, 1024]
  gather_S96x1024_S4096x1_S96x4096_0_1_n_n_1_1_961_wf : GatherDims.WF S96x1024 S4096x1 S96x4096 [0] [1] [] [1] [] 1 ![96, 1]
  gather_S1x512_S96x1_S96x512_1_0_n_n_0_1_1512_wf : GatherDims.WF S1x512 S96x1 S96x512 [1] [0] [] [0] [] 1 ![1, 512]
  gather_S96x512_S4096x1_S96x4096_0_1_n_n_1_1_961_wf : GatherDims.WF S96x512 S4096x1 S96x4096 [0] [1] [] [1] [] 1 ![96, 1]
  dot_S96x512_S512x3267_S96x3267_1_0_0_1_n_n_wf : DotDims.WF S96x512 S512x3267 S96x3267 [1] [0] [0] [1] [] []
  dot_S96x256x32_S96x32x32_S96x256x32_2_1_1_2_0_0_wf : DotDims.WF S96x256x32 S96x32x32 S96x256x32 [2] [1] [1] [2] [0] [0]
  dot_S96x256x32_S96x32x3_S96x256x3_2_1_1_2_0_0_wf : DotDims.WF S96x256x32 S96x32x3 S96x256x3 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S96x512.size a ≤ S96x4096.size a
  hwx0_0 : ∀ i : grid0.Coords, EltTy.bits .f32 = 32 ∨ (Rect.block (s := S96x4096) S96x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3267.size a ≤ S4096x3267.size a
  hwx0_1 : ∀ i : grid0.Coords, EltTy.bits .f32 = 32 ∨ (Rect.block (s := S4096x3267) S512x3267.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x3267.size a ≤ S96x3267.size a
  hwx0_2 : ∀ i : grid0.Coords, EltTy.bits .f32 = 32 ∨ (Rect.block (s := S96x3267) S96x3267.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x3267.size a ≤ S96x3267.size a
  hwx0_3 : ∀ i : grid0.Coords, EltTy.bits .f32 = 32 ∨ (Rect.block (s := S96x3267) S96x3267.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S96x256x32.size a ≤ S96x4096x32.size a
  hwx1_0 : ∀ i : grid1.Coords, EltTy.bits .f32 = 32 ∨ (Rect.block (s := S96x4096x32) S96x256x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x32x32.size a ≤ S96x32x32.size a
  hwx1_1 : ∀ i : grid1.Coords, EltTy.bits .f32 = 32 ∨ (Rect.block (s := S96x32x32) S96x32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x256x32.size a ≤ S96x256x32.size a
  hwx1_2 : ∀ i : grid1.Coords, EltTy.bits .f32 = 32 ∨ (Rect.block (s := S96x256x32) S96x256x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x32x32.size a ≤ S96x32x32.size a
  hwx1_3 : ∀ i : grid1.Coords, EltTy.bits .f32 = 32 ∨ (Rect.block (s := S96x32x32) S96x32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x256x32.size a ≤ S96x256x32.size a
  hwx1_4 : ∀ i : grid1.Coords, EltTy.bits .f32 = 32 ∨ (Rect.block (s := S96x256x32) S96x256x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x32x32.size a ≤ S96x32x32.size a
  hwx1_5 : ∀ i : grid1.Coords, EltTy.bits .f32 = 32 ∨ (Rect.block (s := S96x32x32) S96x32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96x256x32.size a ≤ S96x256x32.size a
  hwx1_6 : ∀ i : grid1.Coords, EltTy.bits .f32 = 32 ∨ (Rect.block (s := S96x256x32) S96x256x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S96x32x3.size a ≤ S96x32x3.size a
  hwx1_7 : ∀ i : grid1.Coords, EltTy.bits .f32 = 32 ∨ (Rect.block (s := S96x32x3) S96x32x3.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S96x256x3.size a ≤ S96x256x3.size a
  hwx1_8 : ∀ i : grid1.Coords, EltTy.bits .f32 = 32 ∨ (Rect.block (s := S96x256x3) S96x256x3.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S96x256x3.size a ≤ S96x4096x3.size a
  hwx1_9 : ∀ i : grid1.Coords, EltTy.bits .f32 = 32 ∨ (Rect.block (s := S96x4096x3) S96x256x3.size (cc1_transform_9 i) (hinb1_9 i)).WholeWords (EltTy.packing .f32)

variable [Facts₀]

def gather_S6x1024_S96x1_S96x1024_1_0_n_n_0_1_11024 : GatherDims S6x1024 S96x1 S96x1024 where
  offsetDims := [1]
  collapsedSliceDims := [0]
  operandBatchingDims := []
  startIndicesBatchingDims := []
  startIndexMap := [0]
  indexVectorDim := 1
  sliceSizes := ![1, 1024]
  wf := gather_S6x1024_S96x1_S96x1024_1_0_n_n_0_1_11024_wf
def gather_S96x1024_S4096x1_S96x4096_0_1_n_n_1_1_961 : GatherDims S96x1024 S4096x1 S96x4096 where
  offsetDims := [0]
  collapsedSliceDims := [1]
  operandBatchingDims := []
  startIndicesBatchingDims := []
  startIndexMap := [1]
  indexVectorDim := 1
  sliceSizes := ![96, 1]
  wf := gather_S96x1024_S4096x1_S96x4096_0_1_n_n_1_1_961_wf
def gather_S1x512_S96x1_S96x512_1_0_n_n_0_1_1512 : GatherDims S1x512 S96x1 S96x512 where
  offsetDims := [1]
  collapsedSliceDims := [0]
  operandBatchingDims := []
  startIndicesBatchingDims := []
  startIndexMap := [0]
  indexVectorDim := 1
  sliceSizes := ![1, 512]
  wf := gather_S1x512_S96x1_S96x512_1_0_n_n_0_1_1512_wf
def gather_S96x512_S4096x1_S96x4096_0_1_n_n_1_1_961 : GatherDims S96x512 S4096x1 S96x4096 where
  offsetDims := [0]
  collapsedSliceDims := [1]
  operandBatchingDims := []
  startIndicesBatchingDims := []
  startIndexMap := [1]
  indexVectorDim := 1
  sliceSizes := ![96, 1]
  wf := gather_S96x512_S4096x1_S96x4096_0_1_n_n_1_1_961_wf
def dot_S96x512_S512x3267_S96x3267_1_0_0_1_n_n : DotDims S96x512 S512x3267 S96x3267 where
  lhsContracting := [1]
  rhsContracting := [0]
  lhsNonContracting := [0]
  rhsNonContracting := [1]
  lhsBatch := []
  rhsBatch := []
  wf := dot_S96x512_S512x3267_S96x3267_1_0_0_1_n_n_wf
def dot_S96x256x32_S96x32x32_S96x256x32_2_1_1_2_0_0 : DotDims S96x256x32 S96x32x32 S96x256x32 where
  lhsContracting := [2]
  rhsContracting := [1]
  lhsNonContracting := [1]
  rhsNonContracting := [2]
  lhsBatch := [0]
  rhsBatch := [0]
  wf := dot_S96x256x32_S96x32x32_S96x256x32_2_1_1_2_0_0_wf
def dot_S96x256x32_S96x32x3_S96x256x3_2_1_1_2_0_0 : DotDims S96x256x32 S96x32x3 S96x256x3 where
  lhsContracting := [2]
  rhsContracting := [1]
  lhsNonContracting := [1]
  rhsNonContracting := [2]
  lhsBatch := [0]
  rhsBatch := [0]
  wf := dot_S96x256x32_S96x32x3_S96x256x3_2_1_1_2_0_0_wf

abbrev win0_0 : Pipeline.Window sig grid0 :=
  Pipeline.Window.ofSpec (Memref.whole main_v48) S96x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S512x3267.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S96x3267.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S96x3267.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S96x256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S96x32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v69) S96x256x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S96x32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S96x256x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S96x32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S96x256x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v67) S96x32x3.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v75) S96x256x3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v76) S96x256x3.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S96x4096x32 : Shape := ⟨3, ![96, 4096, 32]⟩
abbrev S96x4096 : Shape := ⟨2, ![96, 4096]⟩
abbrev S6x1024 : Shape := ⟨2, ![6, 1024]⟩
abbrev S1x512 : Shape := ⟨2, ![1, 512]⟩
abbrev S4096x3267 : Shape := ⟨2, ![4096, 3267]⟩
abbrev S3267 : Shape := ⟨1, ![3267]⟩
abbrev S4096 : Shape := ⟨1, ![4096]⟩
abbrev S_ : Shape := ⟨0, ![]⟩
abbrev S96 : Shape := ⟨1, ![96]⟩
abbrev S96x1 : Shape := ⟨2, ![96, 1]⟩
abbrev S96x1024 : Shape := ⟨2, ![96, 1024]⟩
abbrev S4096x1 : Shape := ⟨2, ![4096, 1]⟩
abbrev S96x512 : Shape := ⟨2, ![96, 512]⟩
abbrev S96x3267 : Shape := ⟨2, ![96, 3267]⟩
abbrev S1x3267 : Shape := ⟨2, ![1, 3267]⟩
abbrev S96x1056 : Shape := ⟨2, ![96, 1056]⟩
abbrev S96x32 : Shape := ⟨2, ![96, 32]⟩
abbrev S96x1x32 : Shape := ⟨3, ![96, 1, 32]⟩
abbrev S96x32x32 : Shape := ⟨3, ![96, 32, 32]⟩
abbrev S96x99 : Shape := ⟨2, ![96, 99]⟩
abbrev S96x3 : Shape := ⟨2, ![96, 3]⟩
abbrev S96x1x3 : Shape := ⟨3, ![96, 1, 3]⟩
abbrev S96x96 : Shape := ⟨2, ![96, 96]⟩
abbrev S96x32x3 : Shape := ⟨3, ![96, 32, 3]⟩
abbrev S96x4096x3 : Shape := ⟨3, ![96, 4096, 3]⟩

abbrev nBuf : Space → Nat
  | .hbm => 195
  | .vmem => 0
  | .smem => 0
  | _ => 0

abbrev hbmTy0_0 (i : Nat) : BufTy := match i % 128 with
  | 0 => ⟨S96x4096x32, .f32⟩
  | 1 => ⟨S96x4096, .f32⟩
  | 2 => ⟨S96x4096, .f32⟩
  | 3 => ⟨S6x1024, .f32⟩
  | 4 => ⟨S6x1024, .f32⟩
  | 5 => ⟨S1x512, .f32⟩
  | 6 => ⟨S1x512, .f32⟩
  | 7 => ⟨S96x4096, .f32⟩
  | 8 => ⟨S6x1024, .f32⟩
  | 9 => ⟨S1x512, .f32⟩
  | 10 => ⟨S4096x3267, .f32⟩
  | 11 => ⟨S3267, .f32⟩
  | 12 => ⟨S4096, .i32⟩
  | 13 => ⟨S4096, .i32⟩
  | 14 => ⟨S_, .f32⟩
  | 15 => ⟨S96x4096, .f32⟩
  | 16 => ⟨S96x4096, .f32⟩
  | 17 => ⟨S96x4096, .f32⟩
  | 18 => ⟨S96x4096, .f32⟩
  | 19 => ⟨S96x4096, .i1⟩
  | 20 => ⟨S96x4096, .f32⟩
  | 21 => ⟨S96x4096, .f32⟩
  | 22 => ⟨S96x4096, .f32⟩
  | 23 => ⟨S96x4096, .f32⟩
  | 24 => ⟨S96x4096, .f32⟩
  | 25 => ⟨S96x4096, .f32⟩
  | 26 => ⟨S96x4096, .f32⟩
  | 27 => ⟨S96x4096, .f32⟩
  | 28 => ⟨S_, .f32⟩
  | 29 => ⟨S96x4096, .f32⟩
  | 30 => ⟨S96x4096, .f32⟩
  | 31 => ⟨S96x4096, .f32⟩
  | 32 => ⟨S96x4096, .f32⟩
  | 33 => ⟨S_, .f32⟩
  | 34 => ⟨S6x1024, .f32⟩
  | 35 => ⟨S6x1024, .f32⟩
  | 36 => ⟨S6x1024, .f32⟩
  | 37 => ⟨S6x1024, .f32⟩
  | 38 => ⟨S6x1024, .i1⟩
  | 39 => ⟨S6x1024, .f32⟩
  | 40 => ⟨S6x1024, .f32⟩
  | 41 => ⟨S6x1024, .f32⟩
  | 42 => ⟨S6x1024, .f32⟩
  | 43 => ⟨S6x1024, .f32⟩
  | 44 => ⟨S6x1024, .f32⟩
  | 45 => ⟨S6x1024, .f32⟩
  | 46 => ⟨S6x1024, .f32⟩
  | 47 => ⟨S_, .f32⟩
  | 48 => ⟨S6x1024, .f32⟩
  | 49 => ⟨S6x1024, .f32⟩
  | 50 => ⟨S6x1024, .f32⟩
  | 51 => ⟨S6x1024, .f32⟩
  | 52 => ⟨S_, .f32⟩
  | 53 => ⟨S1x512, .f32⟩
  | 54 => ⟨S1x512, .f32⟩
  | 55 => ⟨S1x512, .f32⟩
  | 56 => ⟨S1x512, .f32⟩
  | 57 => ⟨S1x512, .i1⟩
  | 58 => ⟨S1x512, .f32⟩
  | 59 => ⟨S1x512, .f32⟩
  | 60 => ⟨S1x512, .f32⟩
  | 61 => ⟨S1x512, .f32⟩
  | 62 => ⟨S1x512, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S1x512, .f32⟩
  | 71 => ⟨S96, .i32⟩
  | 72 => ⟨S_, .i32⟩
  | 73 => ⟨S_, .i32⟩
  | 74 => ⟨S96, .i32⟩
  | 75 => ⟨S96, .i32⟩
  | 76 => ⟨S96, .i32⟩
  | 77 => ⟨S_, .i32⟩
  | 78 => ⟨S96, .i32⟩
  | 79 => ⟨S96, .i1⟩
  | 80 => ⟨S96, .i32⟩
  | 81 => ⟨S96, .i32⟩
  | 82 => ⟨S_, .i32⟩
  | 83 => ⟨S96, .i32⟩
  | 84 => ⟨S96, .i1⟩
  | 85 => ⟨S96, .i1⟩
  | 86 => ⟨S_, .i32⟩
  | 87 => ⟨S96, .i32⟩
  | 88 => ⟨S96, .i32⟩
  | 89 => ⟨S96, .i32⟩
  | 90 => ⟨S96, .i32⟩
  | 91 => ⟨S_, .i32⟩
  | 92 => ⟨S_, .i32⟩
  | 93 => ⟨S96, .i32⟩
  | 94 => ⟨S96, .i32⟩
  | 95 => ⟨S96, .i32⟩
  | 96 => ⟨S_, .i32⟩
  | 97 => ⟨S96, .i32⟩
  | 98 => ⟨S96, .i1⟩
  | 99 => ⟨S96, .i32⟩
  | 100 => ⟨S96, .i32⟩
  | 101 => ⟨S_, .i32⟩
  | 102 => ⟨S96, .i32⟩
  | 103 => ⟨S96, .i1⟩
  | 104 => ⟨S96, .i1⟩
  | 105 => ⟨S_, .i32⟩
  | 106 => ⟨S96, .i32⟩
  | 107 => ⟨S96, .i32⟩
  | 108 => ⟨S96, .i32⟩
  | 109 => ⟨S_, .i32⟩
  | 110 => ⟨S96, .i32⟩
  | 111 => ⟨S96, .i1⟩
  | 112 => ⟨S_, .i32⟩
  | 113 => ⟨S96, .i32⟩
  | 114 => ⟨S96, .i32⟩
  | 115 => ⟨S96, .i32⟩
  | 116 => ⟨S96x1, .i32⟩
  | 117 => ⟨S96x1024, .f32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S4096x1, .i32⟩
  | 126 => ⟨S96x4096, .f32⟩
  | 127 => ⟨S96x4096, .f32⟩
  | _ => ⟨S96x4096x32, .f32⟩

abbrev hbmTy0_1 (i : Nat) : BufTy := match i % 128 with
  | 0 => ⟨S_, .i32⟩
  | 1 => ⟨S96, .i32⟩
  | 2 => ⟨S96, .i1⟩
  | 3 => ⟨S_, .i32⟩
  | 4 => ⟨S96, .i32⟩
  | 5 => ⟨S96, .i32⟩
  | 6 => ⟨S96, .i32⟩
  | 7 => ⟨S96x1, .i32⟩
  | 8 => ⟨S96x512, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S96x4096, .f32⟩
  | 18 => ⟨S96x4096, .f32⟩
  | 19 => ⟨S96x3267, .f32⟩
  | 20 => ⟨S1x3267, .f32⟩
  | 21 => ⟨S96x3267, .f32⟩
  | 22 => ⟨S96x3267, .f32⟩
  | 23 => ⟨S96x1056, .f32⟩
  | 24 => ⟨S96x32, .f32⟩
  | 25 => ⟨S96x1x32, .f32⟩
  | 26 => ⟨S96x1024, .f32⟩
  | 27 => ⟨S96x32x32, .f32⟩
  | 28 => ⟨S96x4096x32, .f32⟩
  | 29 => ⟨S96x4096x32, .f32⟩
  | 30 => ⟨S96x4096x32, .f32⟩
  | 31 => ⟨S_, .f32⟩
  | 32 => ⟨S96x4096x32, .f32⟩
  | 33 => ⟨S96x4096x32, .f32⟩
  | 34 => ⟨S96x4096x32, .f32⟩
  | 35 => ⟨S96x1056, .f32⟩
  | 36 => ⟨S96x32, .f32⟩
  | 37 => ⟨S96x1x32, .f32⟩
  | 38 => ⟨S96x1024, .f32⟩
  | 39 => ⟨S96x32x32, .f32⟩
  | 40 => ⟨S96x4096x32, .f32⟩
  | 41 => ⟨S96x4096x32, .f32⟩
  | 42 => ⟨S96x4096x32, .f32⟩
  | 43 => ⟨S_, .f32⟩
  | 44 => ⟨S96x4096x32, .f32⟩
  | 45 => ⟨S96x4096x32, .f32⟩
  | 46 => ⟨S96x4096x32, .f32⟩
  | 47 => ⟨S96x1056, .f32⟩
  | 48 => ⟨S96x32, .f32⟩
  | 49 => ⟨S96x1x32, .f32⟩
  | 50 => ⟨S96x1024, .f32⟩
  | 51 => ⟨S96x32x32, .f32⟩
  | 52 => ⟨S96x4096x32, .f32⟩
  | 53 => ⟨S96x4096x32, .f32⟩
  | 54 => ⟨S96x4096x32, .f32⟩
  | 55 => ⟨S_, .f32⟩
  | 56 => ⟨S96x4096x32, .f32⟩
  | 57 => ⟨S96x4096x32, .f32⟩
  | 58 => ⟨S96x4096x32, .f32⟩
  | 59 => ⟨S96x99, .f32⟩
  | 60 => ⟨S96x3, .f32⟩
  | 61 => ⟨S96x1x3, .f32⟩
  | 62 => ⟨S96x96, .f32⟩
  | 63 => ⟨S96x32x3, .f32⟩
  | 64 => ⟨S96x4096x3, .f32⟩
  | 65 => ⟨S96x4096x3, .f32⟩
  | 66 => ⟨S96x4096x3, .f32⟩
  | _ => ⟨S96x4096x32, .f32⟩

abbrev hbmTy (i : Nat) : BufTy := match i / 128 with
  | 0 => hbmTy0_0 i
  | 1 => hbmTy0_1 i
  | _ => ⟨S96x4096x32, .f32⟩

abbrev bufTy : (tb : Table) → Fin (tcTables nBuf tb) → BufTy
  | .hbm, ⟨i, _⟩ => hbmTy i
  | _, _ => ⟨S96x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v5 : Ref sig .tc := ⟨.hbm, 46, rfl⟩
abbrev main_cst_0 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_v10 : Ref sig .tc := ⟨.hbm, 65, rfl⟩
abbrev main_cst_1 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_c : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_c : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_0 : Ref sig .tc := ⟨.hbm, 86, rfl⟩
abbrev main_call3_v12 : Ref sig .tc := ⟨.hbm, 87, rfl⟩
abbrev main_call3_v13 : Ref sig .tc := ⟨.hbm, 88, rfl⟩
abbrev main_v16 : Ref sig .tc := ⟨.hbm, 89, rfl⟩
abbrev main_v17 : Ref sig .tc := ⟨.hbm, 90, rfl⟩
abbrev main_c_2 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_c : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_0 : Ref sig .tc := ⟨.hbm, 105, rfl⟩
abbrev main_call4_v12 : Ref sig .tc := ⟨.hbm, 106, rfl⟩
abbrev main_call4_v13 : Ref sig .tc := ⟨.hbm, 107, rfl⟩
abbrev main_v18 : Ref sig .tc := ⟨.hbm, 108, rfl⟩
abbrev main_c_3 : Ref sig .tc := ⟨.hbm, 109, rfl⟩
abbrev main_v19 : Ref sig .tc := ⟨.hbm, 110, rfl⟩
abbrev main_v20 : Ref sig .tc := ⟨.hbm, 111, rfl⟩
abbrev main_c_4 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_c_5 : Ref sig .tc := ⟨.hbm, 118, rfl⟩
abbrev main_v26 : Ref sig .tc := ⟨.hbm, 119, rfl⟩
abbrev main_v27 : Ref sig .tc := ⟨.hbm, 120, rfl⟩
abbrev main_c_6 : Ref sig .tc := ⟨.hbm, 121, rfl⟩
abbrev main_v28 : Ref sig .tc := ⟨.hbm, 122, rfl⟩
abbrev main_v29 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev main_c_7 : Ref sig .tc := ⟨.hbm, 128, rfl⟩
abbrev main_v34 : Ref sig .tc := ⟨.hbm, 129, rfl⟩
abbrev main_v35 : Ref sig .tc := ⟨.hbm, 130, rfl⟩
abbrev main_c_8 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_c_9 : Ref sig .tc := ⟨.hbm, 137, rfl⟩
abbrev main_v41 : Ref sig .tc := ⟨.hbm, 138, rfl⟩
abbrev main_v42 : Ref sig .tc := ⟨.hbm, 139, rfl⟩
abbrev main_c_10 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_cst_11 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_cst_12 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_cst_13 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩

abbrev nD : Nat := 1
abbrev τ : Topo := Topo.v7x

variable {F : FTy → Type} [FloatOps F]

class Facts₀ : Prop where
  bcast_S_S96x4096 : S_.BroadcastsInDim S96x4096 (![] : Fin 0 → Fin S96x4096.rank)
  bcast_S_S6x1024 : S_.BroadcastsInDim S6x1024 (![] : Fin 0 → Fin S6x1024.rank)
  bcast_S_S1x512 : S_.BroadcastsInDim S1x512 (![] : Fin 0 → Fin S1x512.rank)
  bcast_S_S96 : S_.BroadcastsInDim S96 (![] : Fin 0 → Fin S96.rank)
  bcast_S96_S96x1_0 : S96.BroadcastsInDim S96x1 (![0] : Fin 1 → Fin S96x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S3267_S1x3267_1 : S3267.BroadcastsInDim S1x3267 (![1] : Fin 1 → Fin S1x3267.rank)
  bcast_S1x3267_S96x3267_0_1 : S1x3267.BroadcastsInDim S96x3267 (![0, 1] : Fin 2 → Fin S96x3267.rank)
  slices_S96x3267_S96x1056_0_0 : S96x3267.Slices ![0, 0] S96x1056
  slices_S96x1056_S96x32_0_0 : S96x1056.Slices ![0, 0] S96x32
  bcast_S96x32_S96x1x32_0_2 : S96x32.BroadcastsInDim S96x1x32 (![0, 2] : Fin 2 → Fin S96x1x32.rank)
  slices_S96x1056_S96x1024_0_32 : S96x1056.Slices ![0, 32] S96x1024
  shapeCasts_S96x1024_S96x32x32 : S96x1024.ShapeCasts S96x32x32
  bcast_S96x1x32_S96x4096x32_0_1_2 : S96x1x32.BroadcastsInDim S96x4096x32 (![0, 1, 2] : Fin 3 → Fin S96x4096x32.rank)
  bcast_S_S96x4096x32 : S_.BroadcastsInDim S96x4096x32 (![] : Fin 0 → Fin S96x4096x32.rank)
  slices_S96x3267_S96x1056_0_1056 : S96x3267.Slices ![0, 1056] S96x1056
  slices_S96x3267_S96x1056_0_2112 : S96x3267.Slices ![0, 2112] S96x1056
  slices_S96x3267_S96x99_0_3168 : S96x3267.Slices ![0, 3168] S96x99
  slices_S96x99_S96x3_0_0 : S96x99.Slices ![0, 0] S96x3
  bcast_S96x3_S96x1x3_0_2 : S96x3.BroadcastsInDim S96x1x3 (![0, 2] : Fin 2 → Fin S96x1x3.rank)
  slices_S96x99_S96x96_0_3 : S96x99.Slices ![0, 3] S96x96
  shapeCasts_S96x96_S96x32x3 : S96x96.ShapeCasts S96x32x3
  bcast_S96x1x3_S96x4096x3_0_1_2 : S96x1x3.BroadcastsInDim S96x4096x3 (![0, 1, 2] : Fin 3 → Fin S96x4096x3.rank)
  gather_S6x1024_S96x1_S96x1024_1_0_n_n_0_1_11024_wf : GatherDims.WF S6x1024 S96x1 S96x1024 [1] [0] [] [0] [] 1 ![1, 1024]
  gather_S96x1024_S4096x1_S96x4096_0_1_n_n_1_1_961_wf : GatherDims.WF S96x1024 S4096x1 S96x4096 [0] [1] [] [1] [] 1 ![96, 1]
  gather_S1x512_S96x1_S96x512_1_0_n_n_0_1_1512_wf : GatherDims.WF S1x512 S96x1 S96x512 [1] [0] [] [0] [] 1 ![1, 512]
  gather_S96x512_S4096x1_S96x4096_0_1_n_n_1_1_961_wf : GatherDims.WF S96x512 S4096x1 S96x4096 [0] [1] [] [1] [] 1 ![96, 1]
  dot_S96x4096_S4096x3267_S96x3267_1_0_0_1_n_n_wf : DotDims.WF S96x4096 S4096x3267 S96x3267 [1] [0] [0] [1] [] []
  dot_S96x4096x32_S96x32x32_S96x4096x32_2_1_1_2_0_0_wf : DotDims.WF S96x4096x32 S96x32x32 S96x4096x32 [2] [1] [1] [2] [0] [0]
  dot_S96x4096x32_S96x32x3_S96x4096x3_2_1_1_2_0_0_wf : DotDims.WF S96x4096x32 S96x32x3 S96x4096x3 [2] [1] [1] [2] [0] [0]

variable [Facts₀]

def gather_S6x1024_S96x1_S96x1024_1_0_n_n_0_1_11024 : GatherDims S6x1024 S96x1 S96x1024 where
  offsetDims := [1]
  collapsedSliceDims := [0]
  operandBatchingDims := []
  startIndicesBatchingDims := []
  startIndexMap := [0]
  indexVectorDim := 1
  sliceSizes := ![1, 1024]
  wf := gather_S6x1024_S96x1_S96x1024_1_0_n_n_0_1_11024_wf
def gather_S96x1024_S4096x1_S96x4096_0_1_n_n_1_1_961 : GatherDims S96x1024 S4096x1 S96x4096 where
  offsetDims := [0]
  collapsedSliceDims := [1]
  operandBatchingDims := []
  startIndicesBatchingDims := []
  startIndexMap := [1]
  indexVectorDim := 1
  sliceSizes := ![96, 1]
  wf := gather_S96x1024_S4096x1_S96x4096_0_1_n_n_1_1_961_wf
def gather_S1x512_S96x1_S96x512_1_0_n_n_0_1_1512 : GatherDims S1x512 S96x1 S96x512 where
  offsetDims := [1]
  collapsedSliceDims := [0]
  operandBatchingDims := []
  startIndicesBatchingDims := []
  startIndexMap := [0]
  indexVectorDim := 1
  sliceSizes := ![1, 512]
  wf := gather_S1x512_S96x1_S96x512_1_0_n_n_0_1_1512_wf
def gather_S96x512_S4096x1_S96x4096_0_1_n_n_1_1_961 : GatherDims S96x512 S4096x1 S96x4096 where
  offsetDims := [0]
  collapsedSliceDims := [1]
  operandBatchingDims := []
  startIndicesBatchingDims := []
  startIndexMap := [1]
  indexVectorDim := 1
  sliceSizes := ![96, 1]
  wf := gather_S96x512_S4096x1_S96x4096_0_1_n_n_1_1_961_wf
def dot_S96x4096_S4096x3267_S96x3267_1_0_0_1_n_n : DotDims S96x4096 S4096x3267 S96x3267 where
  lhsContracting := [1]
  rhsContracting := [0]
  lhsNonContracting := [0]
  rhsNonContracting := [1]
  lhsBatch := []
  rhsBatch := []
  wf := dot_S96x4096_S4096x3267_S96x3267_1_0_0_1_n_n_wf
def dot_S96x4096x32_S96x32x32_S96x4096x32_2_1_1_2_0_0 : DotDims S96x4096x32 S96x32x32 S96x4096x32 where
  lhsContracting := [2]
  rhsContracting := [1]
  lhsNonContracting := [1]
  rhsNonContracting := [2]
  lhsBatch := [0]
  rhsBatch := [0]
  wf := dot_S96x4096x32_S96x32x32_S96x4096x32_2_1_1_2_0_0_wf
def dot_S96x4096x32_S96x32x3_S96x4096x3_2_1_1_2_0_0 : DotDims S96x4096x32 S96x32x3 S96x4096x3 where
  lhsContracting := [2]
  rhsContracting := [1]
  lhsNonContracting := [1]
  rhsNonContracting := [2]
  lhsBatch := [0]
  rhsBatch := [0]
  wf := dot_S96x4096x32_S96x32x3_S96x4096x3_2_1_1_2_0_0_wf

class Facts : Prop extends Facts₀ where

variable [Facts]
-- ==== Proof.BReg0.lean ====
/- Region 0 of @main: the matrix product `z · W + b` of a [96,4096] by a [4096,3267] matrix, blocked over the
   contracted axis into 8 grid points of 512 columns each. The kernel keeps the running sum in a scratch buffer that
   lives from point to point: the first point stores zeros into it and adds the first block product, every later point
   adds its block product to what the point before left, and the last point also stores the finished sum plus the bias
   into the output window's buffer, which is written back there and nowhere else. This module states what the scratch
   holds after each point (`accAt`) and what the last point stores (`out0`) as the skeleton's payloads applied to the
   windows' blocks, gives the pipeline's proof data (`pd0`) with the invariant that carries the scratch between points
   (`PhiS`), and proves the body obligation and the invariant's two ends, at any float interpretation `F` and any
   buffer contents `V` at the region's entry. -/
import proofs.«422240_j68229850464342_4_alg».proof.Proof.Gen.Kernel.Launch
import proofs.«422240_j68229850464342_4_alg».proof.Proof.Gen.Kernel.Skeleton
import proofs.«422240_j68229850464342_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional (the scratch is zeroed under it), from the grid coordinate. -/
abbrev condFirst (i : grid0.Coords) : Prop :=
  (Scalar.cmpi .ne (Scalar.extui (Scalar.cmpi .eq (BitVec.ofNat 32 (i 0).val) 0#32)) 0#32) = 1#1

/-- The zero offsets of a whole-buffer access of rank 2. -/
theorem hz2 : (![0, 0] : Fin 2 → Nat) = fun _ => 0 := by funext a; fin_cases a <;> rfl

set_option maxHeartbeats 1000000 in
/-- The body at the first point (the first conditional taken, the last not): on whole memrefs, the three inputs' at
    read contents, the output's at contents handed back untouched, the scratch at anything, it runs to the continuation
    holding the scratch at the first partial product over the zeros. -/
theorem kernel0_A (c : Dev nD) (i : grid0.Coords)
    (arg1 : Memref sig .tc .vmem S96x512 .f32) (harg1 : arg1.IsWhole) (arg2 : Memref sig .tc .vmem S512x3267 .f32) (harg2 : arg2.IsWhole)
    (arg3 : Memref sig .tc .vmem S96x3267 .f32) (harg3 : arg3.IsWhole) (arg4 : Memref sig .tc .vmem S96x3267 .f32) (harg4 : arg4.IsWhole)
    (arg5 : Memref sig .tc .vmem S96x3267 .f32) (harg5 : arg5.IsWhole)
    (hc1 : condFirst i) (hc2 : ¬ k0_cond2 i = 1#1)
    (x0 : Vec F S96x512 .f32) (x1 : Vec F S512x3267 .f32) (x2 : Vec F S96x3267 .f32) (xi : Vec F S96x3267 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (fun y => ⟨_, List.mem_cons_self, View.mem_set_unit_zero hz2 inb_S96x3267_S96x3267_0_0 y⟩),
    View.canon_cons_unit_zero hz2, View.readCov_unit_zero _ hz2]
  simp only [View.readAt_eq_ld, View.ld_unit_zero (S := S96x512) hz2, View.ld_unit_zero (S := S512x3267) hz2]

set_option maxHeartbeats 1000000 in
/-- The body at a middle point (neither conditional taken): the scratch, handed over at the contents the point before
    left, ends at the next partial product added to them; the output's buffer is handed back untouched. -/
theorem kernel0_B (c : Dev nD) (i : grid0.Coords)
    (arg1 : Memref sig .tc .vmem S96x512 .f32) (harg1 : arg1.IsWhole) (arg2 : Memref sig .tc .vmem S512x3267 .f32) (harg2 : arg2.IsWhole)
    (arg3 : Memref sig .tc .vmem S96x3267 .f32) (harg3 : arg3.IsWhole) (arg4 : Memref sig .tc .vmem S96x3267 .f32) (harg4 : arg4.IsWhole)
    (arg5 : Memref sig .tc .vmem S96x3267 .f32) (harg5 : arg5.IsWhole)
    (hc1 : ¬ condFirst i) (hc2 : ¬ k0_cond2 i = 1#1)
    (x0 : Vec F S96x512 .f32) (x1 : Vec F S512x3267 .f32) (x2 : Vec F S96x3267 .f32) (xi : Vec F S96x3267 .f32) (xs : Vec F S96x3267 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k0_pay2 x0 x1 xs)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (fun y => ⟨_, List.mem_cons_self, View.mem_set_unit_zero hz2 inb_S96x3267_S96x3267_0_0 y⟩),
    View.canon_cons_unit_zero hz2]
  simp only [View.readAt_eq_ld, View.ld_unit_zero (S := S96x512) hz2, View.ld_unit_zero (S := S512x3267) hz2, View.ld_unit_zero (S := S96x3267) hz2]

set_option maxHeartbeats 1000000 in
/-- The body at the last point (the first conditional not taken, the last taken): the scratch ends at the last partial
    product added to what the point before left, and the output's buffer, at anything before, at that sum plus the
    bias block. -/
theorem kernel0_C (c : Dev nD) (i : grid0.Coords)
    (arg1 : Memref sig .tc .vmem S96x512 .f32) (harg1 : arg1.IsWhole) (arg2 : Memref sig .tc .vmem S512x3267 .f32) (harg2 : arg2.IsWhole)
    (arg3 : Memref sig .tc .vmem S96x3267 .f32) (harg3 : arg3.IsWhole) (arg4 : Memref sig .tc .vmem S96x3267 .f32) (harg4 : arg4.IsWhole)
    (arg5 : Memref sig .tc .vmem S96x3267 .f32) (harg5 : arg5.IsWhole)
    (hc1 : ¬ condFirst i) (hc2 : k0_cond2 i = 1#1)
    (x0 : Vec F S96x512 .f32) (x1 : Vec F S512x3267 .f32) (x2 : Vec F S96x3267 .f32) (xs : Vec F S96x3267 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 (k0_pay2 x0 x1 xs) x2) ∗ owns (c : Thread nD τ) arg5 fullShare (k0_pay2 x0 x1 xs)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero hz2 inb_S96x3267_S96x3267_0_0 y⟩),
      View.canon_unit_zero hz2, View.readCov_unit_zero _ hz2]
    simp only [View.readAt_eq_ld, View.ld_unit_zero (S := S96x512) hz2, View.ld_unit_zero (S := S512x3267) hz2, View.ld_unit_zero (S := S96x3267) hz2]
  iexists _; isplitr
  swap; · iexact H5
  ipureintro
  sl_unfold_words
  rw [View.read_writes_eq_canon _ _ _ (fun y => ⟨_, List.mem_cons_self, View.mem_set_unit_zero hz2 inb_S96x3267_S96x3267_0_0 y⟩),
    View.canon_cons_unit_zero hz2]
  simp only [View.readAt_eq_ld, View.ld_unit_zero (S := S96x512) hz2, View.ld_unit_zero (S := S512x3267) hz2, View.ld_unit_zero (S := S96x3267) hz2]

/-! ## The conditionals, decided over the grid -/

/-- The first conditional holds at the first point only. -/
theorem hcondFirst : ∀ t : Fin cfg0.N, condFirst (grid0.coords t) ↔ t.val = 0 :=
  (by decide +kernel : ∀ t : Fin grid0.N, condFirst (grid0.coords t) ↔ t.val = 0)

/-- The last conditional holds at the last point only. -/
theorem hcondLast : ∀ t : Fin cfg0.N, k0_cond2 (grid0.coords t) = 1#1 ↔ t.val = 7 :=
  (by decide +kernel : ∀ t : Fin grid0.N, k0_cond2 (grid0.coords t) = 1#1 ↔ t.val = 7)

/-- The inputs are never idle. -/
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
/-- The output window is idle away from the last point, and not written back there; -/
theorem idle0_3 : ∀ t : Fin cfg0.N, t.val ≠ 7 → cfg0.idle 3 (grid0.coords t) = true :=
  (by decide +kernel : ∀ t : Fin grid0.N, t.val ≠ 7 → cfg0.idle 3 (grid0.coords t) = true)
theorem noFlush0_3 : ∀ t : Fin cfg0.N, t.val ≠ 7 → (cfg0.win 3).flush t = false :=
  (by decide +kernel : ∀ t : Fin grid0.N, t.val ≠ 7 → win0_3.flush t = false)
/-- live at the last point. -/
theorem live0_3 : ∀ t : Fin cfg0.N, t.val = 7 → cfg0.idle 3 (grid0.coords t) = false :=
  (by decide +kernel : ∀ t : Fin grid0.N, t.val = 7 → cfg0.idle 3 (grid0.coords t) = false)

/-! ## The windows' blocks and what the scratch and the output hold -/

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three inputs' blocks at their literal types: columns `512 t … 512 t + 511` of the left factor, the same rows
    of the right factor, the whole bias. -/
abbrev xblk0 (c : Dev nD) (t : Fin cfg0.N) : Vec F S96x512 .f32 := blk0 V c 0 t
abbrev wblk0 (c : Dev nD) (t : Fin cfg0.N) : Vec F S512x3267 .f32 := blk0 V c 1 t
abbrev bblk0 (c : Dev nD) (t : Fin cfg0.N) : Vec F S96x3267 .f32 := blk0 V c 2 t

/-- THE ACCUMULATION. The scratch after the body at point `n`: at the first point the block product added to the
    zeros just stored, at a later point the block product added to what the point before left. -/
def accAt (c : Dev nD) : (n : ℕ) → n < cfg0.N → Vec F S96x3267 .f32
  | 0, h => k0_pay2 (xblk0 V c ⟨0, h⟩) (wblk0 V c ⟨0, h⟩) (k0_pay1 (F := F))
  | n + 1, h => k0_pay2 (xblk0 V c ⟨n + 1, h⟩) (wblk0 V c ⟨n + 1, h⟩) (accAt c n (Nat.lt_of_succ_lt h))

theorem accAt_zero (c : Dev nD) (h : 0 < cfg0.N) :
    accAt V c 0 h = k0_pay2 (xblk0 V c ⟨0, h⟩) (wblk0 V c ⟨0, h⟩) (k0_pay1 (F := F)) := rfl

theorem accAt_succ (c : Dev nD) (n : ℕ) (h : n + 1 < cfg0.N) :
    accAt V c (n + 1) h = k0_pay2 (xblk0 V c ⟨n + 1, h⟩) (wblk0 V c ⟨n + 1, h⟩) (accAt V c n (Nat.lt_of_succ_lt h)) := rfl

/-- The same at a point that is not the first, over the point before. -/
theorem accAt_pos (c : Dev nD) (t : Fin cfg0.N) (ht : t.val ≠ 0) :
    accAt V c t.val t.isLt = k0_pay2 (xblk0 V c t) (wblk0 V c t) (accAt V c (t.val - 1) (Nat.lt_of_le_of_lt (Nat.sub_le _ _) t.isLt)) := by
  obtain ⟨n, hn⟩ := t
  cases n with
  | zero => exact absurd rfl ht
  | succ n => rfl

/-- The last point. -/
def tLast : Fin cfg0.N := ⟨7, by rw [show cfg0.N = 8 from N_0]; decide⟩

/-- What the last point stores into the output window's buffer: the finished sum plus the bias. -/
def out0 (c : Dev nD) : Vec F S96x3267 .f32 :=
  k0_pay3 (accAt V c 7 tLast.isLt) (bblk0 V c tLast)

theorem out0_eq (c : Dev nD) : out0 V c = k0_pay3 (accAt V c 7 tLast.isLt) (bblk0 V c tLast) := rfl

/-! ## The region invariant -/

/-- The scratch as a memref: a whole scoped buffer of the kernel's own. -/
abbrev scM0 : Memref sig .tc .vmem S96x3267 .f32 := Memref.whole cc0_scratch0

/-- The core's other scoped buffers that are no staging buffer of this call (the other call's staging buffers), each
    at some contents: the body neither reads nor writes them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg9_1), ((c : Thread nD τ).loc cc1_stg9_1) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- The invariant before position `n`: before the first point the class's (the scratch at anything); afterwards the
    scratch at what the point before left in it, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ rest0 (F := F) c) ∗ (∃ r, prngReg c r)) := by
  cases n with
  | zero => exact absurd rfl hz
  | succ n => rfl

/-! ## The proof data -/

/-- The proof data of the pipeline on core `c`: the arrays as the region finds them; after the body each input's
    buffer at its block, the output's at `out0` (consulted at the last point only: elsewhere the window is idle); the
    invariant `PhiS`; nothing owed; full shares. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 V c
  Φ t := PhiS V c t.val (Nat.le_of_lt_succ t.isLt)
  q _ := fullShare
  owed _ := 0

theorem pd0_A (c : Dev nD) (w : Fin cfg0.W) : (pd0 V c).A w = V c (Pipeline.arrRef spec0 w) := by
  dsimp only [pd0]

theorem pd0_after_0 (c : Dev nD) (t : Fin cfg0.N) : (pd0 V c).after 0 t = blk0 V c 0 t := by dsimp only [pd0]
theorem pd0_after_1 (c : Dev nD) (t : Fin cfg0.N) : (pd0 V c).after 1 t = blk0 V c 1 t := by dsimp only [pd0]
theorem pd0_after_2 (c : Dev nD) (t : Fin cfg0.N) : (pd0 V c).after 2 t = blk0 V c 2 t := by dsimp only [pd0]
theorem pd0_after_3 (c : Dev nD) (t : Fin cfg0.N) : (pd0 V c).after 3 t = out0 V c := by dsimp only [pd0]

/-- What the last point leaves in the output window's buffer. -/
theorem pd0_after_out (c : Dev nD) (t : Fin cfg0.N) (h : t.val = 7) : (pd0 V c).after 3 t = out0 V c := pd0_after_3 V c t

theorem PhiS_castSucc (c : Dev nD) (t : Fin cfg0.N) :
    (pd0 V c).Φ t.castSucc = PhiS V c t.val (Nat.le_of_lt t.isLt) := by
  dsimp only [pd0]; simp only [Fin.coe_castSucc]

/-- Each input's current staging buffer holds its block at every point, fetched there or not (an unfetched input's
    block index has not moved). -/
theorem before0_0 (c : Dev nD) (t : Fin cfg0.N) (d) : (pd0 V c).before 0 t d = blk0 V c 0 t :=
  ((pd0 V c).before_in_eq_fetched 0 rfl (fun _ => rfl) (fun _ _ _ => rfl) (fun t => by rw [pd0_after_0]; unfold Dat.blockOf blk0; rw [pd0_A]; try rfl) t d).trans
    (by unfold Dat.fetched Dat.blockOf blk0; rw [pd0_A]; try rfl)
theorem before0_1 (c : Dev nD) (t : Fin cfg0.N) (d) : (pd0 V c).before 1 t d = blk0 V c 1 t :=
  ((pd0 V c).before_in_eq_fetched 1 rfl (fun _ => rfl) (fun _ _ _ => rfl) (fun t => by rw [pd0_after_1]; unfold Dat.blockOf blk0; rw [pd0_A]; try rfl) t d).trans
    (by unfold Dat.fetched Dat.blockOf blk0; rw [pd0_A]; try rfl)
theorem before0_2 (c : Dev nD) (t : Fin cfg0.N) (d) : (pd0 V c).before 2 t d = blk0 V c 2 t :=
  ((pd0 V c).before_in_eq_fetched 2 rfl (fun _ => rfl) (fun _ _ _ => rfl) (fun t => by rw [pd0_after_2]; unfold Dat.blockOf blk0; rw [pd0_A]; try rfl) t d).trans
    (by unfold Dat.fetched Dat.blockOf blk0; rw [pd0_A]; try rfl)

/-- The scratch at the first point. -/
theorem accAt_first (c : Dev nD) (t : Fin cfg0.N) (ht : t.val = 0) :
    accAt V c t.val t.isLt = k0_pay2 (xblk0 V c t) (wblk0 V c t) (k0_pay1 (F := F)) := by
  obtain ⟨n, hn⟩ := t
  cases n with
  | zero => rfl
  | succ n => exact absurd ht (Nat.succ_ne_zero n)

/-- The output at the last point, whatever its name. -/
theorem out0_at (c : Dev nD) (t : Fin cfg0.N) (ht : t.val = 7) :
    out0 V c = k0_pay3 (accAt V c t.val t.isLt) (bblk0 V c t) := by
  obtain rfl : t = tLast := Fin.ext ht
  rfl

/-! ## The body obligation, at a generic point -/

/-- What the body is called with at point `t` (the windows one by one), -/
def bodyPre (c : Dev nD) (t : Fin cfg0.N) : sProp 𝕄 :=
  iprop((pd0 V c).Φ t.castSucc ∗ (pd0 V c).owesAt () t.castSucc
    ∗ (∃ d, owns (c : Thread nD τ) (win0_0.stage (cfg0.slots t 0)) fullShare ((pd0 V c).before 0 t d))
    ∗ (∃ d, owns (c : Thread nD τ) (win0_1.stage (cfg0.slots t 1)) fullShare ((pd0 V c).before 1 t d))
    ∗ (∃ d, owns (c : Thread nD τ) (win0_2.stage (cfg0.slots t 2)) fullShare ((pd0 V c).before 2 t d))
    ∗ (∃ d, owns (c : Thread nD τ) (win0_3.stage (cfg0.slots t 3)) fullShare ((pd0 V c).before 3 t d)))

/-- and what it returns. -/
def bodyPost (c : Dev nD) (t : Fin cfg0.N) : sProp 𝕄 :=
  iprop((pd0 V c).Φ t.succ ∗ (pd0 V c).owesAt () t.succ
    ∗ (pd0 V c).leavesExact 0 t
    ∗ (pd0 V c).leavesExact 1 t
    ∗ (pd0 V c).leavesExact 2 t
    ∗ (pd0 V c).leavesExact 3 t)

set_option maxHeartbeats 4800000 in
/-- The body at any point. The inputs' memrefs hold their blocks; the point's position says which conditionals are
    taken; the invariant hands the body the scratch (at anything at the first point, at what the point before left
    afterwards) and takes it back at this point's contents; away from the last point the output's buffer passes through
    untouched, at the last point it ends at the finished sum plus the bias; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (pd0 V c).owesAt () t.succ = (pd0 V c).owesAt () t.castSucc from rfl]
  rw [show (pd0 V c).Φ t.succ = PhiS V c (t.val + 1) t.isLt from rfl, PhiS_succ]
  rw [show (pd0 V c).leavesExact 0 t = owns (c : Thread nD τ) (win0_0.stage (cfg0.slots t 0)) fullShare ((pd0 V c).after 0 t) from by
    unfold Dat.leavesExact; rw [live0_0 t], pd0_after_0]
  rw [show (pd0 V c).leavesExact 1 t = owns (c : Thread nD τ) (win0_1.stage (cfg0.slots t 1)) fullShare ((pd0 V c).after 1 t) from by
    unfold Dat.leavesExact; rw [live0_1 t], pd0_after_1]
  rw [show (pd0 V c).leavesExact 2 t = owns (c : Thread nD τ) (win0_2.stage (cfg0.slots t 2)) fullShare ((pd0 V c).after 2 t) from by
    unfold Dat.leavesExact; rw [live0_2 t], pd0_after_2]
  have hN : t.val < 8 := lt_of_lt_of_eq t.isLt (show cfg0.N = 8 from N_0)
  by_cases h0 : t.val = 0
  · have h7 : t.val ≠ 7 := by omega
    rw [Dat.leavesExact_idle (pd0 V c) 3 t (idle0_3 t h7) (noFlush0_3 t h7)]
    rw [PhiS_castSucc V c t, PhiS_zero V c _ _ h0, PhiA0_eq, accAt_first V c t h0]
    iintro ⟨⟨⟨HS, Hrest⟩, Hg⟩, Ho, ⟨%d0, H0⟩, ⟨%d1, H1⟩, ⟨%d2, H2⟩, ⟨%d3, H3⟩⟩
    iapply (kernel0_A c (grid0.coords t) _ _ _ _ _ _ _ _ _ _ ((hcondFirst t).mpr h0) (fun h => h7 ((hcondLast t).mp h))
      (xblk0 V c t) (wblk0 V c t) (bblk0 V c t) ((pd0 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexists d3; iexact H3
  · by_cases h7 : t.val = 7
    · rw [show (pd0 V c).leavesExact 3 t = owns (c : Thread nD τ) (win0_3.stage (cfg0.slots t 3)) fullShare ((pd0 V c).after 3 t) from by
        unfold Dat.leavesExact; rw [live0_3 t h7], pd0_after_3]
      rw [PhiS_castSucc V c t, PhiS_pos V c _ _ h0, out0_at V c t h7, accAt_pos V c t h0]
      iintro ⟨⟨⟨HS, Hrest⟩, Hg⟩, Ho, ⟨%d0, H0⟩, ⟨%d1, H1⟩, ⟨%d2, H2⟩, ⟨%d3, H3⟩⟩
      iapply (kernel0_C c (grid0.coords t) _ _ _ _ _ _ _ _ _ _ (fun h => h0 ((hcondFirst t).mp h)) ((hcondLast t).mpr h7)
        (xblk0 V c t) (wblk0 V c t) (bblk0 V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (pd0 V c) 3 t (idle0_3 t h7) (noFlush0_3 t h7)]
      rw [PhiS_castSucc V c t, PhiS_pos V c _ _ h0, accAt_pos V c t h0]
      iintro ⟨⟨⟨HS, Hrest⟩, Hg⟩, Ho, ⟨%d0, H0⟩, ⟨%d1, H1⟩, ⟨%d2, H2⟩, ⟨%d3, H3⟩⟩
      iapply (kernel0_B c (grid0.coords t) _ _ _ _ _ _ _ _ _ _ (fun h => h0 ((hcondFirst t).mp h)) (fun h => h7 ((hcondLast t).mp h))
        (xblk0 V c t) (wblk0 V c t) (bblk0 V c t) ((pd0 V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists d3; iexact H3

/-- The library's body obligation, at every point. -/
theorem pd0_body (c : Dev nD) : BodyObligation (pd0 (F := F) V c) (defs₀ (F := F)) Variants.none () Set.univ := fun t => by
  rw [bigSep_W0, bigSep_W0]
  exact sound_body V c t

/-- What the launch hands the region is the invariant before the first point. -/
theorem pd0_hin (c : Dev nD) : Pipeline.ΦA spec0 c ⊢ (pd0 V c).Φ 0 := by
  rw [show (pd0 V c).Φ 0 = PhiS V c 0 (Nat.zero_le _) from rfl, PhiS_zero V c 0 _ rfl]
  try exact Idealize.SL.BI.Entails.refl _

/-- After any point the invariant gives the class's back: the scratch's named contents are forgotten. -/
theorem Phi_out (c : Dev nD) (t : Fin (cfg0.N + 1)) (ht : t.val ≠ 0) : (pd0 V c).Φ t ⊢ Pipeline.ΦA spec0 c := by
  rw [show (pd0 V c).Φ t = PhiS V c t.val (Nat.le_of_lt_succ t.isLt) from rfl, PhiS_pos V c _ _ ht, PhiA0_eq]
  iintro ⟨⟨HS, Hrest⟩, Hg⟩
  isplitl [HS Hrest]
  · isplitl [HS]; · iexists _; iexact HS
    iexact Hrest
  iexact Hg

/-- The same after the last point. -/
theorem pd0_hout (c : Dev nD) : (pd0 V c).Φ (Fin.last cfg0.N) ⊢ Pipeline.ΦA spec0 c :=
  Phi_out V c _ (by rw [Fin.val_last]; have : cfg0.N = 8 := N_0; omega)

/-- info: 'Cert.Kernel.Hand.pd0_body' depends on axioms: [propext, Classical.choice, Quot.sound] -/
#guard_msgs in #print axioms pd0_body

end Cert.Kernel.Hand

end
-- ==== Proof.BReg1.lean ====
import proofs.«422240_j68229850464342_4_alg».proof.Proof.Gen.Kernel.Launch
import proofs.«422240_j68229850464342_4_alg».proof.Proof.Gen.Kernel.Skeleton
import proofs.«422240_j68229850464342_4_alg».proof.Proof.Gen.Kernel.Points
import Idealize.ShloMosaic.Lib.Pipeline.FrameBody
import Idealize.ShloMosaic.Lib.Ring
import Idealize.ShloMosaic.Lib.Tactic

/-! # Region 1 (the MLP call): the body at a point, and the proof data of its pipeline

The second call of the program runs over sixteen points. At point `t` it is handed block `t` of the
input (rows `256 t … 256 t + 255` of every batch entry), the eight weight and bias arrays whole, and a
buffer for block `t` of the output. It loads each of its nine inputs whole, once, and stores the whole
output block once. This module states what that store leaves as a function of the nine input blocks,
proves the body's triple against it, and packages the pipeline's proof data: the arrays as the region
finds them, after the body each input buffer at its block and the output buffer at that function of the
input blocks, the invariant the untouched rest, nothing owed. Everything is generic in the scalar model. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point, whether the point fetched it or not:
    where it is not fetched its block index has not moved since the point before, so the block already
    there is this point's. This holds for any proof data over the region's arrays whose body leaves the
    input blocks in place. Window 0 moves at every point; windows 1 to 8 are whole arrays whose index is
    constant, fetched at the first point only. -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and the store take the whole buffer -/

abbrev rX : Rect S96x256x32 := Rect.unit (s := S96x256x32) ![0, 0, 0] S96x256x32.size inb_S96x256x32_S96x256x32_0_0_0
abbrev rW : Rect S96x32x32 := Rect.unit (s := S96x32x32) ![0, 0, 0] S96x32x32.size inb_S96x32x32_S96x32x32_0_0_0
abbrev rW3 : Rect S96x32x3 := Rect.unit (s := S96x32x3) ![0, 0, 0] S96x32x3.size inb_S96x32x3_S96x32x3_0_0_0
abbrev rY : Rect S96x256x3 := Rect.unit (s := S96x256x3) ![0, 0, 0] S96x256x3.size inb_S96x256x3_S96x256x3_0_0_0

/-! ## What the body leaves in the output window's buffer -/

/-- The output buffer after the body, from the nine input blocks: the input block `x0`, then for each of
    the three hidden layers its weights and its bias rows (`x1 x2`, `x3 x4`, `x5 x6`), then the last
    layer's weights `x7` and bias rows `x8`. The one store writes the whole buffer: the last layer applied to
    the sine of thirty times the third hidden pre-activation. -/
def out1 (x0 : Vec F S96x256x32 .f32) (x1 : Vec F S96x32x32 .f32) (x2 : Vec F S96x256x32 .f32) (x3 : Vec F S96x32x32 .f32) (x4 : Vec F S96x256x32 .f32)
    (x5 : Vec F S96x32x32 .f32) (x6 : Vec F S96x256x32 .f32) (x7 : Vec F S96x32x3 .f32) (x8 : Vec F S96x256x3 .f32) : Vec F S96x256x3 .f32 :=
  View.canon [⟨rY, k1_pay1 (k1_pay2 (View.ld x0 rX) (View.ld x1 rW) (View.ld x2 rX) (View.ld x3 rW) (View.ld x4 rX) (View.ld x5 rW) (View.ld x6 rX))
    (k1_pay3 (F := F)) (View.ld x7 rW3) (View.ld x8 rY)⟩]

/-- The store is of the whole buffer, so it covers it. -/
theorem cover1 (p0 : Vec F S96x256x3 .f32) (y : S96x256x3.Idx) :
    ∃ pc ∈ ([⟨rY, p0⟩] : List (View.Piece (Elt F) S96x256x3 .f32)), y ∈ pc.1.set :=
  View.cover_of_tiled [⟨rY, p0⟩] S96x256x3.size (by rfl) y

/-! ## The body's triple -/

set_option maxHeartbeats 1000000 in
/-- The body on whole buffers, the nine inputs' at contents `x0 … x8` and the output's at anything, runs to the
    continuation holding the inputs' as they were and the output's at `out1` of them. -/
theorem sound_kernel1 (c : Dev nD) (E : Set ℕ) (i : grid1.Coords)
    (arg1 : Memref sig .tc .vmem S96x256x32 .f32) (harg1 : arg1.IsWhole) (arg2 : Memref sig .tc .vmem S96x32x32 .f32) (harg2 : arg2.IsWhole)
    (arg3 : Memref sig .tc .vmem S96x256x32 .f32) (harg3 : arg3.IsWhole) (arg4 : Memref sig .tc .vmem S96x32x32 .f32) (harg4 : arg4.IsWhole)
    (arg5 : Memref sig .tc .vmem S96x256x32 .f32) (harg5 : arg5.IsWhole) (arg6 : Memref sig .tc .vmem S96x32x32 .f32) (harg6 : arg6.IsWhole)
    (arg7 : Memref sig .tc .vmem S96x256x32 .f32) (harg7 : arg7.IsWhole) (arg8 : Memref sig .tc .vmem S96x32x3 .f32) (harg8 : arg8.IsWhole)
    (arg9 : Memref sig .tc .vmem S96x256x3 .f32) (harg9 : arg9.IsWhole) (arg10 : Memref sig .tc .vmem S96x256x3 .f32) (harg10 : arg10.IsWhole)
    (x0 : Vec F S96x256x32 .f32) (x1 : Vec F S96x32x32 .f32) (x2 : Vec F S96x256x32 .f32) (x3 : Vec F S96x32x32 .f32) (x4 : Vec F S96x256x32 .f32)
    (x5 : Vec F S96x32x32 .f32) (x6 : Vec F S96x256x32 .f32) (x7 : Vec F S96x32x3 .f32) (x8 : Vec F S96x256x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out1 x0 x1 x2 x3 x4 x5 x6 x7 x8)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1 _)

/-! ## The pipeline's proof data -/

/-- The proof data of the region's pipeline on core `c`: the arrays as the region finds them; after the body at
    point `t` each input's buffer at its block and the output's at `out1` of the nine input blocks; the invariant
    the untouched rest (the scoped buffers that are no staging buffer of this call, and the generator register);
    nothing owed; full shares. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => out1 (blk1 V c 0 t) (blk1 V c 1 t) (blk1 V c 2 t) (blk1 V c 3 t) (blk1 V c 4 t) (blk1 V c 5 t) (blk1 V c 6 t) (blk1 V c 7 t) (blk1 V c 8 t)
  Φ _ := Pipeline.ΦA spec1 c
  q _ := fullShare
  owed _ := 0

/-- The proof data's arrays are the region-entry contents. -/
theorem pd1_A (c : Dev nD) (w : Fin cfg1.W) : (pd1 V c).A w = V c (Pipeline.arrRef spec1 w) := by
  dsimp only [pd1]

/-! What the body leaves, window by window. -/
theorem pd1_after_0 (c : Dev nD) (t : Fin cfg1.N) : (pd1 V c).after 0 t = blk1 V c 0 t := by dsimp only [pd1]
theorem pd1_after_1 (c : Dev nD) (t : Fin cfg1.N) : (pd1 V c).after 1 t = blk1 V c 1 t := by dsimp only [pd1]
theorem pd1_after_2 (c : Dev nD) (t : Fin cfg1.N) : (pd1 V c).after 2 t = blk1 V c 2 t := by dsimp only [pd1]
theorem pd1_after_3 (c : Dev nD) (t : Fin cfg1.N) : (pd1 V c).after 3 t = blk1 V c 3 t := by dsimp only [pd1]
theorem pd1_after_4 (c : Dev nD) (t : Fin cfg1.N) : (pd1 V c).after 4 t = blk1 V c 4 t := by dsimp only [pd1]
theorem pd1_after_5 (c : Dev nD) (t : Fin cfg1.N) : (pd1 V c).after 5 t = blk1 V c 5 t := by dsimp only [pd1]
theorem pd1_after_6 (c : Dev nD) (t : Fin cfg1.N) : (pd1 V c).after 6 t = blk1 V c 6 t := by dsimp only [pd1]
theorem pd1_after_7 (c : Dev nD) (t : Fin cfg1.N) : (pd1 V c).after 7 t = blk1 V c 7 t := by dsimp only [pd1]
theorem pd1_after_8 (c : Dev nD) (t : Fin cfg1.N) : (pd1 V c).after 8 t = blk1 V c 8 t := by dsimp only [pd1]

/-- The output window's buffer is left at `out1` of the nine input blocks. -/
theorem pd1_after_out (c : Dev nD) (t : Fin cfg1.N) :
    (pd1 V c).after 9 t = out1 (blk1 V c 0 t) (blk1 V c 1 t) (blk1 V c 2 t) (blk1 V c 3 t) (blk1 V c 4 t) (blk1 V c 5 t) (blk1 V c 6 t) (blk1 V c 7 t) (blk1 V c 8 t) := by
  dsimp only [pd1]

/-! Each input's current buffer holds its block at every point, fetched there or not. -/
theorem pd1_before_0 (c : Dev nD) (t : Fin cfg1.N) (d) : (pd1 V c).before 0 t d = blk1 V c 0 t :=
  before1_0_of V (pd1 V c) (pd1_A V c 0) (pd1_after_0 V c) t d
theorem pd1_before_1 (c : Dev nD) (t : Fin cfg1.N) (d) : (pd1 V c).before 1 t d = blk1 V c 1 t :=
  before1_1_of V (pd1 V c) (pd1_A V c 1) (pd1_after_1 V c) t d
theorem pd1_before_2 (c : Dev nD) (t : Fin cfg1.N) (d) : (pd1 V c).before 2 t d = blk1 V c 2 t :=
  before1_2_of V (pd1 V c) (pd1_A V c 2) (pd1_after_2 V c) t d
theorem pd1_before_3 (c : Dev nD) (t : Fin cfg1.N) (d) : (pd1 V c).before 3 t d = blk1 V c 3 t :=
  before1_3_of V (pd1 V c) (pd1_A V c 3) (pd1_after_3 V c) t d
theorem pd1_before_4 (c : Dev nD) (t : Fin cfg1.N) (d) : (pd1 V c).before 4 t d = blk1 V c 4 t :=
  before1_4_of V (pd1 V c) (pd1_A V c 4) (pd1_after_4 V c) t d
theorem pd1_before_5 (c : Dev nD) (t : Fin cfg1.N) (d) : (pd1 V c).before 5 t d = blk1 V c 5 t :=
  before1_5_of V (pd1 V c) (pd1_A V c 5) (pd1_after_5 V c) t d
theorem pd1_before_6 (c : Dev nD) (t : Fin cfg1.N) (d) : (pd1 V c).before 6 t d = blk1 V c 6 t :=
  before1_6_of V (pd1 V c) (pd1_A V c 6) (pd1_after_6 V c) t d
theorem pd1_before_7 (c : Dev nD) (t : Fin cfg1.N) (d) : (pd1 V c).before 7 t d = blk1 V c 7 t :=
  before1_7_of V (pd1 V c) (pd1_A V c 7) (pd1_after_7 V c) t d
theorem pd1_before_8 (c : Dev nD) (t : Fin cfg1.N) (d) : (pd1 V c).before 8 t d = blk1 V c 8 t :=
  before1_8_of V (pd1 V c) (pd1_A V c 8) (pd1_after_8 V c) t d

/-! ## The body obligation, at a generic point -/

/-- What the body is called with at point `t`: the invariant, what the core owes, and every window's current
    buffer at its contents before the body, -/
def bodyPre1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d))
    ∗ (∃ d, owns (c : Thread nD τ) (st1_4 t) fullShare ((pd1 V c).before 4 t d))
    ∗ (∃ d, owns (c : Thread nD τ) (st1_5 t) fullShare ((pd1 V c).before 5 t d))
    ∗ (∃ d, owns (c : Thread nD τ) (st1_6 t) fullShare ((pd1 V c).before 6 t d))
    ∗ (∃ d, owns (c : Thread nD τ) (st1_7 t) fullShare ((pd1 V c).before 7 t d))
    ∗ (∃ d, owns (c : Thread nD τ) (st1_8 t) fullShare ((pd1 V c).before 8 t d))
    ∗ (∃ d, owns (c : Thread nD τ) (st1_9 t) fullShare ((pd1 V c).before 9 t d)))

/-- and what it returns: the same with every buffer at its contents after the body. -/
def bodyPost1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t)
    ∗ owns (c : Thread nD τ) (st1_4 t) fullShare ((pd1 V c).after 4 t)
    ∗ owns (c : Thread nD τ) (st1_5 t) fullShare ((pd1 V c).after 5 t)
    ∗ owns (c : Thread nD τ) (st1_6 t) fullShare ((pd1 V c).after 6 t)
    ∗ owns (c : Thread nD τ) (st1_7 t) fullShare ((pd1 V c).after 7 t)
    ∗ owns (c : Thread nD τ) (st1_8 t) fullShare ((pd1 V c).after 8 t)
    ∗ owns (c : Thread nD τ) (st1_9 t) fullShare ((pd1 V c).after 9 t))

set_option maxHeartbeats 1000000 in
/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [pd1_before_0, pd1_before_1, pd1_before_2, pd1_before_3, pd1_before_4, pd1_before_5, pd1_before_6, pd1_before_7, pd1_before_8]
  rw [show (pd1 V c).Φ t.succ = (pd1 V c).Φ t.castSucc from rfl,
    show (pd1 V c).owesAt () t.succ = (pd1 V c).owesAt () t.castSucc from rfl,
    pd1_after_0, pd1_after_1, pd1_after_2, pd1_after_3, pd1_after_4, pd1_after_5, pd1_after_6, pd1_after_7, pd1_after_8, pd1_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem pd1_body (c : Dev nD) : BodyObligation (pd1 (F := F) V c) (defs₀ (F := F)) Variants.none () Set.univ := fun t => by
  rw [bigSep_W1, bigSep_W1]
  exact sound_body1 V c t

end Cert.Kernel.Hand

end
-- ==== Proof.BRun.lean ====
/- The run of @main, and its frame.

   @main is ten stretches of host operations, the matmul region (custom_call 0), one more stretch, and the MLP region
   (custom_call 1). Between two items every core holds each of its unscoped buffers whole, at contents that are a fold
   from the launch memory: a host stretch applies its operations, a region changes its output array and nothing else.
   Here the two unknowns of that fold are named — what each region's pipeline leaves in its output array — the two
   regions are entered and left over those thread states, and the launch reads EVERY unscoped buffer of every core
   against the last valuation. The frame (each argument array ends as launched) is then a reading of that post. -/
import proofs.«422240_j68229850464342_4_alg».proof.Proof.BReg0
import proofs.«422240_j68229850464342_4_alg».proof.Proof.BReg1
import proofs.«422240_j68229850464342_4_alg».proof.Proof.Gen.Kernel.Regions
import Idealize.ShloMosaic.Lib.Pipeline.FrameBody
import Idealize.ShloMosaic.Lib.Pipeline.RegionsLoop
import Idealize.ShloMosaic.Lib.Pipeline.Kit

-- memberships decided over the signature's references, and the segment list's programs compared by unfolding
set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave in their output arrays -/

/-- What region 0 leaves in `main_v51`: its pipeline's write-backs folded over the array as the region finds it, the
    region entered at the contents the ten host stretches leave (`V10`). -/
def o51 (c : Dev nD) : Buf (Elt F) ((c : Thread nD τ).loc main_v51) :=
  (pd0 (fun c b => V10 m c b) c).arrAt 3 cfg0.N

/-- The unknowns with region 0's named: `main_v51` at what region 0 leaves, every other buffer as region 0 finds it. -/
def outsA : Outs (F := F) := fun _ r c => Function.update (V10 m c) main_v51 (o51 m c) r

/-- The contents the regions leave. After region 0 (read at item 11): `outsA`. After region 1 (read at item 13):
    `main_v76` at what region 1's pipeline leaves, the region entered at the contents the stretch between the regions
    makes of region 0's result; every other buffer as region 1 finds it. -/
def outsK : Outs (F := F) := fun J r c =>
  if J = 13 then Function.update (V12 m (outsA m) c) main_v76 ((pd1 (fun c b => V12 m (outsA m) c b) c).arrAt 9 cfg1.N) r
  else outsA m J r c

/-- Region 0's output array ends at its pipeline's final contents. -/
theorem outsK_v51 (c : Dev nD) : outsK m 11 main_v51 c = (pd0 (fun c b => V10 m c b) c).arrAt 3 cfg0.N := by
  unfold outsK
  rw [if_neg (by decide)]
  unfold outsA
  rw [Function.update_self]
  rfl

/-- The stretch between the regions reads the unknowns at region 0's output only. -/
theorem V12_outsK (c : Dev nD) : V12 m (outsK m) c = V12 m (outsA m) c := by
  have h : outsK m 11 main_v51 c = outsA m 11 main_v51 c := by unfold outsK; rw [if_neg (by decide)]
  unfold V12 V11
  rw [h]

/-- Region 1's output array ends at its pipeline's final contents, the pipeline entered at the valuation before it. -/
theorem outsK_v76 (c : Dev nD) : outsK m 13 main_v76 c = (pd1 (fun c b => V12 m (outsK m) c b) c).arrAt 9 cfg1.N := by
  have h : (fun c b => V12 m (outsK m) c b : (c : Dev nD) → (b : Ref sig .tc) → Buf (Elt F) ((c : Thread nD τ).loc b)) = fun c (b : Ref sig .tc) => V12 m (outsA m) c b := by
    funext c b; rw [V12_outsK]
  rw [h]
  unfold outsK
  rw [if_pos rfl, Function.update_self]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => pd0 (fun c b => V10 m c b) c
  | ⟨1, _⟩ => fun c => pd1 (fun c b => V12 m (outsK m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- The same rest between any two items. -/
abbrev E : Fin 3 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the regions leave: their arrays at the pipelines' final contents, every other buffer as entered -/

/-- A region's output array in the valuation after it is the unknown read there. -/
theorem V11_v51 (outs : Outs (F := F)) (c : Dev nD) : V11 m outs c main_v51 = outs 11 main_v51 c := by
  simp only [V11, Function.update_self]
theorem V13_v76 (outs : Outs (F := F)) (c : Dev nD) : V13 m outs c main_v76 = outs 13 main_v76 c := by
  simp only [V13, Function.update_self]

/-- Region 0's arrays at its exit: the three inputs as entered (an input array is never written back, and the valuation after
    the region differs from the one before it at `main_v51` only), the output at the pipeline's final contents. -/
theorem hF0 (c : Dev nD) : ∀ w : Fin 4, (pdats m 0 c).arrAt w cfg0.N = V11 m (outsK m) c (Pipeline.arrRef spec0 w)
  | 0 => ((pdats m 0 c).arrAt_in 0 rfl _).trans ((pd0_A (fun c b => V10 m c b) c 0).trans (V11_of m (outsK m) c main_v48 (by decide)).symm)
  | 1 => ((pdats m 0 c).arrAt_in 1 rfl _).trans ((pd0_A (fun c b => V10 m c b) c 1).trans (V11_of m (outsK m) c main_arg10 (by decide)).symm)
  | 2 => ((pdats m 0 c).arrAt_in 2 rfl _).trans ((pd0_A (fun c b => V10 m c b) c 2).trans (V11_of m (outsK m) c main_v50 (by decide)).symm)
  | 3 => (outsK_v51 m c).symm.trans (V11_v51 m (outsK m) c).symm
  | ⟨_ + 4, h⟩ => absurd h (Nat.not_lt.2 (Nat.le_add_left _ _))

/-- Off region 0's arrays the valuation after it is the one before it. -/
theorem hrest0 (c : Dev nD) : ∀ b, b ∉ Finset.univ.image (Pipeline.arrRef spec0) → V11 m (outsK m) c b = V10 m c b :=
  fun b hb => V11_of m (outsK m) c b fun h => hb (by rw [List.mem_singleton.mp h]; exact Finset.mem_image.mpr ⟨3, Finset.mem_univ _, rfl⟩)

/-- An input window's array ends as entered, and region 1 may change no buffer but its output's. -/
theorem hF1_in (c : Dev nD) (w : Fin 10) (hin : (cfg1.win w).isOut = false) (hne : Pipeline.arrRef spec1 w ∉ ([main_v76] : List (Ref sig .tc))) :
    (pdats m 1 c).arrAt w cfg1.N = V13 m (outsK m) c (Pipeline.arrRef spec1 w) :=
  ((pdats m 1 c).arrAt_in w hin _).trans ((pd1_A (fun c b => V12 m (outsK m) c b) c w).trans (V13_of m (outsK m) c _ hne).symm)

/-- Region 1's arrays at its exit: the nine inputs as entered, the output at the pipeline's final contents. -/
theorem hF1 (c : Dev nD) (w : Fin 10) : (pdats m 1 c).arrAt w cfg1.N = V13 m (outsK m) c (Pipeline.arrRef spec1 w) := by
  rcases w with ⟨_ | _ | _ | _ | _ | _ | _ | _ | _ | _ | n, h⟩
  · exact hF1_in m c 0 rfl (by decide)
  · exact hF1_in m c 1 rfl (by decide)
  · exact hF1_in m c 2 rfl (by decide)
  · exact hF1_in m c 3 rfl (by decide)
  · exact hF1_in m c 4 rfl (by decide)
  · exact hF1_in m c 5 rfl (by decide)
  · exact hF1_in m c 6 rfl (by decide)
  · exact hF1_in m c 7 rfl (by decide)
  · exact hF1_in m c 8 rfl (by decide)
  · exact (outsK_v76 m c).symm.trans (V13_v76 m (outsK m) c).symm
  · omega

/-- Off region 1's arrays the valuation after it is the one before it. -/
theorem hrest1 (c : Dev nD) : ∀ b, b ∉ Finset.univ.image (Pipeline.arrRef spec1) → V13 m (outsK m) c b = V12 m (outsK m) c b :=
  fun b hb => V13_of m (outsK m) c b fun h => hb (by rw [List.mem_singleton.mp h]; exact Finset.mem_image.mpr ⟨9, Finset.mem_univ _, rfl⟩)

/-! ## The regions as segments

Region 0's invariant is not the same at every point: before the first point it is the untouched scoped rest beside the generator
register, afterwards it names what the accumulator scratch holds. It is entered from the former and gives the former back after the
last point (the named contents forgotten), so over the thread state it behaves as region 1's constant invariant does. -/

set_option backward.isDefEq.respectTransparency.types false in
/-- REGION 0 (custom_call 0) over the thread state: its arrays split out of the unscoped buffers at entry and put back at
    the exit contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (pd0_body (fun c b => V10 m c b) c).loose
  hwaits := Pipeline.hwaits_of_owed_zero _ _ _ _ L lv 0 fun _ _ => rfl
  pre c := iprop(StableHlo.held (c : Thread nD τ) (Pipeline.ucRefs τ sig) (V10 m c) ∗ R c)
  post c := iprop(StableHlo.held (c : Thread nD τ) (Pipeline.ucRefs τ sig) (V11 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (fun b => V10 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V10 m c b) fun w => pd0_A (fun c b => V10 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (pd0_hin (fun c b => V10 m c b) c)
    unfold Pipeline.ΦA
    iintro ⟨Hp, -, Hr⟩
    isplitl [Hr]; · iexact Hr
    iexact Hp
  hout c := by
    rw [Pipeline.ownSems0_none]
    refine BIBase.Entails.trans (pd0_hout (fun c b => V10 m c b) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V10 m c b) (fun b => V11 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the `owes`: every unscoped buffer at the last boundary's contents, the generator register at some state. -/
abbrev Tₙ (c : Dev nD) : sProp 𝕄 := iprop(StableHlo.held (c : Thread nD τ) (Pipeline.ucRefs τ sig) (V13 m (outsK m) c) ∗ ∃ r, prngReg c r)

set_option backward.isDefEq.respectTransparency.types false in
/-- REGION 1 (custom_call 1) over the thread state: its arrays split out of the unscoped buffers at entry and put back at
    the exit contents; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (pd1_body (fun c b => V12 m (outsK m) c b) c).loose
  hwaits := Pipeline.hwaits_of_owed_zero _ _ _ _ L lv 1 fun _ _ => rfl
  pre c := iprop(StableHlo.held (c : Thread nD τ) (Pipeline.ucRefs τ sig) (V12 m (outsK m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => V12 m (outsK m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V12 m (outsK m) c b) fun w => pd1_A (fun c b => V12 m (outsK m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V12 m (outsK m) c b) (fun b => V13 m (outsK m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

set_option backward.isDefEq.respectTransparency.types false in
/-- THE RUN: from any memory with zero counters every weakly fair execution of @main terminates, and in every final memory each
    unscoped buffer of each core holds the last boundary's contents: the launch memory carried through the ten host stretches, region 0's
    output array at what its pipeline leaves, the stretch between the regions, region 1's output array at what its pipeline leaves. -/
theorem run_all : θ_run defs (onTc (τ := τ) (main (F := F))) ⟨m, fun _ => 0, ρ⟩
    (fun r => ∀ c : Dev nD, ∀ b ∈ Pipeline.ucRefs τ sig, r.2.mem ((c : Thread nD τ).1, b) = V13 m (outsK m) c b) :=
  Pipeline.θ_run_regions_kit_dev (pcfgs (F := F)) adm (pdats m) () cellOf_inj emb₁ defs₀ 𝒱₀ L lv m ρ main
    (segs m (outsK m) 𝒱₀ L lv E () (pdats m) (reg0 m) (reg1 m))
    (fun c Q => by
      rewrite [main_chain c, Pipeline.Seg.run_eq_chain,
        show (segs m (outsK m) 𝒱₀ L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outsK m) c b)
    (hfin := fun c s' => by
      iintro ⟨⟨Hh, -⟩, HSI⟩
      unfold StableHlo.held
      imodintro
      iapply (pointsTo_read_all (Pipeline.ucRefs τ sig) (fun b => (((c : Thread nD τ)).1, b)) (V13 m (outsK m) c) s')
      isplitl [Hh] <;> iassumption)
    (hQ := fun s h => h)

/-- THE FRAME, at any `F`: every argument array ends holding its launch contents — the run's last contents at an argument's buffer,
    which no host stretch writes and no region may change. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (V13_main_arg0 m (outsK m) c),
     (h c _ (mem_uc main_arg1 (by decide))).trans (V13_main_arg1 m (outsK m) c),
     (h c _ (mem_uc main_arg2 (by decide))).trans (V13_main_arg2 m (outsK m) c),
     (h c _ (mem_uc main_arg3 (by decide))).trans (V13_main_arg3 m (outsK m) c),
     (h c _ (mem_uc main_arg4 (by decide))).trans (V13_main_arg4 m (outsK m) c),
     (h c _ (mem_uc main_arg5 (by decide))).trans (V13_main_arg5 m (outsK m) c),
     (h c _ (mem_uc main_arg6 (by decide))).trans (V13_main_arg6 m (outsK m) c),
     (h c _ (mem_uc main_arg7 (by decide))).trans (V13_main_arg7 m (outsK m) c),
     (h c _ (mem_uc main_arg8 (by decide))).trans (V13_main_arg8 m (outsK m) c),
     (h c _ (mem_uc main_arg9 (by decide))).trans (V13_main_arg9 m (outsK m) c),
     (h c _ (mem_uc main_arg10 (by decide))).trans (V13_main_arg10 m (outsK m) c),
     (h c _ (mem_uc main_arg11 (by decide))).trans (V13_main_arg11 m (outsK m) c),
     (h c _ (mem_uc main_arg12 (by decide))).trans (V13_main_arg12 m (outsK m) c),
     (h c _ (mem_uc main_arg13 (by decide))).trans (V13_main_arg13 m (outsK m) c)⟩) (run_all m ρ)

/-- info: 'Cert.Kernel.Hand.run_all' depends on axioms: [propext, Classical.choice, Quot.sound] -/
#guard_msgs in #print axioms run_all

/-- info: 'Cert.Kernel.Hand.frame' depends on axioms: [propext, Classical.choice, Quot.sound] -/
#guard_msgs in #print axioms frame

end Cert.Kernel.Hand

end
-- ==== Proof.KReg0.lean ====
/- Region 0 of @main: the matrix product `z · W + b` of a [96,4096] by a [4096,3267] matrix, blocked over the
   contracted axis into 8 grid points of 512 columns each. The kernel keeps the running sum in a scratch buffer that
   lives from point to point: the first point stores zeros into it and adds the first block product, every later point
   adds its block product to what the point before left, and the last point also stores the finished sum plus the bias
   into the output window's buffer, which is written back there and nowhere else. This module states what the scratch
   holds after each point (`accAt`) and what the last point stores (`out0`) as the skeleton's payloads applied to the
   windows' blocks, gives the pipeline's proof data (`pd0`) with the invariant that carries the scratch between points
   (`PhiS`), and proves the body obligation and the invariant's two ends, at any float interpretation `F` and any
   buffer contents `V` at the region's entry. -/
import proofs.«422240_j68229850464342_4_alg».proof.Proof.Gen.KernelIdeal.Launch
import proofs.«422240_j68229850464342_4_alg».proof.Proof.Gen.KernelIdeal.Skeleton
import proofs.«422240_j68229850464342_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first conditional (the scratch is zeroed under it), from the grid coordinate. -/
abbrev condFirst (i : grid0.Coords) : Prop :=
  (Scalar.cmpi .ne (Scalar.extui (Scalar.cmpi .eq (BitVec.ofNat 32 (i 0).val) 0#32)) 0#32) = 1#1

/-- The zero offsets of a whole-buffer access of rank 2. -/
theorem hz2 : (![0, 0] : Fin 2 → Nat) = fun _ => 0 := by funext a; fin_cases a <;> rfl

set_option maxHeartbeats 1000000 in
/-- The body at the first point (the first conditional taken, the last not): on whole memrefs, the three inputs' at
    read contents, the output's at contents handed back untouched, the scratch at anything, it runs to the continuation
    holding the scratch at the first partial product over the zeros. -/
theorem kernel0_A (c : Dev nD) (i : grid0.Coords)
    (arg1 : Memref sig .tc .vmem S96x512 .f32) (harg1 : arg1.IsWhole) (arg2 : Memref sig .tc .vmem S512x3267 .f32) (harg2 : arg2.IsWhole)
    (arg3 : Memref sig .tc .vmem S96x3267 .f32) (harg3 : arg3.IsWhole) (arg4 : Memref sig .tc .vmem S96x3267 .f32) (harg4 : arg4.IsWhole)
    (arg5 : Memref sig .tc .vmem S96x3267 .f32) (harg5 : arg5.IsWhole)
    (hc1 : condFirst i) (hc2 : ¬ k0_cond2 i = 1#1)
    (x0 : Vec F S96x512 .f32) (x1 : Vec F S512x3267 .f32) (x2 : Vec F S96x3267 .f32) (xi : Vec F S96x3267 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (fun y => ⟨_, List.mem_cons_self, View.mem_set_unit_zero hz2 inb_S96x3267_S96x3267_0_0 y⟩),
    View.canon_cons_unit_zero hz2, View.readCov_unit_zero _ hz2]
  simp only [View.readAt_eq_ld, View.ld_unit_zero (S := S96x512) hz2, View.ld_unit_zero (S := S512x3267) hz2]

set_option maxHeartbeats 1000000 in
/-- The body at a middle point (neither conditional taken): the scratch, handed over at the contents the point before
    left, ends at the next partial product added to them; the output's buffer is handed back untouched. -/
theorem kernel0_B (c : Dev nD) (i : grid0.Coords)
    (arg1 : Memref sig .tc .vmem S96x512 .f32) (harg1 : arg1.IsWhole) (arg2 : Memref sig .tc .vmem S512x3267 .f32) (harg2 : arg2.IsWhole)
    (arg3 : Memref sig .tc .vmem S96x3267 .f32) (harg3 : arg3.IsWhole) (arg4 : Memref sig .tc .vmem S96x3267 .f32) (harg4 : arg4.IsWhole)
    (arg5 : Memref sig .tc .vmem S96x3267 .f32) (harg5 : arg5.IsWhole)
    (hc1 : ¬ condFirst i) (hc2 : ¬ k0_cond2 i = 1#1)
    (x0 : Vec F S96x512 .f32) (x1 : Vec F S512x3267 .f32) (x2 : Vec F S96x3267 .f32) (xi : Vec F S96x3267 .f32) (xs : Vec F S96x3267 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k0_pay2 x0 x1 xs)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (fun y => ⟨_, List.mem_cons_self, View.mem_set_unit_zero hz2 inb_S96x3267_S96x3267_0_0 y⟩),
    View.canon_cons_unit_zero hz2]
  simp only [View.readAt_eq_ld, View.ld_unit_zero (S := S96x512) hz2, View.ld_unit_zero (S := S512x3267) hz2, View.ld_unit_zero (S := S96x3267) hz2]

set_option maxHeartbeats 1000000 in
/-- The body at the last point (the first conditional not taken, the last taken): the scratch ends at the last partial
    product added to what the point before left, and the output's buffer, at anything before, at that sum plus the
    bias block. -/
theorem kernel0_C (c : Dev nD) (i : grid0.Coords)
    (arg1 : Memref sig .tc .vmem S96x512 .f32) (harg1 : arg1.IsWhole) (arg2 : Memref sig .tc .vmem S512x3267 .f32) (harg2 : arg2.IsWhole)
    (arg3 : Memref sig .tc .vmem S96x3267 .f32) (harg3 : arg3.IsWhole) (arg4 : Memref sig .tc .vmem S96x3267 .f32) (harg4 : arg4.IsWhole)
    (arg5 : Memref sig .tc .vmem S96x3267 .f32) (harg5 : arg5.IsWhole)
    (hc1 : ¬ condFirst i) (hc2 : k0_cond2 i = 1#1)
    (x0 : Vec F S96x512 .f32) (x1 : Vec F S512x3267 .f32) (x2 : Vec F S96x3267 .f32) (xs : Vec F S96x3267 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 (k0_pay2 x0 x1 xs) x2) ∗ owns (c : Thread nD τ) arg5 fullShare (k0_pay2 x0 x1 xs)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero hz2 inb_S96x3267_S96x3267_0_0 y⟩),
      View.canon_unit_zero hz2, View.readCov_unit_zero _ hz2]
    simp only [View.readAt_eq_ld, View.ld_unit_zero (S := S96x512) hz2, View.ld_unit_zero (S := S512x3267) hz2, View.ld_unit_zero (S := S96x3267) hz2]
  iexists _; isplitr
  swap; · iexact H5
  ipureintro
  sl_unfold_words
  rw [View.read_writes_eq_canon _ _ _ (fun y => ⟨_, List.mem_cons_self, View.mem_set_unit_zero hz2 inb_S96x3267_S96x3267_0_0 y⟩),
    View.canon_cons_unit_zero hz2]
  simp only [View.readAt_eq_ld, View.ld_unit_zero (S := S96x512) hz2, View.ld_unit_zero (S := S512x3267) hz2, View.ld_unit_zero (S := S96x3267) hz2]

/-! ## The conditionals, decided over the grid -/

/-- The first conditional holds at the first point only. -/
theorem hcondFirst : ∀ t : Fin cfg0.N, condFirst (grid0.coords t) ↔ t.val = 0 :=
  (by decide +kernel : ∀ t : Fin grid0.N, condFirst (grid0.coords t) ↔ t.val = 0)

/-- The last conditional holds at the last point only. -/
theorem hcondLast : ∀ t : Fin cfg0.N, k0_cond2 (grid0.coords t) = 1#1 ↔ t.val = 7 :=
  (by decide +kernel : ∀ t : Fin grid0.N, k0_cond2 (grid0.coords t) = 1#1 ↔ t.val = 7)

/-- The inputs are never idle. -/
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
/-- The output window is idle away from the last point, and not written back there; -/
theorem idle0_3 : ∀ t : Fin cfg0.N, t.val ≠ 7 → cfg0.idle 3 (grid0.coords t) = true :=
  (by decide +kernel : ∀ t : Fin grid0.N, t.val ≠ 7 → cfg0.idle 3 (grid0.coords t) = true)
theorem noFlush0_3 : ∀ t : Fin cfg0.N, t.val ≠ 7 → (cfg0.win 3).flush t = false :=
  (by decide +kernel : ∀ t : Fin grid0.N, t.val ≠ 7 → win0_3.flush t = false)
/-- live at the last point. -/
theorem live0_3 : ∀ t : Fin cfg0.N, t.val = 7 → cfg0.idle 3 (grid0.coords t) = false :=
  (by decide +kernel : ∀ t : Fin grid0.N, t.val = 7 → cfg0.idle 3 (grid0.coords t) = false)

/-! ## The windows' blocks and what the scratch and the output hold -/

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three inputs' blocks at their literal types: columns `512 t … 512 t + 511` of the left factor, the same rows
    of the right factor, the whole bias. -/
abbrev xblk0 (c : Dev nD) (t : Fin cfg0.N) : Vec F S96x512 .f32 := blk0 V c 0 t
abbrev wblk0 (c : Dev nD) (t : Fin cfg0.N) : Vec F S512x3267 .f32 := blk0 V c 1 t
abbrev bblk0 (c : Dev nD) (t : Fin cfg0.N) : Vec F S96x3267 .f32 := blk0 V c 2 t

/-- THE ACCUMULATION. The scratch after the body at point `n`: at the first point the block product added to the
    zeros just stored, at a later point the block product added to what the point before left. -/
def accAt (c : Dev nD) : (n : ℕ) → n < cfg0.N → Vec F S96x3267 .f32
  | 0, h => k0_pay2 (xblk0 V c ⟨0, h⟩) (wblk0 V c ⟨0, h⟩) (k0_pay1 (F := F))
  | n + 1, h => k0_pay2 (xblk0 V c ⟨n + 1, h⟩) (wblk0 V c ⟨n + 1, h⟩) (accAt c n (Nat.lt_of_succ_lt h))

theorem accAt_zero (c : Dev nD) (h : 0 < cfg0.N) :
    accAt V c 0 h = k0_pay2 (xblk0 V c ⟨0, h⟩) (wblk0 V c ⟨0, h⟩) (k0_pay1 (F := F)) := rfl

theorem accAt_succ (c : Dev nD) (n : ℕ) (h : n + 1 < cfg0.N) :
    accAt V c (n + 1) h = k0_pay2 (xblk0 V c ⟨n + 1, h⟩) (wblk0 V c ⟨n + 1, h⟩) (accAt V c n (Nat.lt_of_succ_lt h)) := rfl

/-- The same at a point that is not the first, over the point before. -/
theorem accAt_pos (c : Dev nD) (t : Fin cfg0.N) (ht : t.val ≠ 0) :
    accAt V c t.val t.isLt = k0_pay2 (xblk0 V c t) (wblk0 V c t) (accAt V c (t.val - 1) (Nat.lt_of_le_of_lt (Nat.sub_le _ _) t.isLt)) := by
  obtain ⟨n, hn⟩ := t
  cases n with
  | zero => exact absurd rfl ht
  | succ n => rfl

/-- The last point. -/
def tLast : Fin cfg0.N := ⟨7, by rw [show cfg0.N = 8 from N_0]; decide⟩

/-- What the last point stores into the output window's buffer: the finished sum plus the bias. -/
def out0 (c : Dev nD) : Vec F S96x3267 .f32 :=
  k0_pay3 (accAt V c 7 tLast.isLt) (bblk0 V c tLast)

theorem out0_eq (c : Dev nD) : out0 V c = k0_pay3 (accAt V c 7 tLast.isLt) (bblk0 V c tLast) := rfl

/-! ## The region invariant -/

/-- The scratch as a memref: a whole scoped buffer of the kernel's own. -/
abbrev scM0 : Memref sig .tc .vmem S96x3267 .f32 := Memref.whole cc0_scratch0

/-- The core's other scoped buffers that are no staging buffer of this call (the other call's staging buffers), each
    at some contents: the body neither reads nor writes them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg9_1), ((c : Thread nD τ).loc cc1_stg9_1) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- The invariant before position `n`: before the first point the class's (the scratch at anything); afterwards the
    scratch at what the point before left in it, the other scoped buffers at anything, the generator register at some
    state. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ rest0 (F := F) c) ∗ (∃ r, prngReg c r)) := by
  cases n with
  | zero => exact absurd rfl hz
  | succ n => rfl

/-! ## The proof data -/

/-- The proof data of the pipeline on core `c`: the arrays as the region finds them; after the body each input's
    buffer at its block, the output's at `out0` (consulted at the last point only: elsewhere the window is idle); the
    invariant `PhiS`; nothing owed; full shares. -/
def pd0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 V c
  Φ t := PhiS V c t.val (Nat.le_of_lt_succ t.isLt)
  q _ := fullShare
  owed _ := 0

theorem pd0_A (c : Dev nD) (w : Fin cfg0.W) : (pd0 V c).A w = V c (Pipeline.arrRef spec0 w) := by
  dsimp only [pd0]

theorem pd0_after_0 (c : Dev nD) (t : Fin cfg0.N) : (pd0 V c).after 0 t = blk0 V c 0 t := by dsimp only [pd0]
theorem pd0_after_1 (c : Dev nD) (t : Fin cfg0.N) : (pd0 V c).after 1 t = blk0 V c 1 t := by dsimp only [pd0]
theorem pd0_after_2 (c : Dev nD) (t : Fin cfg0.N) : (pd0 V c).after 2 t = blk0 V c 2 t := by dsimp only [pd0]
theorem pd0_after_3 (c : Dev nD) (t : Fin cfg0.N) : (pd0 V c).after 3 t = out0 V c := by dsimp only [pd0]

/-- What the last point leaves in the output window's buffer. -/
theorem pd0_after_out (c : Dev nD) (t : Fin cfg0.N) (h : t.val = 7) : (pd0 V c).after 3 t = out0 V c := pd0_after_3 V c t

theorem PhiS_castSucc (c : Dev nD) (t : Fin cfg0.N) :
    (pd0 V c).Φ t.castSucc = PhiS V c t.val (Nat.le_of_lt t.isLt) := by
  dsimp only [pd0]; simp only [Fin.coe_castSucc]

/-- Each input's current staging buffer holds its block at every point, fetched there or not (an unfetched input's
    block index has not moved). -/
theorem before0_0 (c : Dev nD) (t : Fin cfg0.N) (d) : (pd0 V c).before 0 t d = blk0 V c 0 t :=
  ((pd0 V c).before_in_eq_fetched 0 rfl (fun _ => rfl) (fun _ _ _ => rfl) (fun t => by rw [pd0_after_0]; unfold Dat.blockOf blk0; rw [pd0_A]; try rfl) t d).trans
    (by unfold Dat.fetched Dat.blockOf blk0; rw [pd0_A]; try rfl)
theorem before0_1 (c : Dev nD) (t : Fin cfg0.N) (d) : (pd0 V c).before 1 t d = blk0 V c 1 t :=
  ((pd0 V c).before_in_eq_fetched 1 rfl (fun _ => rfl) (fun _ _ _ => rfl) (fun t => by rw [pd0_after_1]; unfold Dat.blockOf blk0; rw [pd0_A]; try rfl) t d).trans
    (by unfold Dat.fetched Dat.blockOf blk0; rw [pd0_A]; try rfl)
theorem before0_2 (c : Dev nD) (t : Fin cfg0.N) (d) : (pd0 V c).before 2 t d = blk0 V c 2 t :=
  ((pd0 V c).before_in_eq_fetched 2 rfl (fun _ => rfl) (fun _ _ _ => rfl) (fun t => by rw [pd0_after_2]; unfold Dat.blockOf blk0; rw [pd0_A]; try rfl) t d).trans
    (by unfold Dat.fetched Dat.blockOf blk0; rw [pd0_A]; try rfl)

/-- The scratch at the first point. -/
theorem accAt_first (c : Dev nD) (t : Fin cfg0.N) (ht : t.val = 0) :
    accAt V c t.val t.isLt = k0_pay2 (xblk0 V c t) (wblk0 V c t) (k0_pay1 (F := F)) := by
  obtain ⟨n, hn⟩ := t
  cases n with
  | zero => rfl
  | succ n => exact absurd ht (Nat.succ_ne_zero n)

/-- The output at the last point, whatever its name. -/
theorem out0_at (c : Dev nD) (t : Fin cfg0.N) (ht : t.val = 7) :
    out0 V c = k0_pay3 (accAt V c t.val t.isLt) (bblk0 V c t) := by
  obtain rfl : t = tLast := Fin.ext ht
  rfl

/-! ## The body obligation, at a generic point -/

/-- What the body is called with at point `t` (the windows one by one), -/
def bodyPre (c : Dev nD) (t : Fin cfg0.N) : sProp 𝕄 :=
  iprop((pd0 V c).Φ t.castSucc ∗ (pd0 V c).owesAt () t.castSucc
    ∗ (∃ d, owns (c : Thread nD τ) (win0_0.stage (cfg0.slots t 0)) fullShare ((pd0 V c).before 0 t d))
    ∗ (∃ d, owns (c : Thread nD τ) (win0_1.stage (cfg0.slots t 1)) fullShare ((pd0 V c).before 1 t d))
    ∗ (∃ d, owns (c : Thread nD τ) (win0_2.stage (cfg0.slots t 2)) fullShare ((pd0 V c).before 2 t d))
    ∗ (∃ d, owns (c : Thread nD τ) (win0_3.stage (cfg0.slots t 3)) fullShare ((pd0 V c).before 3 t d)))

/-- and what it returns. -/
def bodyPost (c : Dev nD) (t : Fin cfg0.N) : sProp 𝕄 :=
  iprop((pd0 V c).Φ t.succ ∗ (pd0 V c).owesAt () t.succ
    ∗ (pd0 V c).leavesExact 0 t
    ∗ (pd0 V c).leavesExact 1 t
    ∗ (pd0 V c).leavesExact 2 t
    ∗ (pd0 V c).leavesExact 3 t)

set_option maxHeartbeats 4800000 in
/-- The body at any point. The inputs' memrefs hold their blocks; the point's position says which conditionals are
    taken; the invariant hands the body the scratch (at anything at the first point, at what the point before left
    afterwards) and takes it back at this point's contents; away from the last point the output's buffer passes through
    untouched, at the last point it ends at the finished sum plus the bias; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (pd0 V c).owesAt () t.succ = (pd0 V c).owesAt () t.castSucc from rfl]
  rw [show (pd0 V c).Φ t.succ = PhiS V c (t.val + 1) t.isLt from rfl, PhiS_succ]
  rw [show (pd0 V c).leavesExact 0 t = owns (c : Thread nD τ) (win0_0.stage (cfg0.slots t 0)) fullShare ((pd0 V c).after 0 t) from by
    unfold Dat.leavesExact; rw [live0_0 t], pd0_after_0]
  rw [show (pd0 V c).leavesExact 1 t = owns (c : Thread nD τ) (win0_1.stage (cfg0.slots t 1)) fullShare ((pd0 V c).after 1 t) from by
    unfold Dat.leavesExact; rw [live0_1 t], pd0_after_1]
  rw [show (pd0 V c).leavesExact 2 t = owns (c : Thread nD τ) (win0_2.stage (cfg0.slots t 2)) fullShare ((pd0 V c).after 2 t) from by
    unfold Dat.leavesExact; rw [live0_2 t], pd0_after_2]
  have hN : t.val < 8 := lt_of_lt_of_eq t.isLt (show cfg0.N = 8 from N_0)
  by_cases h0 : t.val = 0
  · have h7 : t.val ≠ 7 := by omega
    rw [Dat.leavesExact_idle (pd0 V c) 3 t (idle0_3 t h7) (noFlush0_3 t h7)]
    rw [PhiS_castSucc V c t, PhiS_zero V c _ _ h0, PhiA0_eq, accAt_first V c t h0]
    iintro ⟨⟨⟨HS, Hrest⟩, Hg⟩, Ho, ⟨%d0, H0⟩, ⟨%d1, H1⟩, ⟨%d2, H2⟩, ⟨%d3, H3⟩⟩
    iapply (kernel0_A c (grid0.coords t) _ _ _ _ _ _ _ _ _ _ ((hcondFirst t).mpr h0) (fun h => h7 ((hcondLast t).mp h))
      (xblk0 V c t) (wblk0 V c t) (bblk0 V c t) ((pd0 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexists d3; iexact H3
  · by_cases h7 : t.val = 7
    · rw [show (pd0 V c).leavesExact 3 t = owns (c : Thread nD τ) (win0_3.stage (cfg0.slots t 3)) fullShare ((pd0 V c).after 3 t) from by
        unfold Dat.leavesExact; rw [live0_3 t h7], pd0_after_3]
      rw [PhiS_castSucc V c t, PhiS_pos V c _ _ h0, out0_at V c t h7, accAt_pos V c t h0]
      iintro ⟨⟨⟨HS, Hrest⟩, Hg⟩, Ho, ⟨%d0, H0⟩, ⟨%d1, H1⟩, ⟨%d2, H2⟩, ⟨%d3, H3⟩⟩
      iapply (kernel0_C c (grid0.coords t) _ _ _ _ _ _ _ _ _ _ (fun h => h0 ((hcondFirst t).mp h)) ((hcondLast t).mpr h7)
        (xblk0 V c t) (wblk0 V c t) (bblk0 V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (pd0 V c) 3 t (idle0_3 t h7) (noFlush0_3 t h7)]
      rw [PhiS_castSucc V c t, PhiS_pos V c _ _ h0, accAt_pos V c t h0]
      iintro ⟨⟨⟨HS, Hrest⟩, Hg⟩, Ho, ⟨%d0, H0⟩, ⟨%d1, H1⟩, ⟨%d2, H2⟩, ⟨%d3, H3⟩⟩
      iapply (kernel0_B c (grid0.coords t) _ _ _ _ _ _ _ _ _ _ (fun h => h0 ((hcondFirst t).mp h)) (fun h => h7 ((hcondLast t).mp h))
        (xblk0 V c t) (wblk0 V c t) (bblk0 V c t) ((pd0 V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists d3; iexact H3

/-- The library's body obligation, at every point. -/
theorem pd0_body (c : Dev nD) : BodyObligation (pd0 (F := F) V c) (defs₀ (F := F)) Variants.none () Set.univ := fun t => by
  rw [bigSep_W0, bigSep_W0]
  exact sound_body V c t

/-- What the launch hands the region is the invariant before the first point. -/
theorem pd0_hin (c : Dev nD) : Pipeline.ΦA spec0 c ⊢ (pd0 V c).Φ 0 := by
  rw [show (pd0 V c).Φ 0 = PhiS V c 0 (Nat.zero_le _) from rfl, PhiS_zero V c 0 _ rfl]
  try exact Idealize.SL.BI.Entails.refl _

/-- After any point the invariant gives the class's back: the scratch's named contents are forgotten. -/
theorem Phi_out (c : Dev nD) (t : Fin (cfg0.N + 1)) (ht : t.val ≠ 0) : (pd0 V c).Φ t ⊢ Pipeline.ΦA spec0 c := by
  rw [show (pd0 V c).Φ t = PhiS V c t.val (Nat.le_of_lt_succ t.isLt) from rfl, PhiS_pos V c _ _ ht, PhiA0_eq]
  iintro ⟨⟨HS, Hrest⟩, Hg⟩
  isplitl [HS Hrest]
  · isplitl [HS]; · iexists _; iexact HS
    iexact Hrest
  iexact Hg

/-- The same after the last point. -/
theorem pd0_hout (c : Dev nD) : (pd0 V c).Φ (Fin.last cfg0.N) ⊢ Pipeline.ΦA spec0 c :=
  Phi_out V c _ (by rw [Fin.val_last]; have : cfg0.N = 8 := N_0; omega)

/-- info: 'Cert.KernelIdeal.Hand.pd0_body' depends on axioms: [propext, Classical.choice, Quot.sound] -/
#guard_msgs in #print axioms pd0_body

end Cert.KernelIdeal.Hand

end
-- ==== Proof.KReg1.lean ====
import proofs.«422240_j68229850464342_4_alg».proof.Proof.Gen.KernelIdeal.Launch
import proofs.«422240_j68229850464342_4_alg».proof.Proof.Gen.KernelIdeal.Skeleton
import proofs.«422240_j68229850464342_4_alg».proof.Proof.Gen.KernelIdeal.Points
import Idealize.ShloMosaic.Lib.Pipeline.FrameBody
import Idealize.ShloMosaic.Lib.Ring
import Idealize.ShloMosaic.Lib.Tactic

/-! # Region 1 (the MLP call): the body at a point, and the proof data of its pipeline

The second call of the program runs over sixteen points. At point `t` it is handed block `t` of the
input (rows `256 t … 256 t + 255` of every batch entry), the eight weight and bias arrays whole, and a
buffer for block `t` of the output. It loads each of its nine inputs whole, once, and stores the whole
output block once. This module states what that store leaves as a function of the nine input blocks,
proves the body's triple against it, and packages the pipeline's proof data: the arrays as the region
finds them, after the body each input buffer at its block and the output buffer at that function of the
input blocks, the invariant the untouched rest, nothing owed. Everything is generic in the scalar model. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point, whether the point fetched it or not:
    where it is not fetched its block index has not moved since the point before, so the block already
    there is this point's. This holds for any proof data over the region's arrays whose body leaves the
    input blocks in place. Window 0 moves at every point; windows 1 to 8 are whole arrays whose index is
    constant, fetched at the first point only. -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and the store take the whole buffer -/

abbrev rX : Rect S96x256x32 := Rect.unit (s := S96x256x32) ![0, 0, 0] S96x256x32.size inb_S96x256x32_S96x256x32_0_0_0
abbrev rW : Rect S96x32x32 := Rect.unit (s := S96x32x32) ![0, 0, 0] S96x32x32.size inb_S96x32x32_S96x32x32_0_0_0
abbrev rW3 : Rect S96x32x3 := Rect.unit (s := S96x32x3) ![0, 0, 0] S96x32x3.size inb_S96x32x3_S96x32x3_0_0_0
abbrev rY : Rect S96x256x3 := Rect.unit (s := S96x256x3) ![0, 0, 0] S96x256x3.size inb_S96x256x3_S96x256x3_0_0_0

/-! ## What the body leaves in the output window's buffer -/

/-- The output buffer after the body, from the nine input blocks: the input block `x0`, then for each of
    the three hidden layers its weights and its bias rows (`x1 x2`, `x3 x4`, `x5 x6`), then the last
    layer's weights `x7` and bias rows `x8`. The one store writes the whole buffer: the last layer applied to
    the sine of thirty times the third hidden pre-activation. -/
def out1 (x0 : Vec F S96x256x32 .f32) (x1 : Vec F S96x32x32 .f32) (x2 : Vec F S96x256x32 .f32) (x3 : Vec F S96x32x32 .f32) (x4 : Vec F S96x256x32 .f32)
    (x5 : Vec F S96x32x32 .f32) (x6 : Vec F S96x256x32 .f32) (x7 : Vec F S96x32x3 .f32) (x8 : Vec F S96x256x3 .f32) : Vec F S96x256x3 .f32 :=
  View.canon [⟨rY, k1_pay1 (k1_pay2 (View.ld x0 rX) (View.ld x1 rW) (View.ld x2 rX) (View.ld x3 rW) (View.ld x4 rX) (View.ld x5 rW) (View.ld x6 rX))
    (k1_pay3 (F := F)) (View.ld x7 rW3) (View.ld x8 rY)⟩]

/-- The store is of the whole buffer, so it covers it. -/
theorem cover1 (p0 : Vec F S96x256x3 .f32) (y : S96x256x3.Idx) :
    ∃ pc ∈ ([⟨rY, p0⟩] : List (View.Piece (Elt F) S96x256x3 .f32)), y ∈ pc.1.set :=
  View.cover_of_tiled [⟨rY, p0⟩] S96x256x3.size (by rfl) y

/-! ## The body's triple -/

set_option maxHeartbeats 1000000 in
/-- The body on whole buffers, the nine inputs' at contents `x0 … x8` and the output's at anything, runs to the
    continuation holding the inputs' as they were and the output's at `out1` of them. -/
theorem sound_kernel1 (c : Dev nD) (E : Set ℕ) (i : grid1.Coords)
    (arg1 : Memref sig .tc .vmem S96x256x32 .f32) (harg1 : arg1.IsWhole) (arg2 : Memref sig .tc .vmem S96x32x32 .f32) (harg2 : arg2.IsWhole)
    (arg3 : Memref sig .tc .vmem S96x256x32 .f32) (harg3 : arg3.IsWhole) (arg4 : Memref sig .tc .vmem S96x32x32 .f32) (harg4 : arg4.IsWhole)
    (arg5 : Memref sig .tc .vmem S96x256x32 .f32) (harg5 : arg5.IsWhole) (arg6 : Memref sig .tc .vmem S96x32x32 .f32) (harg6 : arg6.IsWhole)
    (arg7 : Memref sig .tc .vmem S96x256x32 .f32) (harg7 : arg7.IsWhole) (arg8 : Memref sig .tc .vmem S96x32x3 .f32) (harg8 : arg8.IsWhole)
    (arg9 : Memref sig .tc .vmem S96x256x3 .f32) (harg9 : arg9.IsWhole) (arg10 : Memref sig .tc .vmem S96x256x3 .f32) (harg10 : arg10.IsWhole)
    (x0 : Vec F S96x256x32 .f32) (x1 : Vec F S96x32x32 .f32) (x2 : Vec F S96x256x32 .f32) (x3 : Vec F S96x32x32 .f32) (x4 : Vec F S96x256x32 .f32)
    (x5 : Vec F S96x32x32 .f32) (x6 : Vec F S96x256x32 .f32) (x7 : Vec F S96x32x3 .f32) (x8 : Vec F S96x256x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out1 x0 x1 x2 x3 x4 x5 x6 x7 x8)) -∗ K ⟨⟩))
      ⊢ wp frame (wpE (defs₀ (F := F)) Variants.none c none) E
          (cc1__mlp_kernel i arg1 harg1 arg2 harg2 arg3 harg3 arg4 harg4 arg5 harg5 arg6 harg6 arg7 harg7 arg8 harg8 arg9 harg9 arg10 harg10) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1 _)

/-! ## The pipeline's proof data -/

/-- The proof data of the region's pipeline on core `c`: the arrays as the region finds them; after the body at
    point `t` each input's buffer at its block and the output's at `out1` of the nine input blocks; the invariant
    the untouched rest (the scoped buffers that are no staging buffer of this call, and the generator register);
    nothing owed; full shares. -/
def pd1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => out1 (blk1 V c 0 t) (blk1 V c 1 t) (blk1 V c 2 t) (blk1 V c 3 t) (blk1 V c 4 t) (blk1 V c 5 t) (blk1 V c 6 t) (blk1 V c 7 t) (blk1 V c 8 t)
  Φ _ := Pipeline.ΦA spec1 c
  q _ := fullShare
  owed _ := 0

/-- The proof data's arrays are the region-entry contents. -/
theorem pd1_A (c : Dev nD) (w : Fin cfg1.W) : (pd1 V c).A w = V c (Pipeline.arrRef spec1 w) := by
  dsimp only [pd1]

/-! What the body leaves, window by window. -/
theorem pd1_after_0 (c : Dev nD) (t : Fin cfg1.N) : (pd1 V c).after 0 t = blk1 V c 0 t := by dsimp only [pd1]
theorem pd1_after_1 (c : Dev nD) (t : Fin cfg1.N) : (pd1 V c).after 1 t = blk1 V c 1 t := by dsimp only [pd1]
theorem pd1_after_2 (c : Dev nD) (t : Fin cfg1.N) : (pd1 V c).after 2 t = blk1 V c 2 t := by dsimp only [pd1]
theorem pd1_after_3 (c : Dev nD) (t : Fin cfg1.N) : (pd1 V c).after 3 t = blk1 V c 3 t := by dsimp only [pd1]
theorem pd1_after_4 (c : Dev nD) (t : Fin cfg1.N) : (pd1 V c).after 4 t = blk1 V c 4 t := by dsimp only [pd1]
theorem pd1_after_5 (c : Dev nD) (t : Fin cfg1.N) : (pd1 V c).after 5 t = blk1 V c 5 t := by dsimp only [pd1]
theorem pd1_after_6 (c : Dev nD) (t : Fin cfg1.N) : (pd1 V c).after 6 t = blk1 V c 6 t := by dsimp only [pd1]
theorem pd1_after_7 (c : Dev nD) (t : Fin cfg1.N) : (pd1 V c).after 7 t = blk1 V c 7 t := by dsimp only [pd1]
theorem pd1_after_8 (c : Dev nD) (t : Fin cfg1.N) : (pd1 V c).after 8 t = blk1 V c 8 t := by dsimp only [pd1]

/-- The output window's buffer is left at `out1` of the nine input blocks. -/
theorem pd1_after_out (c : Dev nD) (t : Fin cfg1.N) :
    (pd1 V c).after 9 t = out1 (blk1 V c 0 t) (blk1 V c 1 t) (blk1 V c 2 t) (blk1 V c 3 t) (blk1 V c 4 t) (blk1 V c 5 t) (blk1 V c 6 t) (blk1 V c 7 t) (blk1 V c 8 t) := by
  dsimp only [pd1]

/-! Each input's current buffer holds its block at every point, fetched there or not. -/
theorem pd1_before_0 (c : Dev nD) (t : Fin cfg1.N) (d) : (pd1 V c).before 0 t d = blk1 V c 0 t :=
  before1_0_of V (pd1 V c) (pd1_A V c 0) (pd1_after_0 V c) t d
theorem pd1_before_1 (c : Dev nD) (t : Fin cfg1.N) (d) : (pd1 V c).before 1 t d = blk1 V c 1 t :=
  before1_1_of V (pd1 V c) (pd1_A V c 1) (pd1_after_1 V c) t d
theorem pd1_before_2 (c : Dev nD) (t : Fin cfg1.N) (d) : (pd1 V c).before 2 t d = blk1 V c 2 t :=
  before1_2_of V (pd1 V c) (pd1_A V c 2) (pd1_after_2 V c) t d
theorem pd1_before_3 (c : Dev nD) (t : Fin cfg1.N) (d) : (pd1 V c).before 3 t d = blk1 V c 3 t :=
  before1_3_of V (pd1 V c) (pd1_A V c 3) (pd1_after_3 V c) t d
theorem pd1_before_4 (c : Dev nD) (t : Fin cfg1.N) (d) : (pd1 V c).before 4 t d = blk1 V c 4 t :=
  before1_4_of V (pd1 V c) (pd1_A V c 4) (pd1_after_4 V c) t d
theorem pd1_before_5 (c : Dev nD) (t : Fin cfg1.N) (d) : (pd1 V c).before 5 t d = blk1 V c 5 t :=
  before1_5_of V (pd1 V c) (pd1_A V c 5) (pd1_after_5 V c) t d
theorem pd1_before_6 (c : Dev nD) (t : Fin cfg1.N) (d) : (pd1 V c).before 6 t d = blk1 V c 6 t :=
  before1_6_of V (pd1 V c) (pd1_A V c 6) (pd1_after_6 V c) t d
theorem pd1_before_7 (c : Dev nD) (t : Fin cfg1.N) (d) : (pd1 V c).before 7 t d = blk1 V c 7 t :=
  before1_7_of V (pd1 V c) (pd1_A V c 7) (pd1_after_7 V c) t d
theorem pd1_before_8 (c : Dev nD) (t : Fin cfg1.N) (d) : (pd1 V c).before 8 t d = blk1 V c 8 t :=
  before1_8_of V (pd1 V c) (pd1_A V c 8) (pd1_after_8 V c) t d

/-! ## The body obligation, at a generic point -/

/-- What the body is called with at point `t`: the invariant, what the core owes, and every window's current
    buffer at its contents before the body, -/
def bodyPre1 (c : Dev nD) (t : Fin cfg1.N) : sProp 𝕄 :=
  iprop((pd1 V c).Φ t.castSucc ∗ (pd1 V c).owesAt () t.castSucc
    ∗ (∃ d, owns (c : Thread nD τ) (st1_0 t) fullShare ((pd1 V c).before 0 t d))
    ∗ (∃ d, owns (c : Thread nD τ) (st1_1 t) fullShare ((pd1 V c).before 1 t d))
    ∗ (∃ d, owns (c : Thread nD τ) (st1_2 t) fullShare ((pd1 V c).before 2 t d))
    ∗ (∃ d, owns (c : Thread nD τ) (st1_3 t) fullShare ((pd1 V c).before 3 t d))
    ∗ (∃ d, owns (c : Thread nD τ) (st1_4 t) fullShare ((pd1 V c).before 4 t d))
    ∗ (∃ d, owns (c : Thread nD τ) (st1_5 t) fullShare ((pd1 V c).before 5 t d))
    ∗ (∃ d, owns (c : Thread nD τ) (st1_6 t) fullShare ((pd1 V c).before 6 t d))
    ∗ (∃ d, owns (c : Thread nD τ) (st1_7 t) fullShare ((pd1 V c).before 7 t d))
    ∗ (∃ d, owns (c : Thread nD τ) (st1_8 t) fullShare ((pd1 V c).before 8 t d))
    ∗ (∃ d, owns (c : Thread nD τ) (st1_9 t) fullShare ((pd1 V c).before 9 t d)))

/-- and what it returns: the same with every buffer at its contents after the body. -/
def bodyPost1 (c : Dev nD) (t : Fin cfg1.N) : sProp 𝕄 :=
  iprop((pd1 V c).Φ t.succ ∗ (pd1 V c).owesAt () t.succ
    ∗ owns (c : Thread nD τ) (st1_0 t) fullShare ((pd1 V c).after 0 t)
    ∗ owns (c : Thread nD τ) (st1_1 t) fullShare ((pd1 V c).after 1 t)
    ∗ owns (c : Thread nD τ) (st1_2 t) fullShare ((pd1 V c).after 2 t)
    ∗ owns (c : Thread nD τ) (st1_3 t) fullShare ((pd1 V c).after 3 t)
    ∗ owns (c : Thread nD τ) (st1_4 t) fullShare ((pd1 V c).after 4 t)
    ∗ owns (c : Thread nD τ) (st1_5 t) fullShare ((pd1 V c).after 5 t)
    ∗ owns (c : Thread nD τ) (st1_6 t) fullShare ((pd1 V c).after 6 t)
    ∗ owns (c : Thread nD τ) (st1_7 t) fullShare ((pd1 V c).after 7 t)
    ∗ owns (c : Thread nD τ) (st1_8 t) fullShare ((pd1 V c).after 8 t)
    ∗ owns (c : Thread nD τ) (st1_9 t) fullShare ((pd1 V c).after 9 t))

set_option maxHeartbeats 1000000 in
/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [pd1_before_0, pd1_before_1, pd1_before_2, pd1_before_3, pd1_before_4, pd1_before_5, pd1_before_6, pd1_before_7, pd1_before_8]
  rw [show (pd1 V c).Φ t.succ = (pd1 V c).Φ t.castSucc from rfl,
    show (pd1 V c).owesAt () t.succ = (pd1 V c).owesAt () t.castSucc from rfl,
    pd1_after_0, pd1_after_1, pd1_after_2, pd1_after_3, pd1_after_4, pd1_after_5, pd1_after_6, pd1_after_7, pd1_after_8, pd1_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem pd1_body (c : Dev nD) : BodyObligation (pd1 (F := F) V c) (defs₀ (F := F)) Variants.none () Set.univ := fun t => by
  rw [bigSep_W1, bigSep_W1]
  exact sound_body1 V c t

end Cert.KernelIdeal.Hand

end
-- ==== Proof.KRun.lean ====
/- The run of @main, and its frame.

   @main is ten stretches of host operations, the matmul region (custom_call 0), one more stretch, and the MLP region
   (custom_call 1). Between two items every core holds each of its unscoped buffers whole, at contents that are a fold
   from the launch memory: a host stretch applies its operations, a region changes its output array and nothing else.
   Here the two unknowns of that fold are named — what each region's pipeline leaves in its output array — the two
   regions are entered and left over those thread states, and the launch reads EVERY unscoped buffer of every core
   against the last valuation. The frame (each argument array ends as launched) is then a reading of that post. -/
import proofs.«422240_j68229850464342_4_alg».proof.Proof.KReg0
import proofs.«422240_j68229850464342_4_alg».proof.Proof.KReg1
import proofs.«422240_j68229850464342_4_alg».proof.Proof.Gen.KernelIdeal.Regions
import Idealize.ShloMosaic.Lib.Pipeline.FrameBody
import Idealize.ShloMosaic.Lib.Pipeline.RegionsLoop
import Idealize.ShloMosaic.Lib.Pipeline.Kit

-- memberships decided over the signature's references, and the segment list's programs compared by unfolding
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave in their output arrays -/

/-- What region 0 leaves in `main_v51`: its pipeline's write-backs folded over the array as the region finds it, the
    region entered at the contents the ten host stretches leave (`V10`). -/
def o51 (c : Dev nD) : Buf (Elt F) ((c : Thread nD τ).loc main_v51) :=
  (pd0 (fun c b => V10 m c b) c).arrAt 3 cfg0.N

/-- The unknowns with region 0's named: `main_v51` at what region 0 leaves, every other buffer as region 0 finds it. -/
def outsA : Outs (F := F) := fun _ r c => Function.update (V10 m c) main_v51 (o51 m c) r

/-- The contents the regions leave. After region 0 (read at item 11): `outsA`. After region 1 (read at item 13):
    `main_v76` at what region 1's pipeline leaves, the region entered at the contents the stretch between the regions
    makes of region 0's result; every other buffer as region 1 finds it. -/
def outsK : Outs (F := F) := fun J r c =>
  if J = 13 then Function.update (V12 m (outsA m) c) main_v76 ((pd1 (fun c b => V12 m (outsA m) c b) c).arrAt 9 cfg1.N) r
  else outsA m J r c

/-- Region 0's output array ends at its pipeline's final contents. -/
theorem outsK_v51 (c : Dev nD) : outsK m 11 main_v51 c = (pd0 (fun c b => V10 m c b) c).arrAt 3 cfg0.N := by
  unfold outsK
  rw [if_neg (by decide)]
  unfold outsA
  rw [Function.update_self]
  rfl

/-- The stretch between the regions reads the unknowns at region 0's output only. -/
theorem V12_outsK (c : Dev nD) : V12 m (outsK m) c = V12 m (outsA m) c := by
  have h : outsK m 11 main_v51 c = outsA m 11 main_v51 c := by unfold outsK; rw [if_neg (by decide)]
  unfold V12 V11
  rw [h]

/-- Region 1's output array ends at its pipeline's final contents, the pipeline entered at the valuation before it. -/
theorem outsK_v76 (c : Dev nD) : outsK m 13 main_v76 c = (pd1 (fun c b => V12 m (outsK m) c b) c).arrAt 9 cfg1.N := by
  have h : (fun c b => V12 m (outsK m) c b : (c : Dev nD) → (b : Ref sig .tc) → Buf (Elt F) ((c : Thread nD τ).loc b)) = fun c (b : Ref sig .tc) => V12 m (outsA m) c b := by
    funext c b; rw [V12_outsK]
  rw [h]
  unfold outsK
  rw [if_pos rfl, Function.update_self]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => pd0 (fun c b => V10 m c b) c
  | ⟨1, _⟩ => fun c => pd1 (fun c b => V12 m (outsK m) c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- The same rest between any two items. -/
abbrev E : Fin 3 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the regions leave: their arrays at the pipelines' final contents, every other buffer as entered -/

/-- A region's output array in the valuation after it is the unknown read there. -/
theorem V11_v51 (outs : Outs (F := F)) (c : Dev nD) : V11 m outs c main_v51 = outs 11 main_v51 c := by
  simp only [V11, Function.update_self]
theorem V13_v76 (outs : Outs (F := F)) (c : Dev nD) : V13 m outs c main_v76 = outs 13 main_v76 c := by
  simp only [V13, Function.update_self]

/-- Region 0's arrays at its exit: the three inputs as entered (an input array is never written back, and the valuation after
    the region differs from the one before it at `main_v51` only), the output at the pipeline's final contents. -/
theorem hF0 (c : Dev nD) : ∀ w : Fin 4, (pdats m 0 c).arrAt w cfg0.N = V11 m (outsK m) c (Pipeline.arrRef spec0 w)
  | 0 => ((pdats m 0 c).arrAt_in 0 rfl _).trans ((pd0_A (fun c b => V10 m c b) c 0).trans (V11_of m (outsK m) c main_v48 (by decide)).symm)
  | 1 => ((pdats m 0 c).arrAt_in 1 rfl _).trans ((pd0_A (fun c b => V10 m c b) c 1).trans (V11_of m (outsK m) c main_arg10 (by decide)).symm)
  | 2 => ((pdats m 0 c).arrAt_in 2 rfl _).trans ((pd0_A (fun c b => V10 m c b) c 2).trans (V11_of m (outsK m) c main_v50 (by decide)).symm)
  | 3 => (outsK_v51 m c).symm.trans (V11_v51 m (outsK m) c).symm
  | ⟨_ + 4, h⟩ => absurd h (Nat.not_lt.2 (Nat.le_add_left _ _))

/-- Off region 0's arrays the valuation after it is the one before it. -/
theorem hrest0 (c : Dev nD) : ∀ b, b ∉ Finset.univ.image (Pipeline.arrRef spec0) → V11 m (outsK m) c b = V10 m c b :=
  fun b hb => V11_of m (outsK m) c b fun h => hb (by rw [List.mem_singleton.mp h]; exact Finset.mem_image.mpr ⟨3, Finset.mem_univ _, rfl⟩)

/-- An input window's array ends as entered, and region 1 may change no buffer but its output's. -/
theorem hF1_in (c : Dev nD) (w : Fin 10) (hin : (cfg1.win w).isOut = false) (hne : Pipeline.arrRef spec1 w ∉ ([main_v76] : List (Ref sig .tc))) :
    (pdats m 1 c).arrAt w cfg1.N = V13 m (outsK m) c (Pipeline.arrRef spec1 w) :=
  ((pdats m 1 c).arrAt_in w hin _).trans ((pd1_A (fun c b => V12 m (outsK m) c b) c w).trans (V13_of m (outsK m) c _ hne).symm)

/-- Region 1's arrays at its exit: the nine inputs as entered, the output at the pipeline's final contents. -/
theorem hF1 (c : Dev nD) (w : Fin 10) : (pdats m 1 c).arrAt w cfg1.N = V13 m (outsK m) c (Pipeline.arrRef spec1 w) := by
  rcases w with ⟨_ | _ | _ | _ | _ | _ | _ | _ | _ | _ | n, h⟩
  · exact hF1_in m c 0 rfl (by decide)
  · exact hF1_in m c 1 rfl (by decide)
  · exact hF1_in m c 2 rfl (by decide)
  · exact hF1_in m c 3 rfl (by decide)
  · exact hF1_in m c 4 rfl (by decide)
  · exact hF1_in m c 5 rfl (by decide)
  · exact hF1_in m c 6 rfl (by decide)
  · exact hF1_in m c 7 rfl (by decide)
  · exact hF1_in m c 8 rfl (by decide)
  · exact (outsK_v76 m c).symm.trans (V13_v76 m (outsK m) c).symm
  · omega

/-- Off region 1's arrays the valuation after it is the one before it. -/
theorem hrest1 (c : Dev nD) : ∀ b, b ∉ Finset.univ.image (Pipeline.arrRef spec1) → V13 m (outsK m) c b = V12 m (outsK m) c b :=
  fun b hb => V13_of m (outsK m) c b fun h => hb (by rw [List.mem_singleton.mp h]; exact Finset.mem_image.mpr ⟨9, Finset.mem_univ _, rfl⟩)

/-! ## The regions as segments

Region 0's invariant is not the same at every point: before the first point it is the untouched scoped rest beside the generator
register, afterwards it names what the accumulator scratch holds. It is entered from the former and gives the former back after the
last point (the named contents forgotten), so over the thread state it behaves as region 1's constant invariant does. -/

set_option backward.isDefEq.respectTransparency.types false in
/-- REGION 0 (custom_call 0) over the thread state: its arrays split out of the unscoped buffers at entry and put back at
    the exit contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (pd0_body (fun c b => V10 m c b) c).loose
  hwaits := Pipeline.hwaits_of_owed_zero _ _ _ _ L lv 0 fun _ _ => rfl
  pre c := iprop(StableHlo.held (c : Thread nD τ) (Pipeline.ucRefs τ sig) (V10 m c) ∗ R c)
  post c := iprop(StableHlo.held (c : Thread nD τ) (Pipeline.ucRefs τ sig) (V11 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (fun b => V10 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V10 m c b) fun w => pd0_A (fun c b => V10 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (pd0_hin (fun c b => V10 m c b) c)
    unfold Pipeline.ΦA
    iintro ⟨Hp, -, Hr⟩
    isplitl [Hr]; · iexact Hr
    iexact Hp
  hout c := by
    rw [Pipeline.ownSems0_none]
    refine BIBase.Entails.trans (pd0_hout (fun c b => V10 m c b) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V10 m c b) (fun b => V11 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the `owes`: every unscoped buffer at the last boundary's contents, the generator register at some state. -/
abbrev Tₙ (c : Dev nD) : sProp 𝕄 := iprop(StableHlo.held (c : Thread nD τ) (Pipeline.ucRefs τ sig) (V13 m (outsK m) c) ∗ ∃ r, prngReg c r)

set_option backward.isDefEq.respectTransparency.types false in
/-- REGION 1 (custom_call 1) over the thread state: its arrays split out of the unscoped buffers at entry and put back at
    the exit contents; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (pd1_body (fun c b => V12 m (outsK m) c b) c).loose
  hwaits := Pipeline.hwaits_of_owed_zero _ _ _ _ L lv 1 fun _ _ => rfl
  pre c := iprop(StableHlo.held (c : Thread nD τ) (Pipeline.ucRefs τ sig) (V12 m (outsK m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => V12 m (outsK m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V12 m (outsK m) c b) fun w => pd1_A (fun c b => V12 m (outsK m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V12 m (outsK m) c b) (fun b => V13 m (outsK m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

set_option backward.isDefEq.respectTransparency.types false in
/-- THE RUN: from any memory with zero counters every weakly fair execution of @main terminates, and in every final memory each
    unscoped buffer of each core holds the last boundary's contents: the launch memory carried through the ten host stretches, region 0's
    output array at what its pipeline leaves, the stretch between the regions, region 1's output array at what its pipeline leaves. -/
theorem run_all : θ_run defs (onTc (τ := τ) (main (F := F))) ⟨m, fun _ => 0, ρ⟩
    (fun r => ∀ c : Dev nD, ∀ b ∈ Pipeline.ucRefs τ sig, r.2.mem ((c : Thread nD τ).1, b) = V13 m (outsK m) c b) :=
  Pipeline.θ_run_regions_kit_dev (pcfgs (F := F)) adm (pdats m) () cellOf_inj emb₁ defs₀ 𝒱₀ L lv m ρ main
    (segs m (outsK m) 𝒱₀ L lv E () (pdats m) (reg0 m) (reg1 m))
    (fun c Q => by
      rewrite [main_chain c, Pipeline.Seg.run_eq_chain,
        show (segs m (outsK m) 𝒱₀ L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outsK m) c b)
    (hfin := fun c s' => by
      iintro ⟨⟨Hh, -⟩, HSI⟩
      unfold StableHlo.held
      imodintro
      iapply (pointsTo_read_all (Pipeline.ucRefs τ sig) (fun b => (((c : Thread nD τ)).1, b)) (V13 m (outsK m) c) s')
      isplitl [Hh] <;> iassumption)
    (hQ := fun s h => h)

/-- THE FRAME, at any `F`: every argument array ends holding its launch contents — the run's last contents at an argument's buffer,
    which no host stretch writes and no region may change. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (V13_main_arg0 m (outsK m) c),
     (h c _ (mem_uc main_arg1 (by decide))).trans (V13_main_arg1 m (outsK m) c),
     (h c _ (mem_uc main_arg2 (by decide))).trans (V13_main_arg2 m (outsK m) c),
     (h c _ (mem_uc main_arg3 (by decide))).trans (V13_main_arg3 m (outsK m) c),
     (h c _ (mem_uc main_arg4 (by decide))).trans (V13_main_arg4 m (outsK m) c),
     (h c _ (mem_uc main_arg5 (by decide))).trans (V13_main_arg5 m (outsK m) c),
     (h c _ (mem_uc main_arg6 (by decide))).trans (V13_main_arg6 m (outsK m) c),
     (h c _ (mem_uc main_arg7 (by decide))).trans (V13_main_arg7 m (outsK m) c),
     (h c _ (mem_uc main_arg8 (by decide))).trans (V13_main_arg8 m (outsK m) c),
     (h c _ (mem_uc main_arg9 (by decide))).trans (V13_main_arg9 m (outsK m) c),
     (h c _ (mem_uc main_arg10 (by decide))).trans (V13_main_arg10 m (outsK m) c),
     (h c _ (mem_uc main_arg11 (by decide))).trans (V13_main_arg11 m (outsK m) c),
     (h c _ (mem_uc main_arg12 (by decide))).trans (V13_main_arg12 m (outsK m) c),
     (h c _ (mem_uc main_arg13 (by decide))).trans (V13_main_arg13 m (outsK m) c)⟩) (run_all m ρ)

/-- info: 'Cert.KernelIdeal.Hand.run_all' depends on axioms: [propext, Classical.choice, Quot.sound] -/
#guard_msgs in #print axioms run_all

/-- info: 'Cert.KernelIdeal.Hand.frame' depends on axioms: [propext, Classical.choice, Quot.sound] -/
#guard_msgs in #print axioms frame

end Cert.KernelIdeal.Hand

end
-- ==== Proof.Spec.lean ====
/-
  The mathematics both programs compute, index by index over the extended reals, stated once.

  * `params z W b`: the latent-to-parameter map, `params[n, j] = Σ_k z[n, k] · W[k, j] + b[n, j]` (the bias already laid
    out one row per datapoint).
  * `hidden h W b`: one sine layer at any number `S` of sample rows, `sin (30 · (Σ_d h[n, s, d] · W[n, d, e] + b[n, 0, e]))`:
    the weights are per datapoint `n`, the bias one row per datapoint, the sum runs over the 32 input features.
  * `last h W b`: the output layer, the same affine map without the sine, onto 3 features.
  * `mlp`: three hidden layers and the output layer.
  Every layer acts on each sample row `s` by itself: restricting the rows to a block commutes with it (`hidden_rows`,
  `last_rows`, `mlp_rows`), which is all that tiling the sample axis uses.
-/
import Idealize.ShloMosaic.PureOps.Ideal
import Idealize.ShloMosaic.Lib.ValueIdx

noncomputable section

namespace Cert.Spec

open Idealize.ShloMosaic Idealize.ShloMosaic.ValueIdx

/-- An f32 array of a literal shape, read at the extended reals. -/
abbrev T2 (a b : Nat) : Type := FVec Ideal (⟨2, ![a, b]⟩ : Shape) .f32
abbrev T3 (a b c : Nat) : Type := FVec Ideal (⟨3, ![a, b, c]⟩ : Shape) .f32

/-- The sine layers' frequency, 30, as the f32 word both programs carry. -/
def c30 : EReal := Ideal.ofBits .f32 0x41F00000#32

/-- `params[n, j] = Σ_k z[n, k] · W[k, j] + b[n, j]`. -/
def params (z : T2 96 4096) (W : T2 4096 3267) (b : T2 96 3267) : T2 96 3267 :=
  fun j => (∑ k : Fin 4096, z (ix2 (j 0) k) * W (ix2 k (j 1))) + b j

/-- One sine layer over `S` sample rows. -/
def hidden {S : Nat} (h : T3 96 S 32) (W : T3 96 32 32) (b : T3 96 1 32) : T3 96 S 32 :=
  fun j => Ideal.sin (c30 * ((∑ d : Fin 32, h (ix3 (j 0) (j 1) d) * W (ix3 (j 0) d (j 2))) + b (ix3 (j 0) 0 (j 2))))

/-- The output layer over `S` sample rows. -/
def last {S : Nat} (h : T3 96 S 32) (W : T3 96 32 3) (b : T3 96 1 3) : T3 96 S 3 :=
  fun j => (∑ d : Fin 32, h (ix3 (j 0) (j 1) d) * W (ix3 (j 0) d (j 2))) + b (ix3 (j 0) 0 (j 2))

/-- The whole network over `S` sample rows. -/
def mlp {S : Nat} (x : T3 96 S 32) (W0 : T3 96 32 32) (b0 : T3 96 1 32) (W1 : T3 96 32 32) (b1 : T3 96 1 32)
    (W2 : T3 96 32 32) (b2 : T3 96 1 32) (W3 : T3 96 32 3) (b3 : T3 96 1 3) : T3 96 S 3 :=
  last (hidden (hidden (hidden x W0 b0) W1 b1) W2 b2) W3 b3

/-- Rows `r s'` of a larger array, as an array of `S'` rows. -/
def rows {S S' D : Nat} (r : Fin S' → Fin S) (h : T3 96 S D) : T3 96 S' D :=
  fun j => h (ix3 (j 0) (r (j 1)) (j 2))

theorem hidden_rows {S S' : Nat} (r : Fin S' → Fin S) (h : T3 96 S 32) (W : T3 96 32 32) (b : T3 96 1 32) :
    rows r (hidden h W b) = hidden (rows r h) W b := rfl

theorem last_rows {S S' : Nat} (r : Fin S' → Fin S) (h : T3 96 S 32) (W : T3 96 32 3) (b : T3 96 1 3) :
    rows r (last h W b) = last (rows r h) W b := rfl

theorem mlp_rows {S S' : Nat} (r : Fin S' → Fin S) (x : T3 96 S 32) (W0 : T3 96 32 32) (b0 : T3 96 1 32) (W1 : T3 96 32 32) (b1 : T3 96 1 32)
    (W2 : T3 96 32 32) (b2 : T3 96 1 32) (W3 : T3 96 32 3) (b3 : T3 96 1 3) :
    rows r (mlp x W0 b0 W1 b1 W2 b2 W3 b3) = mlp (rows r x) W0 b0 W1 b1 W2 b2 W3 b3 := rfl

end Cert.Spec

end
-- ==== Proof.SumBlocks.lean ====
/-
  A sum of 4096 terms taken in 8 consecutive blocks of 512.

  In any additive commutative monoid, `∑ k : Fin 4096, f k` is the sum over `a < 8` of the block sums
  `∑ b : Fin 512, f (512·a + b)`: position `k` is the pair (quotient, remainder) of `k` by 512, a bijection of
  `Fin 8 × Fin 512` with `Fin 4096`, and a finite sum does not depend on how its index set is named or on the order and
  grouping of its terms. No subtraction, cancellation or finiteness of a term is used, so the statement holds over the
  extended reals as it does over any such monoid. The blocks are indexed by a natural number (zero from block 8 on), so
  that the sum of the first `n + 1` blocks is a sum over `Finset.range (n + 1)` and grows by one block per step.
-/
import Mathlib.Algebra.BigOperators.Fin
import Mathlib.Data.Fintype.BigOperators

namespace Cert.SumBlocks

variable {M : Type*} [AddCommMonoid M]

/-- Position `512·a + b` of block `a`, offset `b`. -/
def pos (a : Fin 8) (b : Fin 512) : Fin 4096 :=
  ⟨512 * a.val + b.val, by have := a.isLt; have := b.isLt; omega⟩

/-- A position is its (quotient, remainder) by 512, and conversely. -/
def split : Fin 8 × Fin 512 ≃ Fin 4096 where
  toFun p := pos p.1 p.2
  invFun k := (⟨k.val / 512, by have := k.isLt; omega⟩, ⟨k.val % 512, Nat.mod_lt _ (by decide)⟩)
  left_inv p := by
    obtain ⟨a, b⟩ := p
    have ha := a.isLt
    have hb := b.isLt
    apply Prod.ext <;> apply Fin.ext
    · show (512 * a.val + b.val) / 512 = a.val; omega
    · show (512 * a.val + b.val) % 512 = b.val; omega
  right_inv k := by
    apply Fin.ext
    show 512 * (k.val / 512) + k.val % 512 = k.val
    omega

/-- Block `a` of `f`: the 512 consecutive terms from position `512·a`; zero from block 8 on. -/
def blk (f : Fin 4096 → M) (a : ℕ) : M :=
  if h : a < 8 then ∑ b : Fin 512, f (pos ⟨a, h⟩ b) else 0

theorem blk_of_lt (f : Fin 4096 → M) {a : ℕ} (h : a < 8) : blk f a = ∑ b : Fin 512, f (pos ⟨a, h⟩ b) :=
  dif_pos h

/-- The eight blocks make up the whole sum. -/
theorem sum_blocks (f : Fin 4096 → M) : ∑ a ∈ Finset.range 8, blk f a = ∑ k : Fin 4096, f k := by
  rw [Finset.sum_range]
  calc ∑ a : Fin 8, blk f a.val
      = ∑ a : Fin 8, ∑ b : Fin 512, f (pos a b) :=
        Finset.sum_congr rfl fun a _ => blk_of_lt f a.isLt
    _ = ∑ p : Fin 8 × Fin 512, f (split p) := (Fintype.sum_prod_type' fun a b => f (pos a b)).symm
    _ = ∑ k : Fin 4096, f k := Equiv.sum_comp split f

end Cert.SumBlocks
-- ==== Proof.KVal0.lean ====
/-
  What region 0 leaves in its output array, over the extended reals: `params` of the three arrays it reads.

  Region 0 multiplies the latent rows `z` [96,4096] by the weights `W` [4096,3267] with the contracted axis cut into 8
  blocks of 512, one block per grid point, and adds the bias rows `b` [96,3267] at the end. A scratch array carried from
  point to point holds the running total: point 0 stores zeros and adds block 0's products, each later point adds its own
  block's products onto what the point before left, and the last point stores the total plus the bias into the output,
  which is written back once, whole.

  At an output position `(p, q)`:
  * one point's update is `acc + Σ_{r < 512} x[p, r] · w[r, q]` of the two blocks it holds (the change of float format
    before the product is the identity here, and the product into a zero accumulator is the bare sum);
  * the block of `z` at point `t` is columns `512·t … 512·t + 511`, the block of `W` rows `512·t … 512·t + 511`, so that
    sum is block `t` of the 4096 products `z[p, k] · W[k, q]`;
  * hence, by induction on the point, after point `n` the scratch holds the first `n + 1` blocks of those products (the
    zero the first point starts from is the additive unit), and after point 7 all eight, which is the sum over all 4096
    positions — a regrouping of a finite sum in a commutative monoid, which asks nothing of the terms' finiteness;
  * adding the bias entry gives `params z W b` at `(p, q)`.
  The output's one block starts at row 0, column 0 and has the array's extents, so what the last point writes back is the
  whole array.
-/
import proofs.«422240_j68229850464342_4_alg».proof.Proof.KReg0
import proofs.«422240_j68229850464342_4_alg».proof.Proof.Spec
import proofs.«422240_j68229850464342_4_alg».proof.Proof.SumBlocks
import proofs.«422240_j68229850464342_4_alg».proof.Proof.Gen.KernelIdeal.Launch
import proofs.«422240_j68229850464342_4_alg».proof.Proof.Gen.KernelIdeal.Skeleton
import proofs.«422240_j68229850464342_4_alg».proof.Proof.Gen.KernelIdeal.Points
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

namespace Val0

/-! ## The payloads at an index, over the extended reals -/

theorem pay1_apply (j : S96x3267.Idx) : (k0_pay1 (F := Ideal)) j = 0 := by
  unfold k0_pay1
  simp only [shapeCast_self]
  show Ideal.ofBits .f32 0x00000000#32 = 0
  exact Ideal.ofBits_zero_f32

theorem pay3_apply (a b : FVec Ideal S96x3267 .f32) (j : S96x3267.Idx) : k0_pay3 a b j = a j + b j := by
  unfold k0_pay3
  simp only [shapeCast_self]
  rfl

theorem lhs_dot_0 (j : S96x3267.Idx) (k : dot_S96x512_S512x3267_S96x3267_1_0_0_1_n_n.contr.Idx) :
    (dot_S96x512_S512x3267_S96x3267_1_0_0_1_n_n.lhsIdx j k 0).val = (j 0).val := by
  unfold DotDims.lhsIdx
  rw [dif_neg (show ¬(0 : Fin S96x512.rank) ∈ dot_S96x512_S512x3267_S96x3267_1_0_0_1_n_n.lhsBatch by decide),
    dif_pos (show (0 : Fin S96x512.rank) ∈ dot_S96x512_S512x3267_S96x3267_1_0_0_1_n_n.lhsNonContracting by decide)]
  rfl

theorem lhs_dot_1 (j : S96x3267.Idx) (k : dot_S96x512_S512x3267_S96x3267_1_0_0_1_n_n.contr.Idx) :
    (dot_S96x512_S512x3267_S96x3267_1_0_0_1_n_n.lhsIdx j k 1).val = (k ⟨0, by decide⟩).val :=
  dot_S96x512_S512x3267_S96x3267_1_0_0_1_n_n.lhsIdx_val_of_single (cl := 1) rfl j k

theorem rhs_dot_0 (j : S96x3267.Idx) (k : dot_S96x512_S512x3267_S96x3267_1_0_0_1_n_n.contr.Idx) :
    (dot_S96x512_S512x3267_S96x3267_1_0_0_1_n_n.rhsIdx j k 0).val = (k ⟨0, by decide⟩).val :=
  dot_S96x512_S512x3267_S96x3267_1_0_0_1_n_n.rhsIdx_val_of_single (cr := 0) rfl j k

theorem rhs_dot_1 (j : S96x3267.Idx) (k : dot_S96x512_S512x3267_S96x3267_1_0_0_1_n_n.contr.Idx) :
    (dot_S96x512_S512x3267_S96x3267_1_0_0_1_n_n.rhsIdx j k 1).val = (j 1).val := by
  unfold DotDims.rhsIdx
  rw [dif_neg (show ¬(1 : Fin S512x3267.rank) ∈ dot_S96x512_S512x3267_S96x3267_1_0_0_1_n_n.rhsBatch by decide),
    dif_pos (show (1 : Fin S512x3267.rank) ∈ dot_S96x512_S512x3267_S96x3267_1_0_0_1_n_n.rhsNonContracting by decide)]
  rfl

/-- The block update at an output index: the accumulator there plus the 512 products of the row of `x` and the column of `w`. -/
theorem pay2_apply (x : FVec Ideal S96x512 .f32) (w : FVec Ideal S512x3267 .f32) (acc : FVec Ideal S96x3267 .f32)
    (p : Fin 96) (q : Fin 3267) :
    k0_pay2 x w acc (ix2 p q) = acc (ix2 p q) + ∑ r : Fin 512, x (ix2 p r) * w (ix2 r q) := by
  unfold k0_pay2
  simp only [shapeCast_self]
  refine congrArg (acc (ix2 p q) + ·) ?_
  refine (Ideal.matmul_constant_zero_apply dot_S96x512_S512x3267_S96x3267_1_0_0_1_n_n none
    (truncf .bf16 x bitsLt_bf16_f32) (truncf .bf16 w bitsLt_bf16_f32) (ix2 p q)).trans ?_
  refine (Equiv.sum_comp (contrEquiv1 dot_S96x512_S512x3267_S96x3267_1_0_0_1_n_n 512 rfl rfl).symm _).symm.trans ?_
  refine Finset.sum_congr rfl fun r _ => ?_
  have hl : dot_S96x512_S512x3267_S96x3267_1_0_0_1_n_n.lhsIdx (ix2 p q)
      ((contrEquiv1 dot_S96x512_S512x3267_S96x3267_1_0_0_1_n_n 512 rfl rfl).symm r) = ix2 p r := by
    funext a
    apply Fin.ext
    match a with
    | ⟨0, _⟩ => exact lhs_dot_0 _ _
    | ⟨1, _⟩ => exact (lhs_dot_1 _ _).trans (contrEquiv1_symm_val _ 512 rfl rfl r)
  have hr : dot_S96x512_S512x3267_S96x3267_1_0_0_1_n_n.rhsIdx (ix2 p q)
      ((contrEquiv1 dot_S96x512_S512x3267_S96x3267_1_0_0_1_n_n 512 rfl rfl).symm r) = ix2 r q := by
    funext a
    apply Fin.ext
    match a with
    | ⟨0, _⟩ => exact (rhs_dot_0 _ _).trans (contrEquiv1_symm_val _ 512 rfl rfl r)
    | ⟨1, _⟩ => exact rhs_dot_1 _ _
  show x (dot_S96x512_S512x3267_S96x3267_1_0_0_1_n_n.lhsIdx (ix2 p q) _) * w (dot_S96x512_S512x3267_S96x3267_1_0_0_1_n_n.rhsIdx (ix2 p q) _) = _
  rw [hl, hr]

/-! ## Region 0's output array is the specification's `params` -/
section Value
variable (V : (c : Dev nD) → (b : Ref sig .tc) → Buf (Elt Ideal) ((c : Thread nD τ).loc b))

/-- The three arrays region 0 reads, as the region finds them, at their literal types: the latent rows `z` [96,4096],
    the weights [4096,3267], the bias laid out one row per datapoint [96,3267]. -/
abbrev zArr (c : Dev nD) : FVec Ideal S96x4096 .f32 := V c main_v48
abbrev wArr (c : Dev nD) : FVec Ideal S4096x3267 .f32 := V c main_arg10
abbrev bArr (c : Dev nD) : FVec Ideal S96x3267 .f32 := V c main_v50
/-- and the blocks of them the windows hold at point `t`. -/
abbrev zAt (c : Dev nD) (t : Fin cfg0.N) : FVec Ideal S96x512 .f32 := blk0 V c 0 t
abbrev wAt (c : Dev nD) (t : Fin cfg0.N) : FVec Ideal S512x3267 .f32 := blk0 V c 1 t
abbrev bAt (c : Dev nD) (t : Fin cfg0.N) : FVec Ideal S96x3267 .f32 := blk0 V c 2 t

/-- Where the windows sit at point `t`: `z`'s block is column block `t`, the weights' block is row block `t`, the bias is whole. -/
theorem idx_facts0 : ∀ t : Fin cfg0.N, win0_0.index t 0 = 0 ∧ win0_0.index t 1 = t.val ∧ win0_1.index t 0 = t.val ∧ win0_1.index t 1 = 0
    ∧ win0_2.index t 0 = 0 ∧ win0_2.index t 1 = 0 :=
  (by decide +kernel : ∀ t : Fin grid0.N, _)

/-- `z`'s block at point `t` holds columns `512·t … 512·t + 511`. -/
theorem zAt_apply (c : Dev nD) (t : Fin cfg0.N) (p : Fin 96) (r : Fin 512) (k : Fin 4096) (hk : k.val = 512 * t.val + r.val) :
    zAt V c t (ix2 p r) = zArr V c (ix2 p k) := by
  obtain ⟨h0, h1, -, -, -, -⟩ := idx_facts0 t
  unfold zAt zArr blk0
  rw [View.read_apply]
  show V c main_v48 _ = V c main_v48 _
  congr 1
  funext a
  apply Fin.ext
  match a with
  | ⟨0, _⟩ => show win0_0.index t 0 * 96 + 1 * p.val = p.val; rw [h0]; omega
  | ⟨1, _⟩ => show win0_0.index t 1 * 512 + 1 * r.val = k.val; rw [h1, hk]; omega

/-- The weights' block at point `t` holds rows `512·t … 512·t + 511`. -/
theorem wAt_apply (c : Dev nD) (t : Fin cfg0.N) (r : Fin 512) (q : Fin 3267) (k : Fin 4096) (hk : k.val = 512 * t.val + r.val) :
    wAt V c t (ix2 r q) = wArr V c (ix2 k q) := by
  obtain ⟨-, -, h0, h1, -, -⟩ := idx_facts0 t
  unfold wAt wArr blk0
  rw [View.read_apply]
  show V c main_arg10 _ = V c main_arg10 _
  congr 1
  funext a
  apply Fin.ext
  match a with
  | ⟨0, _⟩ => show win0_1.index t 0 * 512 + 1 * r.val = k.val; rw [h0, hk]; omega
  | ⟨1, _⟩ => show win0_1.index t 1 * 3267 + 1 * q.val = q.val; rw [h1]; omega

/-- The bias window holds the whole bias array at every point. -/
theorem bAt_apply (c : Dev nD) (t : Fin cfg0.N) (p : Fin 96) (q : Fin 3267) : bAt V c t (ix2 p q) = bArr V c (ix2 p q) := by
  obtain ⟨-, -, -, -, h0, h1⟩ := idx_facts0 t
  unfold bAt bArr blk0
  rw [View.read_apply]
  show V c main_v50 _ = V c main_v50 _
  congr 1
  funext a
  apply Fin.ext
  match a with
  | ⟨0, _⟩ => show win0_2.index t 0 * 96 + 1 * p.val = p.val; rw [h0]; omega
  | ⟨1, _⟩ => show win0_2.index t 1 * 3267 + 1 * q.val = q.val; rw [h1]; omega

/-- The products the sum of `params` at `(p, q)` runs over, by position `k` of the contracted axis. -/
def terms (c : Dev nD) (p : Fin 96) (q : Fin 3267) : Fin 4096 → EReal :=
  fun k => zArr V c (ix2 p k) * wArr V c (ix2 k q)

/-- Point `t`'s block product at `(p, q)` is block `t` of those products. -/
theorem block_product (c : Dev nD) (t : Fin cfg0.N) (p : Fin 96) (q : Fin 3267) :
    ∑ r : Fin 512, zAt V c t (ix2 p r) * wAt V c t (ix2 r q) = Cert.SumBlocks.blk (terms V c p q) t.val := by
  have hN : cfg0.N = 8 := N_0
  have ht : t.val < 8 := by have := t.isLt; omega
  rw [Cert.SumBlocks.blk_of_lt _ ht]
  refine Finset.sum_congr rfl fun r _ => ?_
  unfold terms
  rw [zAt_apply V c t p r (Cert.SumBlocks.pos ⟨t.val, ht⟩ r) rfl, wAt_apply V c t r q (Cert.SumBlocks.pos ⟨t.val, ht⟩ r) rfl]

/-- After point `n` the scratch holds, at `(p, q)`, the first `n + 1` blocks of the sum: point 0 adds block 0 onto the
    zeros it stored, each later point adds its block onto what the point before left. -/
theorem accAt_apply (c : Dev nD) (p : Fin 96) (q : Fin 3267) : ∀ (n : ℕ) (h : n < cfg0.N),
    accAt V c n h (ix2 p q) = ∑ a ∈ Finset.range (n + 1), Cert.SumBlocks.blk (terms V c p q) a
  | 0, h => by
    rw [accAt_zero]
    refine (pay2_apply (zAt V c ⟨0, h⟩) (wAt V c ⟨0, h⟩) (k0_pay1 (F := Ideal)) p q).trans ?_
    rw [pay1_apply, zero_add, block_product V c ⟨0, h⟩ p q, Finset.sum_range_one]
  | n + 1, h => by
    rw [accAt_succ]
    refine (pay2_apply (zAt V c ⟨n + 1, h⟩) (wAt V c ⟨n + 1, h⟩) (accAt V c n (Nat.lt_of_succ_lt h)) p q).trans ?_
    rw [accAt_apply c p q n (Nat.lt_of_succ_lt h), block_product V c ⟨n + 1, h⟩ p q, Finset.sum_range_succ _ (n + 1)]

/-- What point 7 stores into the output's buffer is `params` of the three arrays: the eight blocks are the whole sum, plus the bias. -/
theorem out0_params (c : Dev nD) : out0 V c = Cert.Spec.params (zArr V c) (wArr V c) (bArr V c) := by
  funext j
  obtain ⟨p, q, rfl⟩ : ∃ (p : Fin 96) (q : Fin 3267), j = ix2 p q := ⟨j 0, j 1, eq_ix2 j⟩
  show k0_pay3 (accAt V c 7 tLast.isLt) (bAt V c tLast) (ix2 p q) = _
  rw [pay3_apply, accAt_apply V c p q 7 tLast.isLt, bAt_apply V c tLast p q]
  show (∑ a ∈ Finset.range 8, Cert.SumBlocks.blk (terms V c p q) a) + _ = _
  rw [Cert.SumBlocks.sum_blocks]
  rfl

/-- Only the last point writes the output back, and what it writes is `params`: the output's single block starts at row 0,
    column 0 with the array's own extents, so the array read through that block is the array. -/
theorem flushed_eq (c : Dev nD) (t : Fin cfg0.N) (hf : (cfg0.win 3).flush t = true) :
    (pd0 V c).flushed 3 t = ((cfg0.win 3).blk t).view.read (Elt Ideal) (Cert.Spec.params (zArr V c) (wArr V c) (bArr V c)) := by
  have hN : cfg0.N = 8 := N_0
  have h7 : t.val = 7 := by have := (flush0_3 t).mp hf; have := t.isLt; omega
  show (cfg0.win 3).cut (grid0.coords t) ((pd0 V c).after 3 t) = _
  rw [pd0_after_out V c t h7, out0_params]
  obtain rfl : t = tLast := Fin.ext h7
  have hz' : (fun a => win0_3.index tLast a * main_v51.ty.shape.size a) = fun _ => 0 := funext fun a => by fin_cases a <;> decide
  exact (Memref.read_access_unit_zero (Elt Ideal) main_v51 hz' (fun a => by rw [congrFun hz' a]; simp)
    (Cert.Spec.params (zArr V c) (wArr V c) (bArr V c))).symm

/-- Point 7's block is the whole output array. -/
theorem cover0 (i : S96x3267.Idx) : ∃ t : Fin cfg0.N, (cfg0.win 3).flush t = true ∧ i ∈ ((cfg0.win 3).blk t).view.set := by
  have h0 : (i 0 : Nat) < 96 := (i 0).isLt
  have h1 : (i 1 : Nat) < 3267 := (i 1).isLt
  refine ⟨tLast, (flush0_3 tLast).mpr rfl, ?_⟩
  show i ∈ ((View.whole main_v51).slice (win0_3.rect tLast)).set
  rw [View.set_slice_whole, Rect.mem_set_unit]
  intro a
  match a with
  | ⟨0, _⟩ => show win0_3.index tLast 0 * win0_3.size 0 ≤ (i 0 : Nat) ∧ (i 0 : Nat) < win0_3.index tLast 0 * win0_3.size 0 + win0_3.xsize (grid0.coords tLast) 0
              rw [show win0_3.index tLast 0 * win0_3.size 0 = 0 from by decide +kernel, show win0_3.xsize (grid0.coords tLast) 0 = 96 from by decide +kernel]; omega
  | ⟨1, _⟩ => show win0_3.index tLast 1 * win0_3.size 1 ≤ (i 1 : Nat) ∧ (i 1 : Nat) < win0_3.index tLast 1 * win0_3.size 1 + win0_3.xsize (grid0.coords tLast) 1
              rw [show win0_3.index tLast 1 * win0_3.size 1 = 0 from by decide +kernel, show win0_3.xsize (grid0.coords tLast) 1 = 3267 from by decide +kernel]; omega

end Value

end Val0

/-- Region 0 leaves in its output array `params` of the latent rows, the weights and the bias rows it read: its one
    write-back, at the last point, writes the whole array. -/
theorem arr0_eq (V : (c : Dev nD) → (b : Ref sig .tc) → Buf (Elt Ideal) ((c : Thread nD τ).loc b)) (c : Dev nD) :
    (pd0 (F := Ideal) V c).arrAt 3 cfg0.N = Cert.Spec.params (V c main_v48) (V c main_arg10) (V c main_v50) :=
  (pd0 V c).arrAt_eq_of_cover 3 (Cert.Spec.params (Val0.zArr V c) (Val0.wArr V c) (Val0.bArr V c)) (Val0.flushed_eq V c) Val0.cover0

end Cert.KernelIdeal.Hand
end
-- ==== Proof.KVal1.lean ====
/-
  Region 1 at the extended reals: the array it leaves in its output is the four-layer sine network applied to the arrays it
  was given, index by index.

  The region walks the 4096 sample rows in 16 blocks of 256. At a point it holds one block of input rows, the four weight
  arrays whole, and four bias arrays of 256 rows each, and it stores, for datapoint `n`, sample row `s` of the block and
  output feature `e`,
      Σ_d h₃[n, s, d] · W3[n, d, e] + B3[n, s, e],   hₖ₊₁[n, s, e] = sin (30 · (Σ_d hₖ[n, s, d] · Wk[n, d, e] + Bk[n, s, e])),
  with `h₀` the input block: each product is batched over the 96 datapoints and contracts the 32 features into a zero
  block (so it is the bare sum), the change of float format around it is the identity on extended reals, and each bias is
  added entry by entry, row `s` of the bias array at sample row `s` of the block.

  * `mlpR r`: that network over any number of sample rows, the bias row of sample row `s` being `r s`; restricting the
    sample rows commutes with it (`mlpR_rows`), every layer acting on each row by itself.
  * `mlpK`: the network over the 4096 rows with bias row `s % 256`; when every bias array is one row repeated it is the
    specification's network (`mlpK_of_bcast`).
  * `pay_eq`: what the body stores is `mlpR` of its loaded blocks with the identity row map; the two batched products are
    read at an index axis by axis (batch axis, free axis, contracted axis) and re-indexed by the contracted coordinate.
  * `arr1_eq`: block `t` of the input and of the output are the sample rows `256 t … 256 t + 255`, every other window is
    its whole array; `(256 t + s) % 256 = s`, so what point `t` writes back is block `t` of `mlpK` of the arrays, and sample
    row `s` lies in the block of point `s / 256`: the blocks cover the output array.
-/
import proofs.«422240_j68229850464342_4_alg».proof.Proof.KReg1
import proofs.«422240_j68229850464342_4_alg».proof.Proof.Spec
import Idealize.ShloMosaic.PureOps.Ideal.Laws
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen
open Cert.Spec (T2 T3 c30)

namespace Val1

/-! ## The two batched products' operand indices, axis by axis

For both products the left operand is `[96, 256, 32]` (batch, free, contracted) and the right `[96, 32, E]` (batch,
contracted, free): at result index `(n, s, e)` and contraction coordinate `d` they are read at `(n, s, d)` and `(n, d, e)`. -/

theorem lhs32_0 (i : S96x256x32.Idx) (q : dot_S96x256x32_S96x32x32_S96x256x32_2_1_1_2_0_0.contr.Idx) :
    (dot_S96x256x32_S96x32x32_S96x256x32_2_1_1_2_0_0.lhsIdx i q 0).val = (i 0).val := by
  unfold DotDims.lhsIdx
  rw [dif_pos (show (0 : Fin S96x256x32.rank) ∈ dot_S96x256x32_S96x32x32_S96x256x32_2_1_1_2_0_0.lhsBatch by decide)]
  rfl
theorem lhs32_1 (i : S96x256x32.Idx) (q : dot_S96x256x32_S96x32x32_S96x256x32_2_1_1_2_0_0.contr.Idx) :
    (dot_S96x256x32_S96x32x32_S96x256x32_2_1_1_2_0_0.lhsIdx i q 1).val = (i 1).val := by
  unfold DotDims.lhsIdx
  rw [dif_neg (show ¬(1 : Fin S96x256x32.rank) ∈ dot_S96x256x32_S96x32x32_S96x256x32_2_1_1_2_0_0.lhsBatch by decide), dif_pos (show (1 : Fin S96x256x32.rank) ∈ dot_S96x256x32_S96x32x32_S96x256x32_2_1_1_2_0_0.lhsNonContracting by decide)]
  rfl
theorem lhs32_2 (i : S96x256x32.Idx) (q : dot_S96x256x32_S96x32x32_S96x256x32_2_1_1_2_0_0.contr.Idx) :
    (dot_S96x256x32_S96x32x32_S96x256x32_2_1_1_2_0_0.lhsIdx i q 2).val = (q ⟨0, by decide⟩).val :=
  dot_S96x256x32_S96x32x32_S96x256x32_2_1_1_2_0_0.lhsIdx_val_of_single rfl i q
theorem rhs32_0 (i : S96x256x32.Idx) (q : dot_S96x256x32_S96x32x32_S96x256x32_2_1_1_2_0_0.contr.Idx) :
    (dot_S96x256x32_S96x32x32_S96x256x32_2_1_1_2_0_0.rhsIdx i q 0).val = (i 0).val := by
  unfold DotDims.rhsIdx
  rw [dif_pos (show (0 : Fin S96x32x32.rank) ∈ dot_S96x256x32_S96x32x32_S96x256x32_2_1_1_2_0_0.rhsBatch by decide)]
  rfl
theorem rhs32_1 (i : S96x256x32.Idx) (q : dot_S96x256x32_S96x32x32_S96x256x32_2_1_1_2_0_0.contr.Idx) :
    (dot_S96x256x32_S96x32x32_S96x256x32_2_1_1_2_0_0.rhsIdx i q 1).val = (q ⟨0, by decide⟩).val :=
  dot_S96x256x32_S96x32x32_S96x256x32_2_1_1_2_0_0.rhsIdx_val_of_single rfl i q
theorem rhs32_2 (i : S96x256x32.Idx) (q : dot_S96x256x32_S96x32x32_S96x256x32_2_1_1_2_0_0.contr.Idx) :
    (dot_S96x256x32_S96x32x32_S96x256x32_2_1_1_2_0_0.rhsIdx i q 2).val = (i 2).val := by
  unfold DotDims.rhsIdx
  rw [dif_neg (show ¬(2 : Fin S96x32x32.rank) ∈ dot_S96x256x32_S96x32x32_S96x256x32_2_1_1_2_0_0.rhsBatch by decide), dif_pos (show (2 : Fin S96x32x32.rank) ∈ dot_S96x256x32_S96x32x32_S96x256x32_2_1_1_2_0_0.rhsNonContracting by decide)]
  rfl

theorem lhs3_0 (i : S96x256x3.Idx) (q : dot_S96x256x32_S96x32x3_S96x256x3_2_1_1_2_0_0.contr.Idx) :
    (dot_S96x256x32_S96x32x3_S96x256x3_2_1_1_2_0_0.lhsIdx i q 0).val = (i 0).val := by
  unfold DotDims.lhsIdx
  rw [dif_pos (show (0 : Fin S96x256x32.rank) ∈ dot_S96x256x32_S96x32x3_S96x256x3_2_1_1_2_0_0.lhsBatch by decide)]
  rfl
theorem lhs3_1 (i : S96x256x3.Idx) (q : dot_S96x256x32_S96x32x3_S96x256x3_2_1_1_2_0_0.contr.Idx) :
    (dot_S96x256x32_S96x32x3_S96x256x3_2_1_1_2_0_0.lhsIdx i q 1).val = (i 1).val := by
  unfold DotDims.lhsIdx
  rw [dif_neg (show ¬(1 : Fin S96x256x32.rank) ∈ dot_S96x256x32_S96x32x3_S96x256x3_2_1_1_2_0_0.lhsBatch by decide), dif_pos (show (1 : Fin S96x256x32.rank) ∈ dot_S96x256x32_S96x32x3_S96x256x3_2_1_1_2_0_0.lhsNonContracting by decide)]
  rfl
theorem lhs3_2 (i : S96x256x3.Idx) (q : dot_S96x256x32_S96x32x3_S96x256x3_2_1_1_2_0_0.contr.Idx) :
    (dot_S96x256x32_S96x32x3_S96x256x3_2_1_1_2_0_0.lhsIdx i q 2).val = (q ⟨0, by decide⟩).val :=
  dot_S96x256x32_S96x32x3_S96x256x3_2_1_1_2_0_0.lhsIdx_val_of_single rfl i q
theorem rhs3_0 (i : S96x256x3.Idx) (q : dot_S96x256x32_S96x32x3_S96x256x3_2_1_1_2_0_0.contr.Idx) :
    (dot_S96x256x32_S96x32x3_S96x256x3_2_1_1_2_0_0.rhsIdx i q 0).val = (i 0).val := by
  unfold DotDims.rhsIdx
  rw [dif_pos (show (0 : Fin S96x32x3.rank) ∈ dot_S96x256x32_S96x32x3_S96x256x3_2_1_1_2_0_0.rhsBatch by decide)]
  rfl
theorem rhs3_1 (i : S96x256x3.Idx) (q : dot_S96x256x32_S96x32x3_S96x256x3_2_1_1_2_0_0.contr.Idx) :
    (dot_S96x256x32_S96x32x3_S96x256x3_2_1_1_2_0_0.rhsIdx i q 1).val = (q ⟨0, by decide⟩).val :=
  dot_S96x256x32_S96x32x3_S96x256x3_2_1_1_2_0_0.rhsIdx_val_of_single rfl i q
theorem rhs3_2 (i : S96x256x3.Idx) (q : dot_S96x256x32_S96x32x3_S96x256x3_2_1_1_2_0_0.contr.Idx) :
    (dot_S96x256x32_S96x32x3_S96x256x3_2_1_1_2_0_0.rhsIdx i q 2).val = (i 2).val := by
  unfold DotDims.rhsIdx
  rw [dif_neg (show ¬(2 : Fin S96x32x3.rank) ∈ dot_S96x256x32_S96x32x3_S96x256x3_2_1_1_2_0_0.rhsBatch by decide), dif_pos (show (2 : Fin S96x32x3.rank) ∈ dot_S96x256x32_S96x32x3_S96x256x3_2_1_1_2_0_0.rhsNonContracting by decide)]
  rfl

/-- A batched product into the zero block, read at `(n, s, e)`: the sum over the 32 input features. -/
theorem mm32_apply (l : FVec Ideal S96x256x32 .bf16) (r : FVec Ideal S96x32x32 .bf16) (n : Fin 96) (s : Fin 256) (e : Fin 32) :
    matmul dot_S96x256x32_S96x32x32_S96x256x32_2_1_1_2_0_0 none l r (constant S96x256x32 .f32 0x00000000#32) (ix3 n s e)
      = ∑ d : Fin 32, l (ix3 n s d) * r (ix3 n d e) := by
  simp only [matmul]
  rw [Ideal.matmul_constant_zero_apply, ← Equiv.sum_comp (contrEquiv1 dot_S96x256x32_S96x32x32_S96x256x32_2_1_1_2_0_0 32 rfl rfl).symm]
  refine Finset.sum_congr rfl fun k _ => ?_
  have hk := contrEquiv1_symm_val dot_S96x256x32_S96x32x32_S96x256x32_2_1_1_2_0_0 32 rfl rfl k
  have el : dot_S96x256x32_S96x32x32_S96x256x32_2_1_1_2_0_0.lhsIdx (ix3 n s e) ((contrEquiv1 dot_S96x256x32_S96x32x32_S96x256x32_2_1_1_2_0_0 32 rfl rfl).symm k) = ix3 n s k := funext fun a => Fin.ext (by
    match a with
    | ⟨0, _⟩ => exact lhs32_0 _ _
    | ⟨1, _⟩ => exact lhs32_1 _ _
    | ⟨2, _⟩ => exact (lhs32_2 _ _).trans hk)
  have er : dot_S96x256x32_S96x32x32_S96x256x32_2_1_1_2_0_0.rhsIdx (ix3 n s e) ((contrEquiv1 dot_S96x256x32_S96x32x32_S96x256x32_2_1_1_2_0_0 32 rfl rfl).symm k) = ix3 n k e := funext fun a => Fin.ext (by
    match a with
    | ⟨0, _⟩ => exact rhs32_0 _ _
    | ⟨1, _⟩ => exact (rhs32_1 _ _).trans hk
    | ⟨2, _⟩ => exact rhs32_2 _ _)
  rw [el, er]

/-- A batched product into the zero block, read at `(n, s, e)`: the sum over the 32 input features. -/
theorem mm3_apply (l : FVec Ideal S96x256x32 .bf16) (r : FVec Ideal S96x32x3 .bf16) (n : Fin 96) (s : Fin 256) (e : Fin 3) :
    matmul dot_S96x256x32_S96x32x3_S96x256x3_2_1_1_2_0_0 none l r (constant S96x256x3 .f32 0x00000000#32) (ix3 n s e)
      = ∑ d : Fin 32, l (ix3 n s d) * r (ix3 n d e) := by
  simp only [matmul]
  rw [Ideal.matmul_constant_zero_apply, ← Equiv.sum_comp (contrEquiv1 dot_S96x256x32_S96x32x3_S96x256x3_2_1_1_2_0_0 32 rfl rfl).symm]
  refine Finset.sum_congr rfl fun k _ => ?_
  have hk := contrEquiv1_symm_val dot_S96x256x32_S96x32x3_S96x256x3_2_1_1_2_0_0 32 rfl rfl k
  have el : dot_S96x256x32_S96x32x3_S96x256x3_2_1_1_2_0_0.lhsIdx (ix3 n s e) ((contrEquiv1 dot_S96x256x32_S96x32x3_S96x256x3_2_1_1_2_0_0 32 rfl rfl).symm k) = ix3 n s k := funext fun a => Fin.ext (by
    match a with
    | ⟨0, _⟩ => exact lhs3_0 _ _
    | ⟨1, _⟩ => exact lhs3_1 _ _
    | ⟨2, _⟩ => exact (lhs3_2 _ _).trans hk)
  have er : dot_S96x256x32_S96x32x3_S96x256x3_2_1_1_2_0_0.rhsIdx (ix3 n s e) ((contrEquiv1 dot_S96x256x32_S96x32x3_S96x256x3_2_1_1_2_0_0 32 rfl rfl).symm k) = ix3 n k e := funext fun a => Fin.ext (by
    match a with
    | ⟨0, _⟩ => exact rhs3_0 _ _
    | ⟨1, _⟩ => exact (rhs3_1 _ _).trans hk
    | ⟨2, _⟩ => exact rhs3_2 _ _)
  rw [el, er]

/-! ## The network with the bias laid out one row per sample row of a block -/

/-- One sine layer whose bias array has 256 rows, row `r s` being the one added at sample row `s`. -/
def hiddenK {S : Nat} (r : Fin S → Fin 256) (h : T3 96 S 32) (W : T3 96 32 32) (B : T3 96 256 32) : T3 96 S 32 :=
  fun j => Ideal.sin (c30 * ((∑ d : Fin 32, h (ix3 (j 0) (j 1) d) * W (ix3 (j 0) d (j 2))) + B (ix3 (j 0) (r (j 1)) (j 2))))

/-- The output layer, likewise. -/
def lastK {S : Nat} (r : Fin S → Fin 256) (h : T3 96 S 32) (W : T3 96 32 3) (B : T3 96 256 3) : T3 96 S 3 :=
  fun j => (∑ d : Fin 32, h (ix3 (j 0) (j 1) d) * W (ix3 (j 0) d (j 2))) + B (ix3 (j 0) (r (j 1)) (j 2))

/-- Three sine layers and the output layer, likewise. -/
def mlpR {S : Nat} (r : Fin S → Fin 256) (x : T3 96 S 32) (W0 W1 W2 : T3 96 32 32) (W3 : T3 96 32 3)
    (B0 B1 B2 : T3 96 256 32) (B3 : T3 96 256 3) : T3 96 S 3 :=
  lastK r (hiddenK r (hiddenK r (hiddenK r x W0 B0) W1 B1) W2 B2) W3 B3

/-- Restricting the sample rows commutes with the network: every layer acts on each row by itself. -/
theorem mlpR_rows {S S' : Nat} (ρ : Fin S' → Fin S) (r : Fin S → Fin 256) (x : T3 96 S 32) (W0 W1 W2 : T3 96 32 32) (W3 : T3 96 32 3)
    (B0 B1 B2 : T3 96 256 32) (B3 : T3 96 256 3) :
    Cert.Spec.rows ρ (mlpR r x W0 W1 W2 W3 B0 B1 B2 B3) = mlpR (fun s => r (ρ s)) (Cert.Spec.rows ρ x) W0 W1 W2 W3 B0 B1 B2 B3 := rfl

theorem hiddenK_of_bcast {S : Nat} (r : Fin S → Fin 256) (h : T3 96 S 32) (W : T3 96 32 32) (B : T3 96 256 32) (b : T3 96 1 32)
    (hB : ∀ (n : Fin 96) (s : Fin 256) (e : Fin 32), B (ix3 n s e) = b (ix3 n 0 e)) : hiddenK r h W B = Cert.Spec.hidden h W b :=
  funext fun j => congrArg (fun z => Ideal.sin (c30 * ((∑ d : Fin 32, h (ix3 (j 0) (j 1) d) * W (ix3 (j 0) d (j 2))) + z)))
    (hB (j 0) (r (j 1)) (j 2))

theorem lastK_of_bcast {S : Nat} (r : Fin S → Fin 256) (h : T3 96 S 32) (W : T3 96 32 3) (B : T3 96 256 3) (b : T3 96 1 3)
    (hB : ∀ (n : Fin 96) (s : Fin 256) (e : Fin 3), B (ix3 n s e) = b (ix3 n 0 e)) : lastK r h W B = Cert.Spec.last h W b :=
  funext fun j => congrArg (fun z => (∑ d : Fin 32, h (ix3 (j 0) (j 1) d) * W (ix3 (j 0) d (j 2))) + z) (hB (j 0) (r (j 1)) (j 2))

end Val1

open Val1

/-- The network over the 4096 sample rows, the bias row of sample row `s` being row `s % 256`. -/
def mlpK (x : T3 96 4096 32) (W0 W1 W2 : T3 96 32 32) (W3 : T3 96 32 3) (B0 B1 B2 : T3 96 256 32) (B3 : T3 96 256 3) : T3 96 4096 3 :=
  mlpR (fun s => ⟨s.val % 256, Nat.mod_lt _ (by decide)⟩) x W0 W1 W2 W3 B0 B1 B2 B3

/-- When every bias array is one row repeated, this is the specification's network. -/
theorem mlpK_of_bcast (x : T3 96 4096 32) (W0 W1 W2 : T3 96 32 32) (W3 : T3 96 32 3) (B0 B1 B2 : T3 96 256 32) (B3 : T3 96 256 3)
    (b0 b1 b2 : T3 96 1 32) (b3 : T3 96 1 3)
    (h0 : ∀ (n : Fin 96) (s : Fin 256) (e : Fin 32), B0 (ix3 n s e) = b0 (ix3 n 0 e))
    (h1 : ∀ (n : Fin 96) (s : Fin 256) (e : Fin 32), B1 (ix3 n s e) = b1 (ix3 n 0 e))
    (h2 : ∀ (n : Fin 96) (s : Fin 256) (e : Fin 32), B2 (ix3 n s e) = b2 (ix3 n 0 e))
    (h3 : ∀ (n : Fin 96) (s : Fin 256) (e : Fin 3), B3 (ix3 n s e) = b3 (ix3 n 0 e)) :
    mlpK x W0 W1 W2 W3 B0 B1 B2 B3 = Cert.Spec.mlp x W0 b0 W1 b1 W2 b2 W3 b3 := by
  unfold mlpK mlpR Cert.Spec.mlp
  rw [hiddenK_of_bcast _ _ _ _ _ h0, hiddenK_of_bcast _ _ _ _ _ h1, hiddenK_of_bcast _ _ _ _ _ h2, lastK_of_bcast _ _ _ _ _ h3]

namespace Val1

/-! ## The body's arithmetic, read index by index -/

/-- A batched product into the zero block plus a bias block: `Σ_d h[n, s, d] · W[n, d, e] + B[n, s, e]`. -/
theorem lin32_eq (h : FVec Ideal S96x256x32 .f32) (W : Vec Ideal S96x32x32 .f32) (B : Vec Ideal S96x256x32 .f32) :
    addf (matmul dot_S96x256x32_S96x32x32_S96x256x32_2_1_1_2_0_0 none (truncf .bf16 h bitsLt_bf16_f32)
        (truncf .bf16 (shapeCast S96x32x32 W shapeCasts_S96x32x32_S96x32x32) bitsLt_bf16_f32) (constant S96x256x32 .f32 0x00000000#32))
      (shapeCast S96x256x32 B shapeCasts_S96x256x32_S96x256x32)
      = fun j => (∑ d : Fin 32, h (ix3 (j 0) (j 1) d) * W (ix3 (j 0) d (j 2))) + B (ix3 (j 0) (j 1) (j 2)) := by
  funext j
  obtain ⟨n, s, e, rfl⟩ : ∃ (n : Fin 96) (s : Fin 256) (e : Fin 32), j = ix3 n s e := ⟨j 0, j 1, j 2, eq_ix3 j⟩
  rw [addf_apply, mm32_apply, shapeCast_self, shapeCast_self]
  rfl

theorem lin3_eq (h : FVec Ideal S96x256x32 .f32) (W : Vec Ideal S96x32x3 .f32) (B : Vec Ideal S96x256x3 .f32) :
    addf (matmul dot_S96x256x32_S96x32x3_S96x256x3_2_1_1_2_0_0 none (truncf .bf16 h bitsLt_bf16_f32)
        (truncf .bf16 (shapeCast S96x32x3 W shapeCasts_S96x32x3_S96x32x3) bitsLt_bf16_f32) (constant S96x256x3 .f32 0x00000000#32))
      (shapeCast S96x256x3 B shapeCasts_S96x256x3_S96x256x3)
      = fun j => (∑ d : Fin 32, h (ix3 (j 0) (j 1) d) * W (ix3 (j 0) d (j 2))) + B (ix3 (j 0) (j 1) (j 2)) := by
  funext j
  obtain ⟨n, s, e, rfl⟩ : ∃ (n : Fin 96) (s : Fin 256) (e : Fin 3), j = ix3 n s e := ⟨j 0, j 1, j 2, eq_ix3 j⟩
  rw [addf_apply, mm3_apply, shapeCast_self, shapeCast_self]
  rfl

/-- The sine of thirty times a block, entry by entry. -/
theorem act_eq (p : FVec Ideal S96x256x32 .f32) :
    sin (mulf (broadcast S96x256x32 (Scalar.ofBits (F := Ideal) .f32 0x41F00000#32)) p) = fun j => Ideal.sin (c30 * p j) := rfl

/-- What the body stores, as the network over one block of 256 sample rows with the bias read row by row. -/
theorem pay_eq (x0 : Vec Ideal S96x256x32 .f32) (x1 : Vec Ideal S96x32x32 .f32) (x2 : Vec Ideal S96x256x32 .f32)
    (x3 : Vec Ideal S96x32x32 .f32) (x4 : Vec Ideal S96x256x32 .f32) (x5 : Vec Ideal S96x32x32 .f32) (x6 : Vec Ideal S96x256x32 .f32)
    (x7 : Vec Ideal S96x32x3 .f32) (x8 : Vec Ideal S96x256x3 .f32) :
    k1_pay1 (k1_pay2 x0 x1 x2 x3 x4 x5 x6) (k1_pay3 (F := Ideal)) x7 x8 = mlpR (S := 256) (fun s => s) x0 x1 x3 x5 x7 x2 x4 x6 x8 := by
  unfold k1_pay1 k1_pay2 k1_pay3
  simp only [lin32_eq, act_eq, lin3_eq]
  rfl

/-! ## From the blocks to the array -/

section Array

variable (V : (c : Dev nD) → (b : Ref sig .tc) → Buf (Elt Ideal) ((c : Thread nD τ).loc b))

theorem hz3 : (![0, 0, 0] : Fin 3 → Nat) = fun _ => 0 := funext fun a => by fin_cases a <;> rfl

/-- The windows' index maps over the 16 points: the input rows and the output rows move with the point along the sample
    axis, block `t` at point `t`; every weight and bias window stays on its one whole block. -/
theorem idx_facts : ∀ t : Fin cfg1.N,
    (win1_0.index t (0 : Fin 3) = 0 ∧ win1_0.index t (1 : Fin 3) = t.val ∧ win1_0.index t (2 : Fin 3) = 0)
    ∧ (win1_9.index t (0 : Fin 3) = 0 ∧ win1_9.index t (1 : Fin 3) = t.val ∧ win1_9.index t (2 : Fin 3) = 0)
    ∧ (∀ a : Fin 3, win1_1.index t a = 0) ∧ (∀ a : Fin 3, win1_2.index t a = 0) ∧ (∀ a : Fin 3, win1_3.index t a = 0)
    ∧ (∀ a : Fin 3, win1_4.index t a = 0) ∧ (∀ a : Fin 3, win1_5.index t a = 0) ∧ (∀ a : Fin 3, win1_6.index t a = 0)
    ∧ (∀ a : Fin 3, win1_7.index t a = 0) ∧ (∀ a : Fin 3, win1_8.index t a = 0) :=
  (by decide +kernel : ∀ t : Fin grid1.N, _)

/-- Sample row `s` of the block of point `t` is row `256 t + s` of the 4096. -/
def rowOf (t : Fin cfg1.N) (s : Fin 256) : Fin 4096 :=
  ⟨256 * t.val + s.val, by have h := t.isLt; have hN : cfg1.N = 16 := N_1; have := s.isLt; omega⟩

/-- Its bias row, `(256 t + s) % 256`, is `s`. -/
theorem mod_rowOf (t : Fin cfg1.N) :
    (fun s : Fin 256 => (⟨(rowOf t s).val % 256, Nat.mod_lt _ (by decide)⟩ : Fin 256)) = fun s => s :=
  funext fun s => Fin.ext (by show (256 * t.val + s.val) % 256 = s.val; have := s.isLt; omega)

/-- The input window's block at point `t`: the sample rows `256 t … 256 t + 255` of the input array. -/
theorem blk_in (c : Dev nD) (t : Fin cfg1.N) :
    (blk1 V c 0 t : Vec Ideal S96x256x32 .f32) = Cert.Spec.rows (rowOf t) (V c main_arg0 : T3 96 4096 32) := by
  obtain ⟨⟨e0, e1, e2⟩, -⟩ := idx_facts t
  funext y
  unfold blk1 Cert.Spec.rows
  rw [View.read_apply]
  show V c main_arg0 _ = V c main_arg0 _
  congr 1
  funext a
  apply Fin.ext
  match a with
  | ⟨0, _⟩ => show win1_0.index t 0 * 96 + 1 * (y 0).val = (y 0).val; rw [e0]; omega
  | ⟨1, _⟩ => show win1_0.index t 1 * 256 + 1 * (y 1).val = 256 * t.val + (y 1).val; rw [e1]; omega
  | ⟨2, _⟩ => show win1_0.index t 2 * 32 + 1 * (y 2).val = (y 2).val; rw [e2]; omega

theorem blk_w1 (c : Dev nD) (t : Fin cfg1.N) : (blk1 V c 1 t : Vec Ideal S96x32x32 .f32) = (V c main_v55 : T3 96 32 32) := by
  have e : ∀ a : Fin 3, win1_1.index t a = 0 := (idx_facts t).2.2.1
  funext y
  unfold blk1
  rw [View.read_apply]
  show V c main_v55 _ = V c main_v55 y
  congr 1
  funext a
  apply Fin.ext
  match a with
  | ⟨0, _⟩ => show win1_1.index t 0 * 96 + 1 * (y 0).val = (y 0).val; rw [e 0]; omega
  | ⟨1, _⟩ => show win1_1.index t 1 * 32 + 1 * (y 1).val = (y 1).val; rw [e 1]; omega
  | ⟨2, _⟩ => show win1_1.index t 2 * 32 + 1 * (y 2).val = (y 2).val; rw [e 2]; omega

theorem blk_w2 (c : Dev nD) (t : Fin cfg1.N) : (blk1 V c 2 t : Vec Ideal S96x256x32 .f32) = (V c main_v69 : T3 96 256 32) := by
  have e : ∀ a : Fin 3, win1_2.index t a = 0 := (idx_facts t).2.2.2.1
  funext y
  unfold blk1
  rw [View.read_apply]
  show V c main_v69 _ = V c main_v69 y
  congr 1
  funext a
  apply Fin.ext
  match a with
  | ⟨0, _⟩ => show win1_2.index t 0 * 96 + 1 * (y 0).val = (y 0).val; rw [e 0]; omega
  | ⟨1, _⟩ => show win1_2.index t 1 * 256 + 1 * (y 1).val = (y 1).val; rw [e 1]; omega
  | ⟨2, _⟩ => show win1_2.index t 2 * 32 + 1 * (y 2).val = (y 2).val; rw [e 2]; omega

theorem blk_w3 (c : Dev nD) (t : Fin cfg1.N) : (blk1 V c 3 t : Vec Ideal S96x32x32 .f32) = (V c main_v59 : T3 96 32 32) := by
  have e : ∀ a : Fin 3, win1_3.index t a = 0 := (idx_facts t).2.2.2.2.1
  funext y
  unfold blk1
  rw [View.read_apply]
  show V c main_v59 _ = V c main_v59 y
  congr 1
  funext a
  apply Fin.ext
  match a with
  | ⟨0, _⟩ => show win1_3.index t 0 * 96 + 1 * (y 0).val = (y 0).val; rw [e 0]; omega
  | ⟨1, _⟩ => show win1_3.index t 1 * 32 + 1 * (y 1).val = (y 1).val; rw [e 1]; omega
  | ⟨2, _⟩ => show win1_3.index t 2 * 32 + 1 * (y 2).val = (y 2).val; rw [e 2]; omega

theorem blk_w4 (c : Dev nD) (t : Fin cfg1.N) : (blk1 V c 4 t : Vec Ideal S96x256x32 .f32) = (V c main_v71 : T3 96 256 32) := by
  have e : ∀ a : Fin 3, win1_4.index t a = 0 := (idx_facts t).2.2.2.2.2.1
  funext y
  unfold blk1
  rw [View.read_apply]
  show V c main_v71 _ = V c main_v71 y
  congr 1
  funext a
  apply Fin.ext
  match a with
  | ⟨0, _⟩ => show win1_4.index t 0 * 96 + 1 * (y 0).val = (y 0).val; rw [e 0]; omega
  | ⟨1, _⟩ => show win1_4.index t 1 * 256 + 1 * (y 1).val = (y 1).val; rw [e 1]; omega
  | ⟨2, _⟩ => show win1_4.index t 2 * 32 + 1 * (y 2).val = (y 2).val; rw [e 2]; omega

theorem blk_w5 (c : Dev nD) (t : Fin cfg1.N) : (blk1 V c 5 t : Vec Ideal S96x32x32 .f32) = (V c main_v63 : T3 96 32 32) := by
  have e : ∀ a : Fin 3, win1_5.index t a = 0 := (idx_facts t).2.2.2.2.2.2.1
  funext y
  unfold blk1
  rw [View.read_apply]
  show V c main_v63 _ = V c main_v63 y
  congr 1
  funext a
  apply Fin.ext
  match a with
  | ⟨0, _⟩ => show win1_5.index t 0 * 96 + 1 * (y 0).val = (y 0).val; rw [e 0]; omega
  | ⟨1, _⟩ => show win1_5.index t 1 * 32 + 1 * (y 1).val = (y 1).val; rw [e 1]; omega
  | ⟨2, _⟩ => show win1_5.index t 2 * 32 + 1 * (y 2).val = (y 2).val; rw [e 2]; omega

theorem blk_w6 (c : Dev nD) (t : Fin cfg1.N) : (blk1 V c 6 t : Vec Ideal S96x256x32 .f32) = (V c main_v73 : T3 96 256 32) := by
  have e : ∀ a : Fin 3, win1_6.index t a = 0 := (idx_facts t).2.2.2.2.2.2.2.1
  funext y
  unfold blk1
  rw [View.read_apply]
  show V c main_v73 _ = V c main_v73 y
  congr 1
  funext a
  apply Fin.ext
  match a with
  | ⟨0, _⟩ => show win1_6.index t 0 * 96 + 1 * (y 0).val = (y 0).val; rw [e 0]; omega
  | ⟨1, _⟩ => show win1_6.index t 1 * 256 + 1 * (y 1).val = (y 1).val; rw [e 1]; omega
  | ⟨2, _⟩ => show win1_6.index t 2 * 32 + 1 * (y 2).val = (y 2).val; rw [e 2]; omega

theorem blk_w7 (c : Dev nD) (t : Fin cfg1.N) : (blk1 V c 7 t : Vec Ideal S96x32x3 .f32) = (V c main_v67 : T3 96 32 3) := by
  have e : ∀ a : Fin 3, win1_7.index t a = 0 := (idx_facts t).2.2.2.2.2.2.2.2.1
  funext y
  unfold blk1
  rw [View.read_apply]
  show V c main_v67 _ = V c main_v67 y
  congr 1
  funext a
  apply Fin.ext
  match a with
  | ⟨0, _⟩ => show win1_7.index t 0 * 96 + 1 * (y 0).val = (y 0).val; rw [e 0]; omega
  | ⟨1, _⟩ => show win1_7.index t 1 * 32 + 1 * (y 1).val = (y 1).val; rw [e 1]; omega
  | ⟨2, _⟩ => show win1_7.index t 2 * 3 + 1 * (y 2).val = (y 2).val; rw [e 2]; omega

theorem blk_w8 (c : Dev nD) (t : Fin cfg1.N) : (blk1 V c 8 t : Vec Ideal S96x256x3 .f32) = (V c main_v75 : T3 96 256 3) := by
  have e : ∀ a : Fin 3, win1_8.index t a = 0 := (idx_facts t).2.2.2.2.2.2.2.2.2
  funext y
  unfold blk1
  rw [View.read_apply]
  show V c main_v75 _ = V c main_v75 y
  congr 1
  funext a
  apply Fin.ext
  match a with
  | ⟨0, _⟩ => show win1_8.index t 0 * 96 + 1 * (y 0).val = (y 0).val; rw [e 0]; omega
  | ⟨1, _⟩ => show win1_8.index t 1 * 256 + 1 * (y 1).val = (y 1).val; rw [e 1]; omega
  | ⟨2, _⟩ => show win1_8.index t 2 * 3 + 1 * (y 2).val = (y 2).val; rw [e 2]; omega

/-- The output window's block at point `t`, of any contents of the output array: the same sample rows. -/
theorem blk_out (t : Fin cfg1.N) (G : T3 96 4096 3) :
    ((cfg1.win 9).blk t).view.read (Elt Ideal) G = Cert.Spec.rows (rowOf t) G := by
  obtain ⟨-, ⟨e0, e1, e2⟩, -⟩ := idx_facts t
  funext y
  unfold Cert.Spec.rows
  rw [View.read_apply]
  show G _ = G _
  congr 1
  funext a
  apply Fin.ext
  match a with
  | ⟨0, _⟩ => show win1_9.index t 0 * 96 + 1 * (y 0).val = (y 0).val; rw [e0]; omega
  | ⟨1, _⟩ => show win1_9.index t 1 * 256 + 1 * (y 1).val = 256 * t.val + (y 1).val; rw [e1]; omega
  | ⟨2, _⟩ => show win1_9.index t 2 * 3 + 1 * (y 2).val = (y 2).val; rw [e2]; omega

/-- What the output array ends holding: the network of the input array with the region's weight and bias arrays. -/
abbrev G1 (c : Dev nD) : T3 96 4096 3 :=
  mlpK (V c main_arg0) (V c main_v55) (V c main_v59) (V c main_v63) (V c main_v67) (V c main_v69) (V c main_v71) (V c main_v73) (V c main_v75)

/-- What point `t` writes back is block `t` of it. -/
theorem flushed_eq (c : Dev nD) (t : Fin cfg1.N) :
    (pd1 V c).flushed 9 t = ((cfg1.win 9).blk t).view.read (Elt Ideal) (G1 V c) := by
  show (cfg1.win 9).cut (grid1.coords t) ((pd1 V c).after 9 t) = _
  rw [pd1_after_out]
  unfold out1
  rw [View.canon_unit_zero hz3]
  simp only [View.ld_unit_zero (S := S96x256x32) hz3, View.ld_unit_zero (S := S96x32x32) hz3,
    View.ld_unit_zero (S := S96x32x3) hz3, View.ld_unit_zero (S := S96x256x3) hz3]
  rw [pay_eq, blk_in, blk_w1, blk_w2, blk_w3, blk_w4, blk_w5, blk_w6, blk_w7, blk_w8, blk_out]
  unfold G1 mlpK
  rw [mlpR_rows, mod_rowOf]
  rfl

/-- Sample row `s` lies in the block of point `s / 256`. -/
theorem cover (i : S96x4096x3.Idx) : ∃ t : Fin cfg1.N, (cfg1.win 9).flush t = true ∧ i ∈ ((cfg1.win 9).blk t).view.set := by
  have h0 : (i 0).val < 96 := (i 0).isLt
  have h1 : (i 1).val < 4096 := (i 1).isLt
  have h2 : (i 2).val < 3 := (i 2).isLt
  have hN : cfg1.N = 16 := N_1
  obtain ⟨t, ht⟩ : ∃ t : Fin cfg1.N, t.val = (i 1).val / 256 := ⟨⟨(i 1).val / 256, by rw [hN]; omega⟩, rfl⟩
  obtain ⟨-, ⟨e0, e1, e2⟩, -⟩ := idx_facts t
  refine ⟨t, flush1_9 t, ?_⟩
  show i ∈ ((View.whole main_v76).slice (win1_9.rect t)).set
  rw [View.set_slice_whole, Rect.mem_set_unit]
  intro a
  match a with
  | ⟨0, _⟩ => show win1_9.index t 0 * 96 ≤ (i 0).val ∧ (i 0).val < win1_9.index t 0 * 96 + 96; rw [e0]; omega
  | ⟨1, _⟩ => show win1_9.index t 1 * 256 ≤ (i 1).val ∧ (i 1).val < win1_9.index t 1 * 256 + 256; rw [e1, ht]; omega
  | ⟨2, _⟩ => show win1_9.index t 2 * 3 ≤ (i 2).val ∧ (i 2).val < win1_9.index t 2 * 3 + 3; rw [e2]; omega

end Array

end Val1

section Result

variable (V : (c : Dev nD) → (b : Ref sig .tc) → Buf (Elt Ideal) ((c : Thread nD τ).loc b))

/-- At the extended reals, the array region 1 leaves in its output is the network applied to the arrays it was given,
    index by index. -/
theorem arr1_eq (c : Dev nD) : (pd1 (F := Ideal) V c).arrAt 9 cfg1.N
    = mlpK (V c main_arg0) (V c main_v55) (V c main_v59) (V c main_v63) (V c main_v67) (V c main_v69) (V c main_v71) (V c main_v73) (V c main_v75) :=
  (pd1 V c).arrAt_eq_of_cover 9 (G1 V c) (fun t _ => Val1.flushed_eq V c t) Val1.cover

end Result

end Cert.KernelIdeal.Hand

end
-- ==== Proof.ZChain.lean ====
/-
  The latent code `z` that both programs hand to the parameter map, as ONE function of the eleven arrays it is computed from.

  With `softplus x = max x 0 + log1p (exp (-|x - 0|))` (and `x + 0` where `x - 0` is not equal to itself), a latent table is
  `μ + σ · (softplus ρ / 6)`. There are three of them, of shapes [96, 4096], [6, 1024] and [1, 512]:

    z[n, k] = t₀[n, k] + t₁[⌊n / 16⌋, i₁₂[k]] + t₂[⌊n / 96⌋, i₁₃[k]]

  where the two lookups are written as the programs write them: a gather of whole rows by the row number (`⌊n / d⌋` as the
  sign-corrected truncated quotient of an iota, a negative index wrapped by the axis length), then a gather of columns by the
  index array (wrapped the same way). The four gathers' dimension records are parameters; every other shape fact is decided here.
  Every definition is stated for any float values; `ZChain` is the chain at the extended reals.
-/
import Idealize.ShloMosaic.PureOps
import Idealize.ShloMosaic.PureOps.Ideal

noncomputable section

namespace Cert.Spec

open Idealize.ShloMosaic

section Chain

variable {F : FTy → Type} [FloatOps F]

/-- The scalar shape. -/
abbrev Z0 : Shape := ⟨0, ![]⟩

/-- A scalar laid out over a whole shape. -/
abbrev fill {α : Type} (s : Shape) (h : Z0.BroadcastsInDim s (![] : Fin 0 → Fin s.rank)) (x : Z0.Idx → α) : s.Idx → α :=
  broadcastInDim s ![] h x

/-- `softplus`, operation by operation: `max x 0 + log1p (exp (-|x - 0|))`, and `x + 0` where `x - 0 ≠ x - 0`. -/
def softplusF (s : Shape) (h : Z0.BroadcastsInDim s (![] : Fin 0 → Fin s.rank)) (x : FVec F s .f32) : FVec F s .f32 :=
  select (cmpf .une (subf x (fill s h (constant Z0 .f32 0x00000000#32))) (subf x (fill s h (constant Z0 .f32 0x00000000#32))))
    (addf x (fill s h (constant Z0 .f32 0x00000000#32)))
    (addf (maximumf x (fill s h (constant Z0 .f32 0x00000000#32)))
      (Host.log1p (Host.exp (Host.negf (Host.absf (subf x (fill s h (constant Z0 .f32 0x00000000#32))))))))

/-- `μ + σ · (p / 6)`. -/
def scaledF (s : Shape) (h : Z0.BroadcastsInDim s (![] : Fin 0 → Fin s.rank)) (μ p σ : FVec F s .f32) : FVec F s .f32 :=
  addf μ (mulf σ (Host.divf p (fill s h (constant Z0 .f32 0x40C00000#32))))

/-- A latent table: `μ + σ · (softplus ρ / 6)`. -/
def latentF (s : Shape) (h : Z0.BroadcastsInDim s (![] : Fin 0 → Fin s.rank)) (μ ρ σ : FVec F s .f32) : FVec F s .f32 :=
  scaledF s h μ (softplusF s h ρ) σ

/-- `⌊x / k⌋` on 32-bit integers, operation by operation: the truncated quotient, less one where the signs differ and the
    remainder is not zero. -/
def floorDivI (s : Shape) (h : Z0.BroadcastsInDim s (![] : Fin 0 → Fin s.rank)) (x : IVec s 32) (k : IVec Z0 32) : IVec s 32 :=
  select
    (andi (cmpi .ne (signi x) (fill s h (signi k)))
      (cmpi .ne (Host.remsi x (fill s h k)) (fill s h (constantI Z0 32 0#32))))
    (subi (Host.divsi x (fill s h k)) (fill s h (constantI Z0 32 1#32)))
    (Host.divsi x (fill s h k))

/-- A negative index counted from the end of an axis of length `n`: `i + n` where `i < 0`. -/
def wrapI (s : Shape) (h : Z0.BroadcastsInDim s (![] : Fin 0 → Fin s.rank)) (n : BitVec 32) (i : IVec s 32) : IVec s 32 :=
  select (cmpi .slt i (fill s h (constantI Z0 32 0#32))) (addi i (fill s h (constantI Z0 32 n))) i

/-- The row numbers `0 … 95`. -/
abbrev rows96 : IVec (⟨1, ![96]⟩ : Shape) 32 := iotaInDim (⟨1, ![96]⟩ : Shape) 32 0

/-- An index array as a column of one-component index vectors. -/
abbrev col96 (i : IVec (⟨1, ![96]⟩ : Shape) 32) : IVec (⟨2, ![96, 1]⟩ : Shape) 32 :=
  broadcastInDim (⟨2, ![96, 1]⟩ : Shape) ![0] (by decide) i
abbrev col4096 (i : IVec (⟨1, ![4096]⟩ : Shape) 32) : IVec (⟨2, ![4096, 1]⟩ : Shape) 32 :=
  broadcastInDim (⟨2, ![4096, 1]⟩ : Shape) ![0] (by decide) i

/-- Row `⌊n / d⌋` of a table of `R` rows, for each of the 96 datapoints `n`. -/
def rowIdx (d R : BitVec 32) : IVec (⟨2, ![96, 1]⟩ : Shape) 32 :=
  col96 (wrapI (⟨1, ![96]⟩ : Shape) (by decide) R (floorDivI (⟨1, ![96]⟩ : Shape) (by decide) rows96 (constantI Z0 32 d)))

/-- Column `i[k]` of a table of `C` columns, for each of the 4096 latent coordinates `k`. -/
def colIdx (C : BitVec 32) (i : IVec (⟨1, ![4096]⟩ : Shape) 32) : IVec (⟨2, ![4096, 1]⟩ : Shape) 32 :=
  col4096 (wrapI (⟨1, ![4096]⟩ : Shape) (by decide) C i)

/-- The latent code, for any float values: the per-datapoint table plus the two looked-up tables. -/
def ZChainF
    (g1 : GatherDims (⟨2, ![6, 1024]⟩ : Shape) (⟨2, ![96, 1]⟩ : Shape) (⟨2, ![96, 1024]⟩ : Shape))
    (g2 : GatherDims (⟨2, ![96, 1024]⟩ : Shape) (⟨2, ![4096, 1]⟩ : Shape) (⟨2, ![96, 4096]⟩ : Shape))
    (g3 : GatherDims (⟨2, ![1, 512]⟩ : Shape) (⟨2, ![96, 1]⟩ : Shape) (⟨2, ![96, 512]⟩ : Shape))
    (g4 : GatherDims (⟨2, ![96, 512]⟩ : Shape) (⟨2, ![4096, 1]⟩ : Shape) (⟨2, ![96, 4096]⟩ : Shape))
    (a1 a2 : FVec F (⟨2, ![96, 4096]⟩ : Shape) .f32) (a3 a4 : FVec F (⟨2, ![6, 1024]⟩ : Shape) .f32)
    (a5 a6 : FVec F (⟨2, ![1, 512]⟩ : Shape) .f32) (a7 : FVec F (⟨2, ![96, 4096]⟩ : Shape) .f32)
    (a8 : FVec F (⟨2, ![6, 1024]⟩ : Shape) .f32) (a9 : FVec F (⟨2, ![1, 512]⟩ : Shape) .f32)
    (a12 a13 : IVec (⟨1, ![4096]⟩ : Shape) 32) : FVec F (⟨2, ![96, 4096]⟩ : Shape) .f32 :=
  addf
    (addf (latentF (⟨2, ![96, 4096]⟩ : Shape) (by decide) a1 a2 a7)
      (Host.gather g2 (Host.gather g1 (latentF (⟨2, ![6, 1024]⟩ : Shape) (by decide) a3 a4 a8) (rowIdx 16#32 6#32))
        (colIdx 1024#32 a12)))
    (Host.gather g4 (Host.gather g3 (latentF (⟨2, ![1, 512]⟩ : Shape) (by decide) a5 a6 a9) (rowIdx 96#32 1#32))
      (colIdx 512#32 a13))

end Chain

/-- The latent code at the extended reals. -/
def ZChain
    (g1 : GatherDims (⟨2, ![6, 1024]⟩ : Shape) (⟨2, ![96, 1]⟩ : Shape) (⟨2, ![96, 1024]⟩ : Shape))
    (g2 : GatherDims (⟨2, ![96, 1024]⟩ : Shape) (⟨2, ![4096, 1]⟩ : Shape) (⟨2, ![96, 4096]⟩ : Shape))
    (g3 : GatherDims (⟨2, ![1, 512]⟩ : Shape) (⟨2, ![96, 1]⟩ : Shape) (⟨2, ![96, 512]⟩ : Shape))
    (g4 : GatherDims (⟨2, ![96, 512]⟩ : Shape) (⟨2, ![4096, 1]⟩ : Shape) (⟨2, ![96, 4096]⟩ : Shape))
    (a1 a2 : FVec Ideal (⟨2, ![96, 4096]⟩ : Shape) .f32) (a3 a4 : FVec Ideal (⟨2, ![6, 1024]⟩ : Shape) .f32)
    (a5 a6 : FVec Ideal (⟨2, ![1, 512]⟩ : Shape) .f32) (a7 : FVec Ideal (⟨2, ![96, 4096]⟩ : Shape) .f32)
    (a8 : FVec Ideal (⟨2, ![6, 1024]⟩ : Shape) .f32) (a9 : FVec Ideal (⟨2, ![1, 512]⟩ : Shape) .f32)
    (a12 a13 : IVec (⟨1, ![4096]⟩ : Shape) 32) : FVec Ideal (⟨2, ![96, 4096]⟩ : Shape) .f32 :=
  ZChainF (F := Ideal) g1 g2 g3 g4 a1 a2 a3 a4 a5 a6 a7 a8 a9 a12 a13

end Cert.Spec

end
-- ==== Proof.KHost.lean ====
/-
  What the host stretches of the kernel program hold, at any float values and at the extended reals.

  Before region 0: its first operand is the latent code `Cert.Spec.ZChain` of eleven of the arguments (three softplus-scaled tables, two
  of them looked up by row and by column), its second the weight argument unchanged, its third the bias vector repeated over the 96 datapoints.
  Before region 1: its first operand is the input argument unchanged, and the other eight are slices of region 0's output, per layer a band of
  `32 + 32·32` columns (the last one `3 + 32·3`): the weights reshaped to one matrix per datapoint, the bias one row per datapoint repeated
  over the 256 sample rows of a block.

  Each stretch is first read over ANY contents `W` of the buffers before it; the stretches are then chained through the buffers no later
  stretch writes.
-/
import proofs.«422240_j68229850464342_4_alg».proof.Proof.Gen.KernelIdeal.Regions
import proofs.«422240_j68229850464342_4_alg».proof.Proof.Spec
import proofs.«422240_j68229850464342_4_alg».proof.Proof.ZChain
import Idealize.ShloMosaic.Lib.Pipeline.Value
import Idealize.ShloMosaic.Lib.ValueIdx

set_option maxRecDepth 1288

noncomputable section

namespace Cert.KernelIdeal.Hand

open Idealize.ShloMosaic Idealize.ShloMosaic.TcCoe Idealize.ShloMosaic.ValueIdx
open Cert.KernelIdeal Cert.KernelIdeal.Gen
open Cert.Spec

/-! ## Each host stretch, over any contents `W` of the buffers before it -/

section Stretches

variable {F : FTy → Type} [FloatOps F] (W : Valuation τ sig (Elt F))

theorem s0_v0 : (StableHlo.after hostOps0 W main_v0 : FVec F S96x4096 .f32) = softplusF S96x4096 bcast_S_S96x4096 (W main_arg2) := by
  dsimp only [hostOps0]
  after_results
  simp only [StableHlo.TRef.ofBuf, StableHlo.TRef.toBuf, cast_eq]
  rfl

theorem s1_v4 : (StableHlo.after hostOps0_1 W main_v4 : FVec F S96x4096 .f32)
    = scaledF S96x4096 bcast_S_S96x4096 (W main_arg1) (W main_v0) (W main_arg7) := by
  dsimp only [hostOps0_1]
  after_results
  rfl

theorem s2_v5 : (StableHlo.after hostOps0_2 W main_v5 : FVec F S6x1024 .f32) = softplusF S6x1024 bcast_S_S6x1024 (W main_arg4) := by
  dsimp only [hostOps0_2]
  after_results
  simp only [StableHlo.TRef.ofBuf, StableHlo.TRef.toBuf, cast_eq]
  rfl

theorem s3_v9 : (StableHlo.after hostOps0_3 W main_v9 : FVec F S6x1024 .f32)
    = scaledF S6x1024 bcast_S_S6x1024 (W main_arg3) (W main_v5) (W main_arg8) := by
  dsimp only [hostOps0_3]
  after_results
  rfl

theorem s4_v10 : (StableHlo.after hostOps0_4 W main_v10 : FVec F S1x512 .f32) = softplusF S1x512 bcast_S_S1x512 (W main_arg6) := by
  dsimp only [hostOps0_4]
  after_results
  simp only [StableHlo.TRef.ofBuf, StableHlo.TRef.toBuf, cast_eq]
  rfl

theorem s5_v14 : (StableHlo.after hostOps0_5 W main_v14 : FVec F S1x512 .f32)
    = scaledF S1x512 bcast_S_S1x512 (W main_arg5) (W main_v10) (W main_arg9) := by
  dsimp only [hostOps0_5]
  after_results
  rfl

theorem s5_v15 : (StableHlo.after hostOps0_5 W main_v15 : IVec S96 32) = rows96 := by
  dsimp only [hostOps0_5]
  after_results

theorem s5_c : (StableHlo.after hostOps0_5 W main_c : IVec S_ 32) = constantI Z0 32 16#32 := by
  dsimp only [hostOps0_5]
  after_results

theorem s6_v16 : (StableHlo.after hostOps0_6 W main_v16 : IVec S96 32) = floorDivI S96 bcast_S_S96 (W main_v15) (W main_c) := by
  dsimp only [hostOps0_6]
  after_results_simp
  simp only [StableHlo.TRef.ofBuf, StableHlo.TRef.toBuf, cast_eq]
  rfl

theorem s7_v17 : (StableHlo.after hostOps0_7 W main_v17 : IVec S96 32) = rows96 := by
  dsimp only [hostOps0_7]
  after_results

theorem s7_c2 : (StableHlo.after hostOps0_7 W main_c_2 : IVec S_ 32) = constantI Z0 32 96#32 := by
  dsimp only [hostOps0_7]
  after_results

theorem s8_v18 : (StableHlo.after hostOps0_8 W main_v18 : IVec S96 32) = floorDivI S96 bcast_S_S96 (W main_v17) (W main_c_2) := by
  dsimp only [hostOps0_8]
  after_results_simp
  simp only [StableHlo.TRef.ofBuf, StableHlo.TRef.toBuf, cast_eq]
  rfl

theorem s9_v48 : (StableHlo.after hostOps0_9 W main_v48 : FVec F S96x4096 .f32)
    = addf
        (addf (W main_v4)
          (Host.gather gather_S96x1024_S4096x1_S96x4096_0_1_n_n_1_1_961
            (Host.gather gather_S6x1024_S96x1_S96x1024_1_0_n_n_0_1_11024 (W main_v9) (col96 (wrapI S96 bcast_S_S96 6#32 (W main_v16))))
            (colIdx 1024#32 (W main_arg12))))
        (Host.gather gather_S96x512_S4096x1_S96x4096_0_1_n_n_1_1_961
          (Host.gather gather_S1x512_S96x1_S96x512_1_0_n_n_0_1_1512 (W main_v14) (col96 (wrapI S96 bcast_S_S96 1#32 (W main_v18))))
          (colIdx 512#32 (W main_arg13))) := by
  dsimp only [hostOps0_9]
  after_results_simp <;> rfl

theorem s9_v50 : (StableHlo.after hostOps0_9 W main_v50 : FVec F S96x3267 .f32)
    = broadcastInDim S96x3267 ![0, 1] bcast_S1x3267_S96x3267_0_1 (shapeCast S1x3267 (W main_arg11 : FVec F S3267 .f32) shapeCasts_S3267_S1x3267) := by
  dsimp only [hostOps0_9]
  after_results_simp <;> rfl

end Stretches

/-! ## The stretches chained: what region 0's operands hold -/

section Chain

variable {F : FTy → Type} [FloatOps F] (m : (ℓ : Loc nD τ sig) → Buf (Elt F) ℓ)

/-- A buffer none of the first stretches writes holds its launch contents. -/
theorem up1 (c : Dev nD) (r : Ref sig .tc) (h0 : r ∉ hostOps0_W) : V1 m c r = V0 m c r :=
  V1_of m c r h0
theorem up2 (c : Dev nD) (r : Ref sig .tc) (h0 : r ∉ hostOps0_W) (h1 : r ∉ hostOps0_1_W) : V2 m c r = V0 m c r :=
  (V2_of m c r h1).trans (up1 m c r h0)
theorem up3 (c : Dev nD) (r : Ref sig .tc) (h0 : r ∉ hostOps0_W) (h1 : r ∉ hostOps0_1_W) (h2 : r ∉ hostOps0_2_W) : V3 m c r = V0 m c r :=
  (V3_of m c r h2).trans (up2 m c r h0 h1)
theorem up4 (c : Dev nD) (r : Ref sig .tc) (h0 : r ∉ hostOps0_W) (h1 : r ∉ hostOps0_1_W) (h2 : r ∉ hostOps0_2_W) (h3 : r ∉ hostOps0_3_W) : V4 m c r = V0 m c r :=
  (V4_of m c r h3).trans (up3 m c r h0 h1 h2)
theorem up5 (c : Dev nD) (r : Ref sig .tc) (h0 : r ∉ hostOps0_W) (h1 : r ∉ hostOps0_1_W) (h2 : r ∉ hostOps0_2_W) (h3 : r ∉ hostOps0_3_W) (h4 : r ∉ hostOps0_4_W) : V5 m c r = V0 m c r :=
  (V5_of m c r h4).trans (up4 m c r h0 h1 h2 h3)
theorem up6 (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) : V6 m c r = V0 m c r :=
  (V6_of m c r h5).trans (up5 m c r h0 h1 h2 h3 h4)
theorem up7 (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) : V7 m c r = V0 m c r :=
  (V7_of m c r h6).trans (up6 m c r h0 h1 h2 h3 h4 h5)
theorem up8 (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) : V8 m c r = V0 m c r :=
  (V8_of m c r h7).trans (up7 m c r h0 h1 h2 h3 h4 h5 h6)
theorem up9 (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) : V9 m c r = V0 m c r :=
  (V9_of m c r h8).trans (up8 m c r h0 h1 h2 h3 h4 h5 h6 h7)
theorem up10 (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) : V10 m c r = V0 m c r :=
  (V10_of m c r h9).trans (up9 m c r h0 h1 h2 h3 h4 h5 h6 h7 h8)

/-- The latent table of a shape, from its three arrays read wherever they are still unchanged. -/
theorem latent_of {s : Shape} {h : Z0.BroadcastsInDim s (![] : Fin 0 → Fin s.rank)} {μ μ' p ρ σ σ' : FVec F s .f32}
    (e1 : μ' = μ) (e2 : p = softplusF s h ρ) (e3 : σ' = σ) : scaledF s h μ' p σ' = latentF s h μ ρ σ := by
  subst e1 e2 e3; rfl

theorem v9_v4 (c : Dev nD) : (V9 m c main_v4 : FVec F S96x4096 .f32)
    = latentF S96x4096 bcast_S_S96x4096 (V0 m c main_arg1) (V0 m c main_arg2) (V0 m c main_arg7) :=
  ((V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide))).trans <|
    (s1_v4 (V1 m c)).trans <| latent_of (up1 m c main_arg1 (by decide)) (s0_v0 (V0 m c)) (up1 m c main_arg7 (by decide))

theorem v9_v9 (c : Dev nD) : (V9 m c main_v9 : FVec F S6x1024 .f32)
    = latentF S6x1024 bcast_S_S6x1024 (V0 m c main_arg3) (V0 m c main_arg4) (V0 m c main_arg8) :=
  ((V9_of m c main_v9 (by decide)).trans <| (V8_of m c main_v9 (by decide)).trans <| (V7_of m c main_v9 (by decide)).trans <| (V6_of m c main_v9 (by decide)).trans <| (V5_of m c main_v9 (by decide))).trans <|
    (s3_v9 (V3 m c)).trans <| latent_of (up3 m c main_arg3 (by decide) (by decide) (by decide))
      ((s2_v5 (V2 m c)).trans (congrArg (softplusF S6x1024 bcast_S_S6x1024) (up2 m c main_arg4 (by decide) (by decide))))
      (up3 m c main_arg8 (by decide) (by decide) (by decide))

theorem v9_v14 (c : Dev nD) : (V9 m c main_v14 : FVec F S1x512 .f32)
    = latentF S1x512 bcast_S_S1x512 (V0 m c main_arg5) (V0 m c main_arg6) (V0 m c main_arg9) :=
  ((V9_of m c main_v14 (by decide)).trans <| (V8_of m c main_v14 (by decide)).trans <| (V7_of m c main_v14 (by decide))).trans <|
    (s5_v14 (V5 m c)).trans <| latent_of (up5 m c main_arg5 (by decide) (by decide) (by decide) (by decide) (by decide))
      ((s4_v10 (V4 m c)).trans (congrArg (softplusF S1x512 bcast_S_S1x512) (up4 m c main_arg6 (by decide) (by decide) (by decide) (by decide))))
      (up5 m c main_arg9 (by decide) (by decide) (by decide) (by decide) (by decide))

theorem v9_v16 (c : Dev nD) : (V9 m c main_v16 : IVec S96 32) = floorDivI S96 bcast_S_S96 rows96 (constantI Z0 32 16#32) :=
  ((V9_of m c main_v16 (by decide)).trans <| (V8_of m c main_v16 (by decide))).trans <|
    (s6_v16 (V6 m c)).trans <| congrArg₂ (floorDivI S96 bcast_S_S96) (s5_v15 (V5 m c)) (s5_c (V5 m c))

theorem v9_v18 (c : Dev nD) : (V9 m c main_v18 : IVec S96 32) = floorDivI S96 bcast_S_S96 rows96 (constantI Z0 32 96#32) :=
  (s8_v18 (V8 m c)).trans <| congrArg₂ (floorDivI S96 bcast_S_S96) (s7_v17 (V7 m c)) (s7_c2 (V7 m c))

/-- Region 0's first operand is the latent code of the eleven arguments it is computed from. -/
theorem v10_v48F (c : Dev nD) : (V10 m c main_v48 : FVec F S96x4096 .f32)
    = ZChainF gather_S6x1024_S96x1_S96x1024_1_0_n_n_0_1_11024 gather_S96x1024_S4096x1_S96x4096_0_1_n_n_1_1_961 gather_S1x512_S96x1_S96x512_1_0_n_n_0_1_1512 gather_S96x512_S4096x1_S96x4096_0_1_n_n_1_1_961
        (V0 m c main_arg1) (V0 m c main_arg2) (V0 m c main_arg3) (V0 m c main_arg4) (V0 m c main_arg5) (V0 m c main_arg6)
        (V0 m c main_arg7) (V0 m c main_arg8) (V0 m c main_arg9) (V0 m c main_arg12) (V0 m c main_arg13) := by
  refine (s9_v48 (V9 m c)).trans ?_
  rw [v9_v4, v9_v9, v9_v14, v9_v16, v9_v18, up9 m c main_arg12 (by decide) (by decide) (by decide) (by decide) (by decide) (by decide) (by decide) (by decide) (by decide), up9 m c main_arg13 (by decide) (by decide) (by decide) (by decide) (by decide) (by decide) (by decide) (by decide) (by decide)]
  rfl

end Chain

/-! ## After region 0: region 1's eight whole operands as slices of region 0's output -/

section Layers

variable {F : FTy → Type} [FloatOps F]

/-- The weights of a hidden layer: columns 32 … 1055 of its band of 1056, as 32 × 32 per datapoint. -/
abbrev hidW (B : FVec F S96x1056 .f32) : FVec F S96x32x32 .f32 :=
  shapeCast S96x32x32 (extractStridedSlice S96x1024 ![0, 32] B slices_S96x1056_S96x1024_0_32) shapeCasts_S96x1024_S96x32x32
/-- The bias of a hidden layer: columns 0 … 31 of its band, as one row per datapoint. -/
abbrev hidB (B : FVec F S96x1056 .f32) : FVec F S96x1x32 .f32 :=
  broadcastInDim S96x1x32 ![0, 2] bcast_S96x32_S96x1x32_0_2 (extractStridedSlice S96x32 ![0, 0] B slices_S96x1056_S96x32_0_0)
/-- The weights of the output layer: columns 3 … 98 of its band of 99, as 32 × 3 per datapoint. -/
abbrev outW (B : FVec F S96x99 .f32) : FVec F S96x32x3 .f32 :=
  shapeCast S96x32x3 (extractStridedSlice S96x96 ![0, 3] B slices_S96x99_S96x96_0_3) shapeCasts_S96x96_S96x32x3
/-- The bias of the output layer: columns 0 … 2 of its band. -/
abbrev outB (B : FVec F S96x99 .f32) : FVec F S96x1x3 .f32 :=
  broadcastInDim S96x1x3 ![0, 2] bcast_S96x3_S96x1x3_0_2 (extractStridedSlice S96x3 ![0, 0] B slices_S96x99_S96x3_0_0)

variable (W : Valuation τ sig (Elt F))

theorem h1_v55 : (StableHlo.after hostOps1 W main_v55 : FVec F S96x32x32 .f32)
    = hidW (extractStridedSlice S96x1056 ![0, 0] (W main_v51 : FVec F S96x3267 .f32) slices_S96x3267_S96x1056_0_0) := by
  dsimp only [hostOps1]
  after_results_simp <;> rfl
theorem h1_v69 : (StableHlo.after hostOps1 W main_v69 : FVec F S96x256x32 .f32)
    = broadcastInDim S96x256x32 ![0, 1, 2] bcast_S96x1x32_S96x256x32_0_1_2
        (hidB (extractStridedSlice S96x1056 ![0, 0] (W main_v51 : FVec F S96x3267 .f32) slices_S96x3267_S96x1056_0_0)) := by
  dsimp only [hostOps1]
  after_results_simp <;> rfl

theorem h1_v59 : (StableHlo.after hostOps1 W main_v59 : FVec F S96x32x32 .f32)
    = hidW (extractStridedSlice S96x1056 ![0, 1056] (W main_v51 : FVec F S96x3267 .f32) slices_S96x3267_S96x1056_0_1056) := by
  dsimp only [hostOps1]
  after_results_simp <;> rfl
theorem h1_v71 : (StableHlo.after hostOps1 W main_v71 : FVec F S96x256x32 .f32)
    = broadcastInDim S96x256x32 ![0, 1, 2] bcast_S96x1x32_S96x256x32_0_1_2
        (hidB (extractStridedSlice S96x1056 ![0, 1056] (W main_v51 : FVec F S96x3267 .f32) slices_S96x3267_S96x1056_0_1056)) := by
  dsimp only [hostOps1]
  after_results_simp <;> rfl

theorem h1_v63 : (StableHlo.after hostOps1 W main_v63 : FVec F S96x32x32 .f32)
    = hidW (extractStridedSlice S96x1056 ![0, 2112] (W main_v51 : FVec F S96x3267 .f32) slices_S96x3267_S96x1056_0_2112) := by
  dsimp only [hostOps1]
  after_results_simp <;> rfl
theorem h1_v73 : (StableHlo.after hostOps1 W main_v73 : FVec F S96x256x32 .f32)
    = broadcastInDim S96x256x32 ![0, 1, 2] bcast_S96x1x32_S96x256x32_0_1_2
        (hidB (extractStridedSlice S96x1056 ![0, 2112] (W main_v51 : FVec F S96x3267 .f32) slices_S96x3267_S96x1056_0_2112)) := by
  dsimp only [hostOps1]
  after_results_simp <;> rfl

theorem h1_v67 : (StableHlo.after hostOps1 W main_v67 : FVec F S96x32x3 .f32)
    = outW (extractStridedSlice S96x99 ![0, 3168] (W main_v51 : FVec F S96x3267 .f32) slices_S96x3267_S96x99_0_3168) := by
  dsimp only [hostOps1]
  after_results_simp <;> rfl
theorem h1_v75 : (StableHlo.after hostOps1 W main_v75 : FVec F S96x256x3 .f32)
    = broadcastInDim S96x256x3 ![0, 1, 2] bcast_S96x1x3_S96x256x3_0_1_2
        (outB (extractStridedSlice S96x99 ![0, 3168] (W main_v51 : FVec F S96x3267 .f32) slices_S96x3267_S96x99_0_3168)) := by
  dsimp only [hostOps1]
  after_results_simp <;> rfl

/-- A bias laid out over 256 sample rows reads, at every row, its one row. -/
theorem rowBcast32 (b : FVec F S96x1x32 .f32) (n : Fin 96) (s : Fin 256) (e : Fin 32) :
    broadcastInDim S96x256x32 ![0, 1, 2] bcast_S96x1x32_S96x256x32_0_1_2 b (ix3 n s e) = b (ix3 n 0 e) :=
  broadcastInDim_apply _ _ _ _ _ (fun a => by fin_cases a <;> rfl)
theorem rowBcast3 (b : FVec F S96x1x3 .f32) (n : Fin 96) (s : Fin 256) (e : Fin 3) :
    broadcastInDim S96x256x3 ![0, 1, 2] bcast_S96x1x3_S96x256x3_0_1_2 b (ix3 n s e) = b (ix3 n 0 e) :=
  broadcastInDim_apply _ _ _ _ _ (fun a => by fin_cases a <;> rfl)

end Layers

/-! ## What the regions are handed -/

section Operands

variable {F : FTy → Type} [FloatOps F] (m : (ℓ : Loc nD τ sig) → Buf (Elt F) ℓ) (outs : Outs (F := F))

/-- Region 0's weights are the argument, untouched by the host stretches. -/
theorem v10_arg10 (c : Dev nD) : V10 m c main_arg10 = m (c, main_arg10) :=
  up10 m c main_arg10 (by decide) (by decide) (by decide) (by decide) (by decide) (by decide) (by decide) (by decide) (by decide) (by decide)

/-- Region 0's bias operand is the bias vector laid out over the 96 datapoints. -/
theorem v10_v50 (c : Dev nD) (j : S96x3267.Idx) : (V10 m c main_v50 : FVec F S96x3267 .f32) j = (m (c, main_arg11) : FVec F S3267 .f32) (ix1 (j 1)) := by
  refine (congrFun (s9_v50 (V9 m c)) j).trans ?_
  rw [up9 m c main_arg11 (by decide) (by decide) (by decide) (by decide) (by decide) (by decide) (by decide) (by decide) (by decide)]
  refine (broadcastInDim_apply _ _ _ j (ix2 (n0 := 1) (n1 := 3267) 0 (j 1)) (fun a => by fin_cases a <;> rfl)).trans ?_
  refine shapeCast_apply _ _ (ix2 (n0 := 1) (n1 := 3267) 0 (j 1)) (ix1 (n := 3267) (j 1)) ?_
  rw [Shape.rowMajor_val_one, Shape.rowMajor_val_two (d := ![1, 3267])]
  simp

/-- Region 1's first operand is the argument, untouched by everything before it. -/
theorem v12_arg0 (c : Dev nD) : V12 m outs c main_arg0 = m (c, main_arg0) :=
  (V12_of m outs c main_arg0 (by decide)).trans <| (V11_of m outs c main_arg0 (by decide)).trans <|
    up10 m c main_arg0 (by decide) (by decide) (by decide) (by decide) (by decide) (by decide) (by decide) (by decide) (by decide) (by decide)

/-- Before the second host stretch, region 0's output buffer holds what region 0 left there. -/
theorem v11_v51 (c : Dev nD) : V11 m outs c main_v51 = outs 11 main_v51 c := Function.update_self ..

theorem v12_v55 (c : Dev nD) : (V12 m outs c main_v55 : FVec F S96x32x32 .f32)
    = hidW (extractStridedSlice S96x1056 ![0, 0] (outs 11 main_v51 c : FVec F S96x3267 .f32) slices_S96x3267_S96x1056_0_0) :=
  (h1_v55 (V11 m outs c)).trans (by rw [v11_v51])
theorem v12_v59 (c : Dev nD) : (V12 m outs c main_v59 : FVec F S96x32x32 .f32)
    = hidW (extractStridedSlice S96x1056 ![0, 1056] (outs 11 main_v51 c : FVec F S96x3267 .f32) slices_S96x3267_S96x1056_0_1056) :=
  (h1_v59 (V11 m outs c)).trans (by rw [v11_v51])
theorem v12_v63 (c : Dev nD) : (V12 m outs c main_v63 : FVec F S96x32x32 .f32)
    = hidW (extractStridedSlice S96x1056 ![0, 2112] (outs 11 main_v51 c : FVec F S96x3267 .f32) slices_S96x3267_S96x1056_0_2112) :=
  (h1_v63 (V11 m outs c)).trans (by rw [v11_v51])
theorem v12_v67 (c : Dev nD) : (V12 m outs c main_v67 : FVec F S96x32x3 .f32)
    = outW (extractStridedSlice S96x99 ![0, 3168] (outs 11 main_v51 c : FVec F S96x3267 .f32) slices_S96x3267_S96x99_0_3168) :=
  (h1_v67 (V11 m outs c)).trans (by rw [v11_v51])

theorem v12_v69 (c : Dev nD) : (V12 m outs c main_v69 : FVec F S96x256x32 .f32)
    = broadcastInDim S96x256x32 ![0, 1, 2] bcast_S96x1x32_S96x256x32_0_1_2
        (hidB (extractStridedSlice S96x1056 ![0, 0] (outs 11 main_v51 c : FVec F S96x3267 .f32) slices_S96x3267_S96x1056_0_0)) :=
  (h1_v69 (V11 m outs c)).trans (by rw [v11_v51])
theorem v12_v71 (c : Dev nD) : (V12 m outs c main_v71 : FVec F S96x256x32 .f32)
    = broadcastInDim S96x256x32 ![0, 1, 2] bcast_S96x1x32_S96x256x32_0_1_2
        (hidB (extractStridedSlice S96x1056 ![0, 1056] (outs 11 main_v51 c : FVec F S96x3267 .f32) slices_S96x3267_S96x1056_0_1056)) :=
  (h1_v71 (V11 m outs c)).trans (by rw [v11_v51])
theorem v12_v73 (c : Dev nD) : (V12 m outs c main_v73 : FVec F S96x256x32 .f32)
    = broadcastInDim S96x256x32 ![0, 1, 2] bcast_S96x1x32_S96x256x32_0_1_2
        (hidB (extractStridedSlice S96x1056 ![0, 2112] (outs 11 main_v51 c : FVec F S96x3267 .f32) slices_S96x3267_S96x1056_0_2112)) :=
  (h1_v73 (V11 m outs c)).trans (by rw [v11_v51])
theorem v12_v75 (c : Dev nD) : (V12 m outs c main_v75 : FVec F S96x256x3 .f32)
    = broadcastInDim S96x256x3 ![0, 1, 2] bcast_S96x1x3_S96x256x3_0_1_2
        (outB (extractStridedSlice S96x99 ![0, 3168] (outs 11 main_v51 c : FVec F S96x3267 .f32) slices_S96x3267_S96x99_0_3168)) :=
  (h1_v75 (V11 m outs c)).trans (by rw [v11_v51])

/-- Each bias operand of region 1 reads, at every sample row, the one row of its layer's bias. -/
theorem v12_v69_row (c : Dev nD) (n : Fin 96) (s : Fin 256) (e : Fin 32) : (V12 m outs c main_v69 : FVec F S96x256x32 .f32) (ix3 n s e)
    = hidB (extractStridedSlice S96x1056 ![0, 0] (outs 11 main_v51 c : FVec F S96x3267 .f32) slices_S96x3267_S96x1056_0_0) (ix3 n 0 e) := by
  rw [v12_v69]; exact rowBcast32 _ n s e
theorem v12_v71_row (c : Dev nD) (n : Fin 96) (s : Fin 256) (e : Fin 32) : (V12 m outs c main_v71 : FVec F S96x256x32 .f32) (ix3 n s e)
    = hidB (extractStridedSlice S96x1056 ![0, 1056] (outs 11 main_v51 c : FVec F S96x3267 .f32) slices_S96x3267_S96x1056_0_1056) (ix3 n 0 e) := by
  rw [v12_v71]; exact rowBcast32 _ n s e
theorem v12_v73_row (c : Dev nD) (n : Fin 96) (s : Fin 256) (e : Fin 32) : (V12 m outs c main_v73 : FVec F S96x256x32 .f32) (ix3 n s e)
    = hidB (extractStridedSlice S96x1056 ![0, 2112] (outs 11 main_v51 c : FVec F S96x3267 .f32) slices_S96x3267_S96x1056_0_2112) (ix3 n 0 e) := by
  rw [v12_v73]; exact rowBcast32 _ n s e
theorem v12_v75_row (c : Dev nD) (n : Fin 96) (s : Fin 256) (e : Fin 3) : (V12 m outs c main_v75 : FVec F S96x256x3 .f32) (ix3 n s e)
    = outB (extractStridedSlice S96x99 ![0, 3168] (outs 11 main_v51 c : FVec F S96x3267 .f32) slices_S96x3267_S96x99_0_3168) (ix3 n 0 e) := by
  rw [v12_v75]; exact rowBcast3 _ n s e

end Operands

/-! ## The latent code at the extended reals -/

section AtIdeal

variable (m : (ℓ : Loc nD τ sig) → Buf (Elt Ideal) ℓ)

/-- Region 0's first operand. -/
def zK (c : Dev nD) : T2 96 4096 := V10 m c main_v48

/-- It is the latent code of the arguments. -/
theorem zK_term (c : Dev nD) : (V10 m c main_v48 : T2 96 4096)
    = ZChain gather_S6x1024_S96x1_S96x1024_1_0_n_n_0_1_11024 gather_S96x1024_S4096x1_S96x4096_0_1_n_n_1_1_961 gather_S1x512_S96x1_S96x512_1_0_n_n_0_1_1512 gather_S96x512_S4096x1_S96x4096_0_1_n_n_1_1_961
        (m (c, main_arg1)) (m (c, main_arg2)) (m (c, main_arg3)) (m (c, main_arg4)) (m (c, main_arg5)) (m (c, main_arg6))
        (m (c, main_arg7)) (m (c, main_arg8)) (m (c, main_arg9)) (m (c, main_arg12)) (m (c, main_arg13)) :=
  v10_v48F m c

theorem zK_eq (c : Dev nD) : zK m c
    = ZChain gather_S6x1024_S96x1_S96x1024_1_0_n_n_0_1_11024 gather_S96x1024_S4096x1_S96x4096_0_1_n_n_1_1_961 gather_S1x512_S96x1_S96x512_1_0_n_n_0_1_1512 gather_S96x512_S4096x1_S96x4096_0_1_n_n_1_1_961
        (m (c, main_arg1)) (m (c, main_arg2)) (m (c, main_arg3)) (m (c, main_arg4)) (m (c, main_arg5)) (m (c, main_arg6))
        (m (c, main_arg7)) (m (c, main_arg8)) (m (c, main_arg9)) (m (c, main_arg12)) (m (c, main_arg13)) :=
  zK_term m c

end AtIdeal

end Cert.KernelIdeal.Hand

end
-- ==== Proof.KOut.lean ====
import proofs.«422240_j68229850464342_4_alg».proof.Proof.KRun
import proofs.«422240_j68229850464342_4_alg».proof.Proof.KVal0
import proofs.«422240_j68229850464342_4_alg».proof.Proof.KVal1
import proofs.«422240_j68229850464342_4_alg».proof.Proof.KHost
import proofs.«422240_j68229850464342_4_alg».proof.Proof.Spec
import proofs.«422240_j68229850464342_4_alg».proof.Proof.ZChain
import Idealize.ShloMosaic.Lib.Pipeline.Value

/-! # The kernel program's result, end to end, at the extended reals

The program computes a latent code `z` from eleven of its arguments, maps it to a parameter matrix
`P = z · W_map + b_map` in its first call, cuts `P` into the weights and biases of a four-layer sine network, and applies
that network to the input `x` in its second call. This module chains the pieces: the result array is what the second call
leaves; that is the network with per-row biases applied to the second call's operands; those operands are the slices of
what the first call leaves; and that is `P`. The per-row biases are one bias row repeated, so the network is the
specification's `mlp`. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (T2 T3)

/-! ## The operands of the second call as functions of the parameter matrix

Between the two calls the program cuts the parameter matrix `P : [96, 3267]` into the network's weights and biases.
Columns `1056 i … 1056 i + 1055` (`i = 0, 1, 2`) belong to hidden layer `i`: the first 32 are its bias, the next 1024 its
`32 × 32` weights row-major. Columns `3168 … 3266` belong to the output layer: 3 bias entries, then `32 × 3` weights.
Each bias gets a unit sample axis, and is then repeated over 256 sample rows for the call. -/

section Operands
variable {α : Type}

/-- The 1056 columns of hidden layer 0, 1, 2. -/
abbrev cols0 (P : S96x3267.Idx → α) : S96x1056.Idx → α := extractStridedSlice S96x1056 ![0, 0] P slices_S96x3267_S96x1056_0_0
abbrev cols1 (P : S96x3267.Idx → α) : S96x1056.Idx → α := extractStridedSlice S96x1056 ![0, 1056] P slices_S96x3267_S96x1056_0_1056
abbrev cols2 (P : S96x3267.Idx → α) : S96x1056.Idx → α := extractStridedSlice S96x1056 ![0, 2112] P slices_S96x3267_S96x1056_0_2112
/-- The 99 columns of the output layer. -/
abbrev cols3 (P : S96x3267.Idx → α) : S96x99.Idx → α := extractStridedSlice S96x99 ![0, 3168] P slices_S96x3267_S96x99_0_3168

/-- A hidden layer's weights out of its columns: columns 32 … 1055 as `[96, 32, 32]`. -/
abbrev wOf (Q : S96x1056.Idx → α) : S96x32x32.Idx → α :=
  shapeCast S96x32x32 (extractStridedSlice S96x1024 ![0, 32] Q slices_S96x1056_S96x1024_0_32) shapeCasts_S96x1024_S96x32x32
/-- A hidden layer's bias out of its columns: columns 0 … 31 as `[96, 1, 32]`. -/
abbrev bOf (Q : S96x1056.Idx → α) : S96x1x32.Idx → α :=
  broadcastInDim S96x1x32 ![0, 2] bcast_S96x32_S96x1x32_0_2 (extractStridedSlice S96x32 ![0, 0] Q slices_S96x1056_S96x32_0_0)

abbrev W0 (P : S96x3267.Idx → α) : S96x32x32.Idx → α := wOf (cols0 P)
abbrev W1 (P : S96x3267.Idx → α) : S96x32x32.Idx → α := wOf (cols1 P)
abbrev W2 (P : S96x3267.Idx → α) : S96x32x32.Idx → α := wOf (cols2 P)
/-- The output layer's weights: columns 3 … 98 of its 99 as `[96, 32, 3]`. -/
abbrev W3 (P : S96x3267.Idx → α) : S96x32x3.Idx → α :=
  shapeCast S96x32x3 (extractStridedSlice S96x96 ![0, 3] (cols3 P) slices_S96x99_S96x96_0_3) shapeCasts_S96x96_S96x32x3
abbrev b0 (P : S96x3267.Idx → α) : S96x1x32.Idx → α := bOf (cols0 P)
abbrev b1 (P : S96x3267.Idx → α) : S96x1x32.Idx → α := bOf (cols1 P)
abbrev b2 (P : S96x3267.Idx → α) : S96x1x32.Idx → α := bOf (cols2 P)
/-- The output layer's bias: columns 0 … 2 of its 99 as `[96, 1, 3]`. -/
abbrev b3 (P : S96x3267.Idx → α) : S96x1x3.Idx → α :=
  broadcastInDim S96x1x3 ![0, 2] bcast_S96x3_S96x1x3_0_2 (extractStridedSlice S96x3 ![0, 0] (cols3 P) slices_S96x99_S96x3_0_0)

/-- A bias row repeated over the 256 sample rows of a block. -/
abbrev rep32 (b : S96x1x32.Idx → α) : S96x256x32.Idx → α := broadcastInDim S96x256x32 ![0, 1, 2] bcast_S96x1x32_S96x256x32_0_1_2 b
abbrev rep3 (b : S96x1x3.Idx → α) : S96x256x3.Idx → α := broadcastInDim S96x256x3 ![0, 1, 2] bcast_S96x1x3_S96x256x3_0_1_2 b

/-- Every sample row of the repeated bias is the one bias row. -/
theorem rep32_row (b : S96x1x32.Idx → α) (n : Fin 96) (s : Fin 256) (e : Fin 32) : rep32 b (ix3 n s e) = b (ix3 n 0 e) :=
  broadcastInDim_apply _ _ _ _ _ fun a => by match a with | ⟨0, _⟩ => rfl | ⟨1, _⟩ => rfl | ⟨2, _⟩ => rfl
theorem rep3_row (b : S96x1x3.Idx → α) (n : Fin 96) (s : Fin 256) (e : Fin 3) : rep3 b (ix3 n s e) = b (ix3 n 0 e) :=
  broadcastInDim_apply _ _ _ _ _ fun a => by match a with | ⟨0, _⟩ => rfl | ⟨1, _⟩ => rfl | ⟨2, _⟩ => rfl

end Operands

/-! ## The kernel program's result -/

section Value
variable (m : (ℓ : Loc nD τ sig) → Buf (Elt Ideal) ℓ) (c : Dev nD)

/-- The latent code the program hands to the first call, as the shared function of its eleven arguments. -/
abbrev zArgs : T2 96 4096 :=
  Cert.Spec.ZChain gather_S6x1024_S96x1_S96x1024_1_0_n_n_0_1_11024 gather_S96x1024_S4096x1_S96x4096_0_1_n_n_1_1_961 gather_S1x512_S96x1_S96x512_1_0_n_n_0_1_1512 gather_S96x512_S4096x1_S96x4096_0_1_n_n_1_1_961
    (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))

/-- The parameter matrix: the latent code through the map `W_map`, plus the bias `b_map` on every row. -/
abbrev paramsK : T2 96 3267 :=
  Cert.Spec.params (zArgs m c) (m ((c.tc : Thread nD τ).loc main_arg10)) (fun j => (m ((c.tc : Thread nD τ).loc main_arg11)) (ix1 (j 1)))

/-- What the first call leaves in its output array is the parameter matrix. -/
theorem outsK_params : outsK m 11 main_v51 c = paramsK m c := by
  rw [outsK_v51, arr0_eq]
  show Cert.Spec.params (V10 m c main_v48) (V10 m c main_arg10) (V10 m c main_v50) = _
  rw [zK_term, v10_arg10, show V10 m c main_v50 = fun j => (m ((c.tc : Thread nD τ).loc main_arg11)) (ix1 (j 1)) from funext (v10_v50 m c)]
  rfl

/-- The program's result array is the network, with the weights and biases cut out of the parameter matrix, applied to
    the input. -/
theorem kernel_value :
    V13 m (outsK (F := Ideal) m) c main_v76
      = Cert.Spec.mlp (m ((c.tc : Thread nD τ).loc main_arg0)) (W0 (paramsK m c)) (b0 (paramsK m c)) (W1 (paramsK m c)) (b1 (paramsK m c))
          (W2 (paramsK m c)) (b2 (paramsK m c)) (W3 (paramsK m c)) (b3 (paramsK m c)) := by
  have h13 : V13 m (outsK m) c main_v76 = outsK m 13 main_v76 c := by simp only [V13, Function.update_self]
  rw [h13, outsK_v76, arr1_eq]
  show mlpK (V12 m (outsK m) c main_arg0) (V12 m (outsK m) c main_v55) (V12 m (outsK m) c main_v59) (V12 m (outsK m) c main_v63)
    (V12 m (outsK m) c main_v67) (V12 m (outsK m) c main_v69) (V12 m (outsK m) c main_v71) (V12 m (outsK m) c main_v73)
    (V12 m (outsK m) c main_v75) = _
  rw [v12_arg0, v12_v55, v12_v59, v12_v63, v12_v67, v12_v69, v12_v71, v12_v73, v12_v75, outsK_params]
  exact mlpK_of_bcast _ _ _ _ _ _ _ _ _ _ _ _ _ (rep32_row _) (rep32_row _) (rep32_row _) (rep3_row _)

end Value

end Cert.KernelIdeal.Hand

end
-- ==== Proof.RRun.lean ====
import proofs.«422240_j68229850464342_4_alg».proof.Proof.Gen.ReferenceIdeal
import Idealize.ShloMosaic.Lib.StableHlo.Run

/-! The reference program's run. Its @main, a straight line of host operations with five calls of module-local
    functions, is the list `ops` of its 181 operations (`opsZ`, through the sum that writes `main_v48`, then `opsT`);
    every weakly fair execution from any memory with zero counters terminates with each TensorCore buffer at the
    list's fold over the launch contents (`run`), so the result is that fold at `main_v93` and the fourteen arguments,
    which no operation writes, end as they began (`kept`, `frame`). -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's first 133 operations, in order, through the sum that writes `main_v48`. A called function's operations stand
    in its call's place, over the call's own buffers: each `softplus(x)` is fourteen (the zero, its three broadcasts,
    `max(x, 0)`, `x - 0`, the comparison of that difference with itself, `x + 0`, `|x - 0|`, its negation, the
    exponential, `log(1 + ·)`, the sum, the select); each `floor_divide(x, d)` is seventeen (the divisor converted and
    broadcast, the quotient, the two signs and their comparison, the remainder and its comparison with zero, the
    conjunction, the quotient less one, and `_where`'s select between the two quotients). Around them @main's own
    fifty-seven. -/
abbrev opsZ : List (HloOp τ sig (Elt F)) :=
  [ TRef.nullary main_call0.cst (constant S_ .f32 0x00000000#32),
    TRef.unary main_call0.cst main_call0.v0 (broadcastInDim S96x4096 ![] bcast_S_S96x4096),
    TRef.binary (TRef.of (T := ⟨S96x4096, .f32⟩) main_arg2) main_call0.v0 main_call0.v1 maximumf,
    TRef.unary main_call0.cst main_call0.v2 (broadcastInDim S96x4096 ![] bcast_S_S96x4096),
    TRef.binary (TRef.of (T := ⟨S96x4096, .f32⟩) main_arg2) main_call0.v2 main_call0.v3 subf,
    TRef.binary main_call0.v3 main_call0.v3 main_call0.v4 (cmpf .une),
    TRef.unary main_call0.cst main_call0.v5 (broadcastInDim S96x4096 ![] bcast_S_S96x4096),
    TRef.binary (TRef.of (T := ⟨S96x4096, .f32⟩) main_arg2) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    nullary main_cst (constant S_ .f32 0x40C00000#32),
    unary main_cst main_v1 (broadcastInDim S96x4096 ![] bcast_S_S96x4096 : (⟨S_, .f32⟩ : BufTy).Contents (Elt F) → (⟨S96x4096, .f32⟩ : BufTy).Contents (Elt F)),
    binary main_v0 main_v1 main_v2 (Host.divf : (⟨S96x4096, .f32⟩ : BufTy).Contents (Elt F) → (⟨S96x4096, .f32⟩ : BufTy).Contents (Elt F) → (⟨S96x4096, .f32⟩ : BufTy).Contents (Elt F)),
    binary main_arg7 main_v2 main_v3 (mulf : (⟨S96x4096, .f32⟩ : BufTy).Contents (Elt F) → (⟨S96x4096, .f32⟩ : BufTy).Contents (Elt F) → (⟨S96x4096, .f32⟩ : BufTy).Contents (Elt F)),
    binary main_arg1 main_v3 main_v4 (addf : (⟨S96x4096, .f32⟩ : BufTy).Contents (Elt F) → (⟨S96x4096, .f32⟩ : BufTy).Contents (Elt F) → (⟨S96x4096, .f32⟩ : BufTy).Contents (Elt F)),
    TRef.nullary main_call1.cst (constant S_ .f32 0x00000000#32),
    TRef.unary main_call1.cst main_call1.v0 (broadcastInDim S6x1024 ![] bcast_S_S6x1024),
    TRef.binary (TRef.of (T := ⟨S6x1024, .f32⟩) main_arg4) main_call1.v0 main_call1.v1 maximumf,
    TRef.unary main_call1.cst main_call1.v2 (broadcastInDim S6x1024 ![] bcast_S_S6x1024),
    TRef.binary (TRef.of (T := ⟨S6x1024, .f32⟩) main_arg4) main_call1.v2 main_call1.v3 subf,
    TRef.binary main_call1.v3 main_call1.v3 main_call1.v4 (cmpf .une),
    TRef.unary main_call1.cst main_call1.v5 (broadcastInDim S6x1024 ![] bcast_S_S6x1024),
    TRef.binary (TRef.of (T := ⟨S6x1024, .f32⟩) main_arg4) main_call1.v5 main_call1.v6 addf,
    TRef.unary main_call1.v3 main_call1.v7 Host.absf,
    TRef.unary main_call1.v7 main_call1.v8 Host.negf,
    TRef.unary main_call1.v8 main_call1.v9 Host.exp,
    TRef.unary main_call1.v9 main_call1.v10 Host.log1p,
    TRef.binary main_call1.v1 main_call1.v10 main_call1.v11 addf,
    TRef.ternary main_call1.v4 main_call1.v6 main_call1.v11 main_call1.v12 select,
    nullary main_cst_0 (constant S_ .f32 0x40C00000#32),
    unary main_cst_0 main_v6 (broadcastInDim S6x1024 ![] bcast_S_S6x1024 : (⟨S_, .f32⟩ : BufTy).Contents (Elt F) → (⟨S6x1024, .f32⟩ : BufTy).Contents (Elt F)),
    binary main_v5 main_v6 main_v7 (Host.divf : (⟨S6x1024, .f32⟩ : BufTy).Contents (Elt F) → (⟨S6x1024, .f32⟩ : BufTy).Contents (Elt F) → (⟨S6x1024, .f32⟩ : BufTy).Contents (Elt F)),
    binary main_arg8 main_v7 main_v8 (mulf : (⟨S6x1024, .f32⟩ : BufTy).Contents (Elt F) → (⟨S6x1024, .f32⟩ : BufTy).Contents (Elt F) → (⟨S6x1024, .f32⟩ : BufTy).Contents (Elt F)),
    binary main_arg3 main_v8 main_v9 (addf : (⟨S6x1024, .f32⟩ : BufTy).Contents (Elt F) → (⟨S6x1024, .f32⟩ : BufTy).Contents (Elt F) → (⟨S6x1024, .f32⟩ : BufTy).Contents (Elt F)),
    TRef.nullary main_call2.cst (constant S_ .f32 0x00000000#32),
    TRef.unary main_call2.cst main_call2.v0 (broadcastInDim S1x512 ![] bcast_S_S1x512),
    TRef.binary (TRef.of (T := ⟨S1x512, .f32⟩) main_arg6) main_call2.v0 main_call2.v1 maximumf,
    TRef.unary main_call2.cst main_call2.v2 (broadcastInDim S1x512 ![] bcast_S_S1x512),
    TRef.binary (TRef.of (T := ⟨S1x512, .f32⟩) main_arg6) main_call2.v2 main_call2.v3 subf,
    TRef.binary main_call2.v3 main_call2.v3 main_call2.v4 (cmpf .une),
    TRef.unary main_call2.cst main_call2.v5 (broadcastInDim S1x512 ![] bcast_S_S1x512),
    TRef.binary (TRef.of (T := ⟨S1x512, .f32⟩) main_arg6) main_call2.v5 main_call2.v6 addf,
    TRef.unary main_call2.v3 main_call2.v7 Host.absf,
    TRef.unary main_call2.v7 main_call2.v8 Host.negf,
    TRef.unary main_call2.v8 main_call2.v9 Host.exp,
    TRef.unary main_call2.v9 main_call2.v10 Host.log1p,
    TRef.binary main_call2.v1 main_call2.v10 main_call2.v11 addf,
    TRef.ternary main_call2.v4 main_call2.v6 main_call2.v11 main_call2.v12 select,
    nullary main_cst_1 (constant S_ .f32 0x40C00000#32),
    unary main_cst_1 main_v11 (broadcastInDim S1x512 ![] bcast_S_S1x512 : (⟨S_, .f32⟩ : BufTy).Contents (Elt F) → (⟨S1x512, .f32⟩ : BufTy).Contents (Elt F)),
    binary main_v10 main_v11 main_v12 (Host.divf : (⟨S1x512, .f32⟩ : BufTy).Contents (Elt F) → (⟨S1x512, .f32⟩ : BufTy).Contents (Elt F) → (⟨S1x512, .f32⟩ : BufTy).Contents (Elt F)),
    binary main_arg9 main_v12 main_v13 (mulf : (⟨S1x512, .f32⟩ : BufTy).Contents (Elt F) → (⟨S1x512, .f32⟩ : BufTy).Contents (Elt F) → (⟨S1x512, .f32⟩ : BufTy).Contents (Elt F)),
    binary main_arg5 main_v13 main_v14 (addf : (⟨S1x512, .f32⟩ : BufTy).Contents (Elt F) → (⟨S1x512, .f32⟩ : BufTy).Contents (Elt F) → (⟨S1x512, .f32⟩ : BufTy).Contents (Elt F)),
    nullary main_v15 (iotaInDim S96 32 0),
    nullary main_c (constantI S_ 32 16#32),
    TRef.unary (TRef.of (T := ⟨S_, .i32⟩) main_c) main_call3.v0 id,
    TRef.unary main_call3.v0 main_call3.v1 (broadcastInDim S96 ![] bcast_S_S96),
    TRef.binary (TRef.of (T := ⟨S96, .i32⟩) main_v15) main_call3.v1 main_call3.v2 Host.divsi,
    TRef.unary (TRef.of (T := ⟨S96, .i32⟩) main_v15) main_call3.v3 signi,
    TRef.unary main_call3.v0 main_call3.v4 signi,
    TRef.unary main_call3.v4 main_call3.v5 (broadcastInDim S96 ![] bcast_S_S96),
    TRef.binary main_call3.v3 main_call3.v5 main_call3.v6 (cmpi .ne),
    TRef.unary main_call3.v0 main_call3.v7 (broadcastInDim S96 ![] bcast_S_S96),
    TRef.binary (TRef.of (T := ⟨S96, .i32⟩) main_v15) main_call3.v7 main_call3.v8 Host.remsi,
    TRef.nullary main_call3.c (constantI S_ 32 0#32),
    TRef.unary main_call3.c main_call3.v9 (broadcastInDim S96 ![] bcast_S_S96),
    TRef.binary main_call3.v8 main_call3.v9 main_call3.v10 (cmpi .ne),
    TRef.binary main_call3.v6 main_call3.v10 main_call3.v11 andi,
    TRef.nullary main_call3.c_0 (constantI S_ 32 1#32),
    TRef.unary main_call3.c_0 main_call3.v12 (broadcastInDim S96 ![] bcast_S_S96),
    TRef.binary main_call3.v2 main_call3.v12 main_call3.v13 subi,
    TRef.ternary main_call3.v11 main_call3.v13 main_call3.v2 main_call3_call0.v0 select,
    nullary main_v17 (iotaInDim S96 32 0),
    nullary main_c_2 (constantI S_ 32 96#32),
    TRef.unary (TRef.of (T := ⟨S_, .i32⟩) main_c_2) main_call4.v0 id,
    TRef.unary main_call4.v0 main_call4.v1 (broadcastInDim S96 ![] bcast_S_S96),
    TRef.binary (TRef.of (T := ⟨S96, .i32⟩) main_v17) main_call4.v1 main_call4.v2 Host.divsi,
    TRef.unary (TRef.of (T := ⟨S96, .i32⟩) main_v17) main_call4.v3 signi,
    TRef.unary main_call4.v0 main_call4.v4 signi,
    TRef.unary main_call4.v4 main_call4.v5 (broadcastInDim S96 ![] bcast_S_S96),
    TRef.binary main_call4.v3 main_call4.v5 main_call4.v6 (cmpi .ne),
    TRef.unary main_call4.v0 main_call4.v7 (broadcastInDim S96 ![] bcast_S_S96),
    TRef.binary (TRef.of (T := ⟨S96, .i32⟩) main_v17) main_call4.v7 main_call4.v8 Host.remsi,
    TRef.nullary main_call4.c (constantI S_ 32 0#32),
    TRef.unary main_call4.c main_call4.v9 (broadcastInDim S96 ![] bcast_S_S96),
    TRef.binary main_call4.v8 main_call4.v9 main_call4.v10 (cmpi .ne),
    TRef.binary main_call4.v6 main_call4.v10 main_call4.v11 andi,
    TRef.nullary main_call4.c_0 (constantI S_ 32 1#32),
    TRef.unary main_call4.c_0 main_call4.v12 (broadcastInDim S96 ![] bcast_S_S96),
    TRef.binary main_call4.v2 main_call4.v12 main_call4.v13 subi,
    TRef.ternary main_call4.v11 main_call4.v13 main_call4.v2 main_call4_call0.v0 select,
    nullary main_c_3 (constantI S_ 32 0#32),
    unary main_c_3 main_v19 (broadcastInDim S96 ![] bcast_S_S96 : (⟨S_, .i32⟩ : BufTy).Contents (Elt F) → (⟨S96, .i32⟩ : BufTy).Contents (Elt F)),
    binary main_v16 main_v19 main_v20 (cmpi .slt : (⟨S96, .i32⟩ : BufTy).Contents (Elt F) → (⟨S96, .i32⟩ : BufTy).Contents (Elt F) → (⟨S96, .i1⟩ : BufTy).Contents (Elt F)),
    nullary main_c_4 (constantI S_ 32 6#32),
    unary main_c_4 main_v21 (broadcastInDim S96 ![] bcast_S_S96 : (⟨S_, .i32⟩ : BufTy).Contents (Elt F) → (⟨S96, .i32⟩ : BufTy).Contents (Elt F)),
    binary main_v16 main_v21 main_v22 (addi : (⟨S96, .i32⟩ : BufTy).Contents (Elt F) → (⟨S96, .i32⟩ : BufTy).Contents (Elt F) → (⟨S96, .i32⟩ : BufTy).Contents (Elt F)),
    ternary main_v20 main_v22 main_v16 main_v23 (select : (⟨S96, .i1⟩ : BufTy).Contents (Elt F) → (⟨S96, .i32⟩ : BufTy).Contents (Elt F) → (⟨S96, .i32⟩ : BufTy).Contents (Elt F) → (⟨S96, .i32⟩ : BufTy).Contents (Elt F)),
    unary main_v23 main_v24 (broadcastInDim S96x1 ![0] bcast_S96_S96x1_0 : (⟨S96, .i32⟩ : BufTy).Contents (Elt F) → (⟨S96x1, .i32⟩ : BufTy).Contents (Elt F)),
    binary main_v9 main_v24 main_v25 ((fun x i => Host.gather gather_S6x1024_S96x1_S96x1024_1_0_n_n_0_1_11024 x i) : (⟨S6x1024, .f32⟩ : BufTy).Contents (Elt F) → (⟨S96x1, .i32⟩ : BufTy).Contents (Elt F) → (⟨S96x1024, .f32⟩ : BufTy).Contents (Elt F)),
    nullary main_c_5 (constantI S_ 32 0#32),
    unary main_c_5 main_v26 (broadcastInDim S4096 ![] bcast_S_S4096 : (⟨S_, .i32⟩ : BufTy).Contents (Elt F) → (⟨S4096, .i32⟩ : BufTy).Contents (Elt F)),
    binary main_arg12 main_v26 main_v27 (cmpi .slt : (⟨S4096, .i32⟩ : BufTy).Contents (Elt F) → (⟨S4096, .i32⟩ : BufTy).Contents (Elt F) → (⟨S4096, .i1⟩ : BufTy).Contents (Elt F)),
    nullary main_c_6 (constantI S_ 32 1024#32),
    unary main_c_6 main_v28 (broadcastInDim S4096 ![] bcast_S_S4096 : (⟨S_, .i32⟩ : BufTy).Contents (Elt F) → (⟨S4096, .i32⟩ : BufTy).Contents (Elt F)),
    binary main_arg12 main_v28 main_v29 (addi : (⟨S4096, .i32⟩ : BufTy).Contents (Elt F) → (⟨S4096, .i32⟩ : BufTy).Contents (Elt F) → (⟨S4096, .i32⟩ : BufTy).Contents (Elt F)),
    ternary main_v27 main_v29 main_arg12 main_v30 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v30 main_v31 (broadcastInDim S4096x1 ![0] bcast_S4096_S4096x1_0 : (⟨S4096, .i32⟩ : BufTy).Contents (Elt F) → (⟨S4096x1, .i32⟩ : BufTy).Contents (Elt F)),
    binary main_v25 main_v31 main_v32 ((fun x i => Host.gather gather_S96x1024_S4096x1_S96x4096_0_1_n_n_1_1_961 x i) : (⟨S96x1024, .f32⟩ : BufTy).Contents (Elt F) → (⟨S4096x1, .i32⟩ : BufTy).Contents (Elt F) → (⟨S96x4096, .f32⟩ : BufTy).Contents (Elt F)),
    binary main_v4 main_v32 main_v33 (addf : (⟨S96x4096, .f32⟩ : BufTy).Contents (Elt F) → (⟨S96x4096, .f32⟩ : BufTy).Contents (Elt F) → (⟨S96x4096, .f32⟩ : BufTy).Contents (Elt F)),
    nullary main_c_7 (constantI S_ 32 0#32),
    unary main_c_7 main_v34 (broadcastInDim S96 ![] bcast_S_S96 : (⟨S_, .i32⟩ : BufTy).Contents (Elt F) → (⟨S96, .i32⟩ : BufTy).Contents (Elt F)),
    binary main_v18 main_v34 main_v35 (cmpi .slt : (⟨S96, .i32⟩ : BufTy).Contents (Elt F) → (⟨S96, .i32⟩ : BufTy).Contents (Elt F) → (⟨S96, .i1⟩ : BufTy).Contents (Elt F)),
    nullary main_c_8 (constantI S_ 32 1#32),
    unary main_c_8 main_v36 (broadcastInDim S96 ![] bcast_S_S96 : (⟨S_, .i32⟩ : BufTy).Contents (Elt F) → (⟨S96, .i32⟩ : BufTy).Contents (Elt F)),
    binary main_v18 main_v36 main_v37 (addi : (⟨S96, .i32⟩ : BufTy).Contents (Elt F) → (⟨S96, .i32⟩ : BufTy).Contents (Elt F) → (⟨S96, .i32⟩ : BufTy).Contents (Elt F)),
    ternary main_v35 main_v37 main_v18 main_v38 (select : (⟨S96, .i1⟩ : BufTy).Contents (Elt F) → (⟨S96, .i32⟩ : BufTy).Contents (Elt F) → (⟨S96, .i32⟩ : BufTy).Contents (Elt F) → (⟨S96, .i32⟩ : BufTy).Contents (Elt F)),
    unary main_v38 main_v39 (broadcastInDim S96x1 ![0] bcast_S96_S96x1_0 : (⟨S96, .i32⟩ : BufTy).Contents (Elt F) → (⟨S96x1, .i32⟩ : BufTy).Contents (Elt F)),
    binary main_v14 main_v39 main_v40 ((fun x i => Host.gather gather_S1x512_S96x1_S96x512_1_0_n_n_0_1_1512 x i) : (⟨S1x512, .f32⟩ : BufTy).Contents (Elt F) → (⟨S96x1, .i32⟩ : BufTy).Contents (Elt F) → (⟨S96x512, .f32⟩ : BufTy).Contents (Elt F)),
    nullary main_c_9 (constantI S_ 32 0#32),
    unary main_c_9 main_v41 (broadcastInDim S4096 ![] bcast_S_S4096 : (⟨S_, .i32⟩ : BufTy).Contents (Elt F) → (⟨S4096, .i32⟩ : BufTy).Contents (Elt F)),
    binary main_arg13 main_v41 main_v42 (cmpi .slt : (⟨S4096, .i32⟩ : BufTy).Contents (Elt F) → (⟨S4096, .i32⟩ : BufTy).Contents (Elt F) → (⟨S4096, .i1⟩ : BufTy).Contents (Elt F)),
    nullary main_c_10 (constantI S_ 32 512#32),
    unary main_c_10 main_v43 (broadcastInDim S4096 ![] bcast_S_S4096 : (⟨S_, .i32⟩ : BufTy).Contents (Elt F) → (⟨S4096, .i32⟩ : BufTy).Contents (Elt F)),
    binary main_arg13 main_v43 main_v44 (addi : (⟨S4096, .i32⟩ : BufTy).Contents (Elt F) → (⟨S4096, .i32⟩ : BufTy).Contents (Elt F) → (⟨S4096, .i32⟩ : BufTy).Contents (Elt F)),
    ternary main_v42 main_v44 main_arg13 main_v45 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v45 main_v46 (broadcastInDim S4096x1 ![0] bcast_S4096_S4096x1_0 : (⟨S4096, .i32⟩ : BufTy).Contents (Elt F) → (⟨S4096x1, .i32⟩ : BufTy).Contents (Elt F)),
    binary main_v40 main_v46 main_v47 ((fun x i => Host.gather gather_S96x512_S4096x1_S96x4096_0_1_n_n_1_1_961 x i) : (⟨S96x512, .f32⟩ : BufTy).Contents (Elt F) → (⟨S4096x1, .i32⟩ : BufTy).Contents (Elt F) → (⟨S96x4096, .f32⟩ : BufTy).Contents (Elt F)),
    binary main_v33 main_v47 main_v48 (addf : (⟨S96x4096, .f32⟩ : BufTy).Contents (Elt F) → (⟨S96x4096, .f32⟩ : BufTy).Contents (Elt F) → (⟨S96x4096, .f32⟩ : BufTy).Contents (Elt F)) ]

/-- @main's last 48 operations, in order: the product with `main_arg10` and the bias, the slices of the sum into the four
    layers' weights and biases, and the four layers. -/
abbrev opsT : List (HloOp τ sig (Elt F)) :=
  [ binary main_v48 main_arg10 main_v49 ((fun l r => Host.dotGeneral dot_S96x4096_S4096x3267_S96x3267_1_0_0_1_n_n none l r) : (⟨S96x4096, .f32⟩ : BufTy).Contents (Elt F) → (⟨S4096x3267, .f32⟩ : BufTy).Contents (Elt F) → (⟨S96x3267, .f32⟩ : BufTy).Contents (Elt F)),
    unary main_arg11 main_v50 (broadcastInDim S1x3267 ![1] bcast_S3267_S1x3267_1 : (⟨S3267, .f32⟩ : BufTy).Contents (Elt F) → (⟨S1x3267, .f32⟩ : BufTy).Contents (Elt F)),
    unary main_v50 main_v51 (broadcastInDim S96x3267 ![0, 1] bcast_S1x3267_S96x3267_0_1 : (⟨S1x3267, .f32⟩ : BufTy).Contents (Elt F) → (⟨S96x3267, .f32⟩ : BufTy).Contents (Elt F)),
    binary main_v49 main_v51 main_v52 (addf : (⟨S96x3267, .f32⟩ : BufTy).Contents (Elt F) → (⟨S96x3267, .f32⟩ : BufTy).Contents (Elt F) → (⟨S96x3267, .f32⟩ : BufTy).Contents (Elt F)),
    unary main_v52 main_v53 ((extractStridedSlice S96x1056 ![0, 0] · slices_S96x3267_S96x1056_0_0) : (⟨S96x3267, .f32⟩ : BufTy).Contents (Elt F) → (⟨S96x1056, .f32⟩ : BufTy).Contents (Elt F)),
    unary main_v53 main_v54 ((extractStridedSlice S96x32 ![0, 0] · slices_S96x1056_S96x32_0_0) : (⟨S96x1056, .f32⟩ : BufTy).Contents (Elt F) → (⟨S96x32, .f32⟩ : BufTy).Contents (Elt F)),
    unary main_v54 main_v55 (broadcastInDim S96x1x32 ![0, 2] bcast_S96x32_S96x1x32_0_2 : (⟨S96x32, .f32⟩ : BufTy).Contents (Elt F) → (⟨S96x1x32, .f32⟩ : BufTy).Contents (Elt F)),
    unary main_v53 main_v56 ((extractStridedSlice S96x1024 ![0, 32] · slices_S96x1056_S96x1024_0_32) : (⟨S96x1056, .f32⟩ : BufTy).Contents (Elt F) → (⟨S96x1024, .f32⟩ : BufTy).Contents (Elt F)),
    reshape main_v56 main_v57 rfl shapeCasts_S96x1024_S96x32x32,
    binary main_arg0 main_v57 main_v58 ((fun l r => Host.dotGeneral dot_S96x4096x32_S96x32x32_S96x4096x32_2_1_1_2_0_0 none l r) : (⟨S96x4096x32, .f32⟩ : BufTy).Contents (Elt F) → (⟨S96x32x32, .f32⟩ : BufTy).Contents (Elt F) → (⟨S96x4096x32, .f32⟩ : BufTy).Contents (Elt F)),
    unary main_v55 main_v59 (broadcastInDim S96x4096x32 ![0, 1, 2] bcast_S96x1x32_S96x4096x32_0_1_2 : (⟨S96x1x32, .f32⟩ : BufTy).Contents (Elt F) → (⟨S96x4096x32, .f32⟩ : BufTy).Contents (Elt F)),
    binary main_v58 main_v59 main_v60 (addf : (⟨S96x4096x32, .f32⟩ : BufTy).Contents (Elt F) → (⟨S96x4096x32, .f32⟩ : BufTy).Contents (Elt F) → (⟨S96x4096x32, .f32⟩ : BufTy).Contents (Elt F)),
    nullary main_cst_11 (constant S_ .f32 0x41F00000#32),
    unary main_cst_11 main_v61 (broadcastInDim S96x4096x32 ![] bcast_S_S96x4096x32 : (⟨S_, .f32⟩ : BufTy).Contents (Elt F) → (⟨S96x4096x32, .f32⟩ : BufTy).Contents (Elt F)),
    binary main_v61 main_v60 main_v62 (mulf : (⟨S96x4096x32, .f32⟩ : BufTy).Contents (Elt F) → (⟨S96x4096x32, .f32⟩ : BufTy).Contents (Elt F) → (⟨S96x4096x32, .f32⟩ : BufTy).Contents (Elt F)),
    unary main_v62 main_v63 (Host.sin : (⟨S96x4096x32, .f32⟩ : BufTy).Contents (Elt F) → (⟨S96x4096x32, .f32⟩ : BufTy).Contents (Elt F)),
    unary main_v52 main_v64 ((extractStridedSlice S96x1056 ![0, 1056] · slices_S96x3267_S96x1056_0_1056) : (⟨S96x3267, .f32⟩ : BufTy).Contents (Elt F) → (⟨S96x1056, .f32⟩ : BufTy).Contents (Elt F)),
    unary main_v64 main_v65 ((extractStridedSlice S96x32 ![0, 0] · slices_S96x1056_S96x32_0_0) : (⟨S96x1056, .f32⟩ : BufTy).Contents (Elt F) → (⟨S96x32, .f32⟩ : BufTy).Contents (Elt F)),
    unary main_v65 main_v66 (broadcastInDim S96x1x32 ![0, 2] bcast_S96x32_S96x1x32_0_2 : (⟨S96x32, .f32⟩ : BufTy).Contents (Elt F) → (⟨S96x1x32, .f32⟩ : BufTy).Contents (Elt F)),
    unary main_v64 main_v67 ((extractStridedSlice S96x1024 ![0, 32] · slices_S96x1056_S96x1024_0_32) : (⟨S96x1056, .f32⟩ : BufTy).Contents (Elt F) → (⟨S96x1024, .f32⟩ : BufTy).Contents (Elt F)),
    reshape main_v67 main_v68 rfl shapeCasts_S96x1024_S96x32x32,
    binary main_v63 main_v68 main_v69 ((fun l r => Host.dotGeneral dot_S96x4096x32_S96x32x32_S96x4096x32_2_1_1_2_0_0 none l r) : (⟨S96x4096x32, .f32⟩ : BufTy).Contents (Elt F) → (⟨S96x32x32, .f32⟩ : BufTy).Contents (Elt F) → (⟨S96x4096x32, .f32⟩ : BufTy).Contents (Elt F)),
    unary main_v66 main_v70 (broadcastInDim S96x4096x32 ![0, 1, 2] bcast_S96x1x32_S96x4096x32_0_1_2 : (⟨S96x1x32, .f32⟩ : BufTy).Contents (Elt F) → (⟨S96x4096x32, .f32⟩ : BufTy).Contents (Elt F)),
    binary main_v69 main_v70 main_v71 (addf : (⟨S96x4096x32, .f32⟩ : BufTy).Contents (Elt F) → (⟨S96x4096x32, .f32⟩ : BufTy).Contents (Elt F) → (⟨S96x4096x32, .f32⟩ : BufTy).Contents (Elt F)),
    nullary main_cst_12 (constant S_ .f32 0x41F00000#32),
    unary main_cst_12 main_v72 (broadcastInDim S96x4096x32 ![] bcast_S_S96x4096x32 : (⟨S_, .f32⟩ : BufTy).Contents (Elt F) → (⟨S96x4096x32, .f32⟩ : BufTy).Contents (Elt F)),
    binary main_v72 main_v71 main_v73 (mulf : (⟨S96x4096x32, .f32⟩ : BufTy).Contents (Elt F) → (⟨S96x4096x32, .f32⟩ : BufTy).Contents (Elt F) → (⟨S96x4096x32, .f32⟩ : BufTy).Contents (Elt F)),
    unary main_v73 main_v74 (Host.sin : (⟨S96x4096x32, .f32⟩ : BufTy).Contents (Elt F) → (⟨S96x4096x32, .f32⟩ : BufTy).Contents (Elt F)),
    unary main_v52 main_v75 ((extractStridedSlice S96x1056 ![0, 2112] · slices_S96x3267_S96x1056_0_2112) : (⟨S96x3267, .f32⟩ : BufTy).Contents (Elt F) → (⟨S96x1056, .f32⟩ : BufTy).Contents (Elt F)),
    unary main_v75 main_v76 ((extractStridedSlice S96x32 ![0, 0] · slices_S96x1056_S96x32_0_0) : (⟨S96x1056, .f32⟩ : BufTy).Contents (Elt F) → (⟨S96x32, .f32⟩ : BufTy).Contents (Elt F)),
    unary main_v76 main_v77 (broadcastInDim S96x1x32 ![0, 2] bcast_S96x32_S96x1x32_0_2 : (⟨S96x32, .f32⟩ : BufTy).Contents (Elt F) → (⟨S96x1x32, .f32⟩ : BufTy).Contents (Elt F)),
    unary main_v75 main_v78 ((extractStridedSlice S96x1024 ![0, 32] · slices_S96x1056_S96x1024_0_32) : (⟨S96x1056, .f32⟩ : BufTy).Contents (Elt F) → (⟨S96x1024, .f32⟩ : BufTy).Contents (Elt F)),
    reshape main_v78 main_v79 rfl shapeCasts_S96x1024_S96x32x32,
    binary main_v74 main_v79 main_v80 ((fun l r => Host.dotGeneral dot_S96x4096x32_S96x32x32_S96x4096x32_2_1_1_2_0_0 none l r) : (⟨S96x4096x32, .f32⟩ : BufTy).Contents (Elt F) → (⟨S96x32x32, .f32⟩ : BufTy).Contents (Elt F) → (⟨S96x4096x32, .f32⟩ : BufTy).Contents (Elt F)),
    unary main_v77 main_v81 (broadcastInDim S96x4096x32 ![0, 1, 2] bcast_S96x1x32_S96x4096x32_0_1_2 : (⟨S96x1x32, .f32⟩ : BufTy).Contents (Elt F) → (⟨S96x4096x32, .f32⟩ : BufTy).Contents (Elt F)),
    binary main_v80 main_v81 main_v82 (addf : (⟨S96x4096x32, .f32⟩ : BufTy).Contents (Elt F) → (⟨S96x4096x32, .f32⟩ : BufTy).Contents (Elt F) → (⟨S96x4096x32, .f32⟩ : BufTy).Contents (Elt F)),
    nullary main_cst_13 (constant S_ .f32 0x41F00000#32),
    unary main_cst_13 main_v83 (broadcastInDim S96x4096x32 ![] bcast_S_S96x4096x32 : (⟨S_, .f32⟩ : BufTy).Contents (Elt F) → (⟨S96x4096x32, .f32⟩ : BufTy).Contents (Elt F)),
    binary main_v83 main_v82 main_v84 (mulf : (⟨S96x4096x32, .f32⟩ : BufTy).Contents (Elt F) → (⟨S96x4096x32, .f32⟩ : BufTy).Contents (Elt F) → (⟨S96x4096x32, .f32⟩ : BufTy).Contents (Elt F)),
    unary main_v84 main_v85 (Host.sin : (⟨S96x4096x32, .f32⟩ : BufTy).Contents (Elt F) → (⟨S96x4096x32, .f32⟩ : BufTy).Contents (Elt F)),
    unary main_v52 main_v86 ((extractStridedSlice S96x99 ![0, 3168] · slices_S96x3267_S96x99_0_3168) : (⟨S96x3267, .f32⟩ : BufTy).Contents (Elt F) → (⟨S96x99, .f32⟩ : BufTy).Contents (Elt F)),
    unary main_v86 main_v87 ((extractStridedSlice S96x3 ![0, 0] · slices_S96x99_S96x3_0_0) : (⟨S96x99, .f32⟩ : BufTy).Contents (Elt F) → (⟨S96x3, .f32⟩ : BufTy).Contents (Elt F)),
    unary main_v87 main_v88 (broadcastInDim S96x1x3 ![0, 2] bcast_S96x3_S96x1x3_0_2 : (⟨S96x3, .f32⟩ : BufTy).Contents (Elt F) → (⟨S96x1x3, .f32⟩ : BufTy).Contents (Elt F)),
    unary main_v86 main_v89 ((extractStridedSlice S96x96 ![0, 3] · slices_S96x99_S96x96_0_3) : (⟨S96x99, .f32⟩ : BufTy).Contents (Elt F) → (⟨S96x96, .f32⟩ : BufTy).Contents (Elt F)),
    reshape main_v89 main_v90 rfl shapeCasts_S96x96_S96x32x3,
    binary main_v85 main_v90 main_v91 ((fun l r => Host.dotGeneral dot_S96x4096x32_S96x32x3_S96x4096x3_2_1_1_2_0_0 none l r) : (⟨S96x4096x32, .f32⟩ : BufTy).Contents (Elt F) → (⟨S96x32x3, .f32⟩ : BufTy).Contents (Elt F) → (⟨S96x4096x3, .f32⟩ : BufTy).Contents (Elt F)),
    unary main_v88 main_v92 (broadcastInDim S96x4096x3 ![0, 1, 2] bcast_S96x1x3_S96x4096x3_0_1_2 : (⟨S96x1x3, .f32⟩ : BufTy).Contents (Elt F) → (⟨S96x4096x3, .f32⟩ : BufTy).Contents (Elt F)),
    binary main_v91 main_v92 main_v93 (addf : (⟨S96x4096x3, .f32⟩ : BufTy).Contents (Elt F) → (⟨S96x4096x3, .f32⟩ : BufTy).Contents (Elt F) → (⟨S96x4096x3, .f32⟩ : BufTy).Contents (Elt F)) ]

/-- @main's 181 operations, in order. -/
abbrev ops : List (HloOp τ sig (Elt F)) := opsZ ++ opsT

theorem ops_eq : (ops : List (HloOp τ sig (Elt F))) = opsZ ++ opsT := rfl

set_option maxRecDepth 8192 in
set_option maxHeartbeats 4000000 in
/-- @main is that straight line: its two windows run in order, the functions' bodies at their calls and the
    records at their fields; both sides are one chain of `hlo` steps, equal by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsZ_sub : (opsZ : List (HloOp τ sig (Elt F))).Forall fun op => op.bufs ⊆ tcRefs τ sig :=
  ⟨nullary_bufs_sub .., unary_bufs_sub .., binary_bufs_sub .., unary_bufs_sub .., binary_bufs_sub ..,
    binary_bufs_sub .., unary_bufs_sub .., binary_bufs_sub .., unary_bufs_sub .., unary_bufs_sub ..,
    unary_bufs_sub .., unary_bufs_sub .., binary_bufs_sub .., ternary_bufs_sub .., nullary_bufs_sub ..,
    unary_bufs_sub .., binary_bufs_sub .., binary_bufs_sub .., binary_bufs_sub .., nullary_bufs_sub ..,
    unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., nullary_bufs_sub .., unary_bufs_sub .., binary_bufs_sub ..,
    binary_bufs_sub .., binary_bufs_sub .., nullary_bufs_sub .., unary_bufs_sub .., binary_bufs_sub ..,
    unary_bufs_sub .., binary_bufs_sub .., binary_bufs_sub .., unary_bufs_sub .., binary_bufs_sub ..,
    unary_bufs_sub .., unary_bufs_sub .., unary_bufs_sub .., unary_bufs_sub .., binary_bufs_sub ..,
    ternary_bufs_sub .., nullary_bufs_sub .., unary_bufs_sub .., binary_bufs_sub .., binary_bufs_sub ..,
    binary_bufs_sub .., nullary_bufs_sub .., nullary_bufs_sub .., unary_bufs_sub .., unary_bufs_sub ..,
    binary_bufs_sub .., unary_bufs_sub .., unary_bufs_sub .., unary_bufs_sub .., binary_bufs_sub ..,
    unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., nullary_bufs_sub .., unary_bufs_sub .., unary_bufs_sub .., binary_bufs_sub ..,
    unary_bufs_sub .., unary_bufs_sub .., unary_bufs_sub .., binary_bufs_sub .., unary_bufs_sub ..,
    binary_bufs_sub .., nullary_bufs_sub .., unary_bufs_sub .., binary_bufs_sub .., binary_bufs_sub ..,
    nullary_bufs_sub .., unary_bufs_sub .., binary_bufs_sub .., ternary_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., nullary_bufs_sub .., unary_bufs_sub .., binary_bufs_sub ..,
    nullary_bufs_sub .., unary_bufs_sub .., binary_bufs_sub .., ternary_bufs_sub .., unary_bufs_sub ..,
    binary_bufs_sub .., binary_bufs_sub ..⟩

set_option maxRecDepth 8192 in
theorem opsT_sub : (opsT : List (HloOp τ sig (Elt F))).Forall fun op => op.bufs ⊆ tcRefs τ sig :=
  ⟨binary_bufs_sub .., unary_bufs_sub .., unary_bufs_sub .., binary_bufs_sub .., unary_bufs_sub ..,
    unary_bufs_sub .., unary_bufs_sub .., unary_bufs_sub .., reshape_bufs_sub .., binary_bufs_sub ..,
    unary_bufs_sub .., binary_bufs_sub .., nullary_bufs_sub .., unary_bufs_sub .., binary_bufs_sub ..,
    unary_bufs_sub .., unary_bufs_sub .., unary_bufs_sub .., unary_bufs_sub .., unary_bufs_sub ..,
    reshape_bufs_sub .., binary_bufs_sub .., unary_bufs_sub .., binary_bufs_sub .., nullary_bufs_sub ..,
    unary_bufs_sub .., binary_bufs_sub .., unary_bufs_sub .., unary_bufs_sub .., unary_bufs_sub .., unary_bufs_sub ..,
    unary_bufs_sub .., reshape_bufs_sub .., binary_bufs_sub .., unary_bufs_sub .., binary_bufs_sub ..,
    nullary_bufs_sub .., unary_bufs_sub .., binary_bufs_sub .., unary_bufs_sub .., unary_bufs_sub ..,
    unary_bufs_sub .., unary_bufs_sub .., unary_bufs_sub .., reshape_bufs_sub .., binary_bufs_sub ..,
    unary_bufs_sub .., binary_bufs_sub ..⟩

/-- Every buffer an operation touches is a TensorCore reference. -/
theorem ops_sub : (ops : List (HloOp τ sig (Elt F))).Forall fun op => op.bufs ⊆ tcRefs τ sig :=
  List.forall_iff_forall_mem.mpr fun op h => by
    rcases List.mem_append.mp h with h | h
    exacts [List.forall_iff_forall_mem.mp opsZ_sub op h, List.forall_iff_forall_mem.mp opsT_sub op h]

theorem opsZ_fresh : ∀ op ∈ (opsZ : List (HloOp τ sig (Elt F))), op.fresh = ∅ := by
  intro _ h; (repeat (cases h with | head => rfl | tail _ h => ?_)); exact nomatch h

theorem opsT_fresh : ∀ op ∈ (opsT : List (HloOp τ sig (Elt F))), op.fresh = ∅ := by
  intro _ h; (repeat (cases h with | head => rfl | tail _ h => ?_)); exact nomatch h

/-- Every operation determines its result: none leaves a buffer at contents of the machine's choosing. -/
theorem ops_fresh : ∀ op ∈ (ops : List (HloOp τ sig (Elt F))), op.fresh = ∅ := fun op h => by
  rcases List.mem_append.mp h with h | h
  exacts [opsZ_fresh op h, opsT_fresh op h]

/-- The buffers the operations write, in order: each operation's one result. No argument of @main is among them. -/
abbrev written : List (Ref sig .tc) :=
  [ main_call0_cst, main_call0_v0, main_call0_v1, main_call0_v2, main_call0_v3, main_call0_v4, main_call0_v5,
    main_call0_v6, main_call0_v7, main_call0_v8, main_call0_v9, main_call0_v10, main_call0_v11, main_v0, main_cst,
    main_v1, main_v2, main_v3, main_v4, main_call1_cst, main_call1_v0, main_call1_v1, main_call1_v2, main_call1_v3,
    main_call1_v4, main_call1_v5, main_call1_v6, main_call1_v7, main_call1_v8, main_call1_v9, main_call1_v10,
    main_call1_v11, main_v5, main_cst_0, main_v6, main_v7, main_v8, main_v9, main_call2_cst, main_call2_v0,
    main_call2_v1, main_call2_v2, main_call2_v3, main_call2_v4, main_call2_v5, main_call2_v6, main_call2_v7,
    main_call2_v8, main_call2_v9, main_call2_v10, main_call2_v11, main_v10, main_cst_1, main_v11, main_v12, main_v13,
    main_v14, main_v15, main_c, main_call3_v0, main_call3_v1, main_call3_v2, main_call3_v3, main_call3_v4,
    main_call3_v5, main_call3_v6, main_call3_v7, main_call3_v8, main_call3_c, main_call3_v9, main_call3_v10,
    main_call3_v11, main_call3_c_0, main_call3_v12, main_call3_v13, main_v16, main_v17, main_c_2, main_call4_v0,
    main_call4_v1, main_call4_v2, main_call4_v3, main_call4_v4, main_call4_v5, main_call4_v6, main_call4_v7,
    main_call4_v8, main_call4_c, main_call4_v9, main_call4_v10, main_call4_v11, main_call4_c_0, main_call4_v12,
    main_call4_v13, main_v18, main_c_3, main_v19, main_v20, main_c_4, main_v21, main_v22, main_v23, main_v24,
    main_v25, main_c_5, main_v26, main_v27, main_c_6, main_v28, main_v29, main_v30, main_v31, main_v32, main_v33,
    main_c_7, main_v34, main_v35, main_c_8, main_v36, main_v37, main_v38, main_v39, main_v40, main_c_9, main_v41,
    main_v42, main_c_10, main_v43, main_v44, main_v45, main_v46, main_v47, main_v48, main_v49, main_v50, main_v51,
    main_v52, main_v53, main_v54, main_v55, main_v56, main_v57, main_v58, main_v59, main_v60, main_cst_11, main_v61,
    main_v62, main_v63, main_v64, main_v65, main_v66, main_v67, main_v68, main_v69, main_v70, main_v71, main_cst_12,
    main_v72, main_v73, main_v74, main_v75, main_v76, main_v77, main_v78, main_v79, main_v80, main_v81, main_v82,
    main_cst_13, main_v83, main_v84, main_v85, main_v86, main_v87, main_v88, main_v89, main_v90, main_v91, main_v92,
    main_v93 ]

local macro "writes_mem" : tactic =>
  `(tactic| (simp only [nullary_writes, unary_writes, binary_writes, ternary_writes, reshape_writes,
      Finset.singleton_subset_iff, List.mem_toFinset]
             exact List.mem_map_of_mem (by decide)))

set_option maxRecDepth 8192 in
theorem opsZ_writes : (opsZ : List (HloOp τ sig (Elt F))).Forall fun op =>
    op.writes ⊆ (written.map (Proc.devRef (τ := τ) .tc)).toFinset := by
  simp only [List.Forall]
  exact
    ⟨by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem⟩

set_option maxRecDepth 8192 in
theorem opsT_writes : (opsT : List (HloOp τ sig (Elt F))).Forall fun op =>
    op.writes ⊆ (written.map (Proc.devRef (τ := τ) .tc)).toFinset := by
  simp only [List.Forall]
  exact
    ⟨by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem, by writes_mem,
      by writes_mem, by writes_mem, by writes_mem, by writes_mem, by writes_mem, by writes_mem⟩

/-- Each operation writes only its result buffer, which is in the list. -/
theorem ops_writes : (ops : List (HloOp τ sig (Elt F))).Forall fun op =>
    op.writes ⊆ (written.map (Proc.devRef (τ := τ) .tc)).toFinset :=
  List.forall_iff_forall_mem.mpr fun op h => by
    rcases List.mem_append.mp h with h | h
    exacts [List.forall_iff_forall_mem.mp opsZ_writes op h, List.forall_iff_forall_mem.mp opsT_writes op h]

/-- A buffer that no operation writes holds after the run what it held before. -/
theorem kept (V : Valuation τ sig (Elt F)) (r : Ref sig .tc) (h : r ∉ written) :
    after ops V (Proc.devRef .tc r) = V (Proc.devRef .tc r) :=
  after_of_writes_sub ops V ops_writes h

/-- On every device, for any float values, from any memory with zero counters: every weakly fair execution of
    @main terminates with the result buffer at the operations' fold over the launch contents and the fourteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93) = after ops (fun b => m (c, b)) (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨h c main_v93,
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide)),
      (h c main_arg6).trans (kept _ main_arg6 (by decide)),
      (h c main_arg7).trans (kept _ main_arg7 (by decide)),
      (h c main_arg8).trans (kept _ main_arg8 (by decide)),
      (h c main_arg9).trans (kept _ main_arg9 (by decide)),
      (h c main_arg10).trans (kept _ main_arg10 (by decide)),
      (h c main_arg11).trans (kept _ main_arg11 (by decide)),
      (h c main_arg12).trans (kept _ main_arg12 (by decide)),
      (h c main_arg13).trans (kept _ main_arg13 (by decide))⟩)
    (run_seq scopedRefs_eq scopedSems_eq defs main (fun _ => ops) main_eq (fun _ => ops_sub) m ρ fun _ => ops_fresh)

/-- The run with the result dropped: @main terminates and its argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => (h c).2) (run m ρ)

end Cert.ReferenceIdeal.Hand

end
-- ==== Proof.RVal.lean ====
/-
  The reference's result, read as the specification.

  The reference computes the latent code `z` (its first 133 operations), the parameter array
  `P[n, j] = Σ_k z[n, k] · W[k, j] + b[j]`, and then, per datapoint `n`, a network of three sine layers and an affine output
  layer whose weights and biases are slices of row `n` of `P`, applied to the 4096 sample rows.

  * A product is read at an index as the sum over its one contracted axis: the operand indices are named axis by axis
    (a batch axis and a free axis read the result's coordinate, the contracted axis the summation variable) and the
    contraction's index set is identified with `Fin 4096` / `Fin 32`.
  * A broadcast bias is read at the coordinates it keeps, `0` on its unit axis; the sine of a layer is the extended reals'.
  * So the parameter product with its bias is `Spec.params`, a sine layer is `Spec.hidden`, the output layer `Spec.last`,
    as arrays; rewriting the tail's composed term with these three equations, innermost first, leaves `Spec.mlp` of the
    samples and the slices of `P`.
  * The latent code is never opened: the first 133 operations leave `Spec.ZChain` of the arrays it is computed from, and
    write none of the arguments the tail reads.
-/
import proofs.«422240_j68229850464342_4_alg».proof.Proof.RRun
import proofs.«422240_j68229850464342_4_alg».proof.Proof.Spec
import proofs.«422240_j68229850464342_4_alg».proof.Proof.ZChain
import Idealize.ShloMosaic.Lib.StableHlo.Run
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.Hand

open Idealize.ShloMosaic Idealize.ShloMosaic.ValueIdx Idealize.ShloMosaic.TcCoe Idealize.SL.Sem Idealize.ShloMosaic.StableHlo
open Cert.ReferenceIdeal Cert.ReferenceIdeal.Facts₀ Cert.Spec

/-! ## The latent-to-parameter product: its operand indices, axis by axis -/

theorem lhs_params_0 (i : S96x3267.Idx) (q : dot_S96x4096_S4096x3267_S96x3267_1_0_0_1_n_n.contr.Idx) :
    (dot_S96x4096_S4096x3267_S96x3267_1_0_0_1_n_n.lhsIdx i q 0).val = (i 0).val := by
  unfold DotDims.lhsIdx
  rw [dif_neg (show ¬(0 : Fin S96x4096.rank) ∈ dot_S96x4096_S4096x3267_S96x3267_1_0_0_1_n_n.lhsBatch by decide),
    dif_pos (show (0 : Fin S96x4096.rank) ∈ dot_S96x4096_S4096x3267_S96x3267_1_0_0_1_n_n.lhsNonContracting by decide)]
  rfl
theorem lhs_params_1 (i : S96x3267.Idx) (q : dot_S96x4096_S4096x3267_S96x3267_1_0_0_1_n_n.contr.Idx) :
    (dot_S96x4096_S4096x3267_S96x3267_1_0_0_1_n_n.lhsIdx i q 1).val = (q ⟨0, by decide⟩).val :=
  dot_S96x4096_S4096x3267_S96x3267_1_0_0_1_n_n.lhsIdx_val_of_single rfl i q
theorem rhs_params_0 (i : S96x3267.Idx) (q : dot_S96x4096_S4096x3267_S96x3267_1_0_0_1_n_n.contr.Idx) :
    (dot_S96x4096_S4096x3267_S96x3267_1_0_0_1_n_n.rhsIdx i q 0).val = (q ⟨0, by decide⟩).val :=
  dot_S96x4096_S4096x3267_S96x3267_1_0_0_1_n_n.rhsIdx_val_of_single rfl i q
theorem rhs_params_1 (i : S96x3267.Idx) (q : dot_S96x4096_S4096x3267_S96x3267_1_0_0_1_n_n.contr.Idx) :
    (dot_S96x4096_S4096x3267_S96x3267_1_0_0_1_n_n.rhsIdx i q 1).val = (i 1).val := by
  unfold DotDims.rhsIdx
  rw [dif_neg (show ¬(1 : Fin S4096x3267.rank) ∈ dot_S96x4096_S4096x3267_S96x3267_1_0_0_1_n_n.rhsBatch by decide),
    dif_pos (show (1 : Fin S4096x3267.rank) ∈ dot_S96x4096_S4096x3267_S96x3267_1_0_0_1_n_n.rhsNonContracting by decide)]
  rfl

/-- The product at an index: the sum over the 4096 latent coordinates. -/
theorem dot_params_apply (z : T2 96 4096) (W : T2 4096 3267) (j : S96x3267.Idx) :
    Host.dotGeneral dot_S96x4096_S4096x3267_S96x3267_1_0_0_1_n_n none z W j
      = ∑ k : Fin 4096, z (ix2 (j 0) k) * W (ix2 k (j 1)) := by
  simp only [Host.dotGeneral]
  rw [Ideal.dotGeneral_apply, ← Equiv.sum_comp (contrEquiv1 dot_S96x4096_S4096x3267_S96x3267_1_0_0_1_n_n 4096 rfl rfl).symm]
  refine Finset.sum_congr rfl fun k _ => ?_
  have hk := contrEquiv1_symm_val dot_S96x4096_S4096x3267_S96x3267_1_0_0_1_n_n 4096 rfl rfl k
  have el : dot_S96x4096_S4096x3267_S96x3267_1_0_0_1_n_n.lhsIdx j ((contrEquiv1 dot_S96x4096_S4096x3267_S96x3267_1_0_0_1_n_n 4096 rfl rfl).symm k)
      = ix2 (j 0) k := funext fun a => Fin.ext (by
    match a with
    | ⟨0, _⟩ => exact lhs_params_0 _ _
    | ⟨1, _⟩ => exact (lhs_params_1 _ _).trans hk)
  have er : dot_S96x4096_S4096x3267_S96x3267_1_0_0_1_n_n.rhsIdx j ((contrEquiv1 dot_S96x4096_S4096x3267_S96x3267_1_0_0_1_n_n 4096 rfl rfl).symm k)
      = ix2 k (j 1) := funext fun a => Fin.ext (by
    match a with
    | ⟨0, _⟩ => exact (rhs_params_0 _ _).trans hk
    | ⟨1, _⟩ => exact rhs_params_1 _ _)
  rw [el, er]
  rfl

/-- The bias row laid out one copy per datapoint. -/
theorem bias_rows_apply (b : FVec Ideal S3267 .f32) (j : S96x3267.Idx) :
    broadcastInDim S96x3267 ![0, 1] bcast_S1x3267_S96x3267_0_1 (broadcastInDim S1x3267 ![1] bcast_S3267_S1x3267_1 b) j
      = b (ix1 (j 1)) := by
  refine (broadcastInDim_apply ![0, 1] bcast_S1x3267_S96x3267_0_1 _ j (ix2 (0 : Fin 1) (j 1)) ?_).trans ?_
  · intro a
    match a with
    | ⟨0, _⟩ => rfl
    | ⟨1, _⟩ => rfl
  · refine broadcastInDim_apply ![1] bcast_S3267_S1x3267_1 b (ix2 (0 : Fin 1) (j 1)) (ix1 (j 1)) ?_
    intro a
    match a with
    | ⟨0, _⟩ => rfl

/-- The reference's parameter array is the specification's. -/
theorem params_eq (z : T2 96 4096) (W : T2 4096 3267) (b : FVec Ideal S3267 .f32) :
    addf (Host.dotGeneral dot_S96x4096_S4096x3267_S96x3267_1_0_0_1_n_n none z W)
        (broadcastInDim S96x3267 ![0, 1] bcast_S1x3267_S96x3267_0_1 (broadcastInDim S1x3267 ![1] bcast_S3267_S1x3267_1 b))
      = Cert.Spec.params z W (fun j => b (ix1 (j 1))) := by
  funext j
  rw [addf_apply, dot_params_apply, bias_rows_apply]
  rfl

/-! ## A layer's product, batched over the datapoints: its operand indices, axis by axis -/

theorem lhs_hid_0 (i : S96x4096x32.Idx) (q : dot_S96x4096x32_S96x32x32_S96x4096x32_2_1_1_2_0_0.contr.Idx) :
    (dot_S96x4096x32_S96x32x32_S96x4096x32_2_1_1_2_0_0.lhsIdx i q 0).val = (i 0).val := by
  unfold DotDims.lhsIdx
  rw [dif_pos (show (0 : Fin S96x4096x32.rank) ∈ dot_S96x4096x32_S96x32x32_S96x4096x32_2_1_1_2_0_0.lhsBatch by decide)]
  rfl
theorem lhs_hid_1 (i : S96x4096x32.Idx) (q : dot_S96x4096x32_S96x32x32_S96x4096x32_2_1_1_2_0_0.contr.Idx) :
    (dot_S96x4096x32_S96x32x32_S96x4096x32_2_1_1_2_0_0.lhsIdx i q 1).val = (i 1).val := by
  unfold DotDims.lhsIdx
  rw [dif_neg (show ¬(1 : Fin S96x4096x32.rank) ∈ dot_S96x4096x32_S96x32x32_S96x4096x32_2_1_1_2_0_0.lhsBatch by decide),
    dif_pos (show (1 : Fin S96x4096x32.rank) ∈ dot_S96x4096x32_S96x32x32_S96x4096x32_2_1_1_2_0_0.lhsNonContracting by decide)]
  rfl
theorem lhs_hid_2 (i : S96x4096x32.Idx) (q : dot_S96x4096x32_S96x32x32_S96x4096x32_2_1_1_2_0_0.contr.Idx) :
    (dot_S96x4096x32_S96x32x32_S96x4096x32_2_1_1_2_0_0.lhsIdx i q 2).val = (q ⟨0, by decide⟩).val :=
  dot_S96x4096x32_S96x32x32_S96x4096x32_2_1_1_2_0_0.lhsIdx_val_of_single rfl i q
theorem rhs_hid_0 (i : S96x4096x32.Idx) (q : dot_S96x4096x32_S96x32x32_S96x4096x32_2_1_1_2_0_0.contr.Idx) :
    (dot_S96x4096x32_S96x32x32_S96x4096x32_2_1_1_2_0_0.rhsIdx i q 0).val = (i 0).val := by
  unfold DotDims.rhsIdx
  rw [dif_pos (show (0 : Fin S96x32x32.rank) ∈ dot_S96x4096x32_S96x32x32_S96x4096x32_2_1_1_2_0_0.rhsBatch by decide)]
  rfl
theorem rhs_hid_1 (i : S96x4096x32.Idx) (q : dot_S96x4096x32_S96x32x32_S96x4096x32_2_1_1_2_0_0.contr.Idx) :
    (dot_S96x4096x32_S96x32x32_S96x4096x32_2_1_1_2_0_0.rhsIdx i q 1).val = (q ⟨0, by decide⟩).val :=
  dot_S96x4096x32_S96x32x32_S96x4096x32_2_1_1_2_0_0.rhsIdx_val_of_single rfl i q
theorem rhs_hid_2 (i : S96x4096x32.Idx) (q : dot_S96x4096x32_S96x32x32_S96x4096x32_2_1_1_2_0_0.contr.Idx) :
    (dot_S96x4096x32_S96x32x32_S96x4096x32_2_1_1_2_0_0.rhsIdx i q 2).val = (i 2).val := by
  unfold DotDims.rhsIdx
  rw [dif_neg (show ¬(2 : Fin S96x32x32.rank) ∈ dot_S96x4096x32_S96x32x32_S96x4096x32_2_1_1_2_0_0.rhsBatch by decide),
    dif_pos (show (2 : Fin S96x32x32.rank) ∈ dot_S96x4096x32_S96x32x32_S96x4096x32_2_1_1_2_0_0.rhsNonContracting by decide)]
  rfl

/-- A hidden layer's product at an index: the sum over the 32 input features, the weights those of the datapoint. -/
theorem dot_hid_apply (h : T3 96 4096 32) (W : T3 96 32 32) (j : S96x4096x32.Idx) :
    Host.dotGeneral dot_S96x4096x32_S96x32x32_S96x4096x32_2_1_1_2_0_0 none h W j
      = ∑ d : Fin 32, h (ix3 (j 0) (j 1) d) * W (ix3 (j 0) d (j 2)) := by
  simp only [Host.dotGeneral]
  rw [Ideal.dotGeneral_apply, ← Equiv.sum_comp (contrEquiv1 dot_S96x4096x32_S96x32x32_S96x4096x32_2_1_1_2_0_0 32 rfl rfl).symm]
  refine Finset.sum_congr rfl fun k _ => ?_
  have hk := contrEquiv1_symm_val dot_S96x4096x32_S96x32x32_S96x4096x32_2_1_1_2_0_0 32 rfl rfl k
  have el : dot_S96x4096x32_S96x32x32_S96x4096x32_2_1_1_2_0_0.lhsIdx j ((contrEquiv1 dot_S96x4096x32_S96x32x32_S96x4096x32_2_1_1_2_0_0 32 rfl rfl).symm k)
      = ix3 (j 0) (j 1) k := funext fun a => Fin.ext (by
    match a with
    | ⟨0, _⟩ => exact lhs_hid_0 _ _
    | ⟨1, _⟩ => exact lhs_hid_1 _ _
    | ⟨2, _⟩ => exact (lhs_hid_2 _ _).trans hk)
  have er : dot_S96x4096x32_S96x32x32_S96x4096x32_2_1_1_2_0_0.rhsIdx j ((contrEquiv1 dot_S96x4096x32_S96x32x32_S96x4096x32_2_1_1_2_0_0 32 rfl rfl).symm k)
      = ix3 (j 0) k (j 2) := funext fun a => Fin.ext (by
    match a with
    | ⟨0, _⟩ => exact rhs_hid_0 _ _
    | ⟨1, _⟩ => exact (rhs_hid_1 _ _).trans hk
    | ⟨2, _⟩ => exact rhs_hid_2 _ _)
  rw [el, er]
  rfl

theorem lhs_out_0 (i : S96x4096x3.Idx) (q : dot_S96x4096x32_S96x32x3_S96x4096x3_2_1_1_2_0_0.contr.Idx) :
    (dot_S96x4096x32_S96x32x3_S96x4096x3_2_1_1_2_0_0.lhsIdx i q 0).val = (i 0).val := by
  unfold DotDims.lhsIdx
  rw [dif_pos (show (0 : Fin S96x4096x32.rank) ∈ dot_S96x4096x32_S96x32x3_S96x4096x3_2_1_1_2_0_0.lhsBatch by decide)]
  rfl
theorem lhs_out_1 (i : S96x4096x3.Idx) (q : dot_S96x4096x32_S96x32x3_S96x4096x3_2_1_1_2_0_0.contr.Idx) :
    (dot_S96x4096x32_S96x32x3_S96x4096x3_2_1_1_2_0_0.lhsIdx i q 1).val = (i 1).val := by
  unfold DotDims.lhsIdx
  rw [dif_neg (show ¬(1 : Fin S96x4096x32.rank) ∈ dot_S96x4096x32_S96x32x3_S96x4096x3_2_1_1_2_0_0.lhsBatch by decide),
    dif_pos (show (1 : Fin S96x4096x32.rank) ∈ dot_S96x4096x32_S96x32x3_S96x4096x3_2_1_1_2_0_0.lhsNonContracting by decide)]
  rfl
theorem lhs_out_2 (i : S96x4096x3.Idx) (q : dot_S96x4096x32_S96x32x3_S96x4096x3_2_1_1_2_0_0.contr.Idx) :
    (dot_S96x4096x32_S96x32x3_S96x4096x3_2_1_1_2_0_0.lhsIdx i q 2).val = (q ⟨0, by decide⟩).val :=
  dot_S96x4096x32_S96x32x3_S96x4096x3_2_1_1_2_0_0.lhsIdx_val_of_single rfl i q
theorem rhs_out_0 (i : S96x4096x3.Idx) (q : dot_S96x4096x32_S96x32x3_S96x4096x3_2_1_1_2_0_0.contr.Idx) :
    (dot_S96x4096x32_S96x32x3_S96x4096x3_2_1_1_2_0_0.rhsIdx i q 0).val = (i 0).val := by
  unfold DotDims.rhsIdx
  rw [dif_pos (show (0 : Fin S96x32x3.rank) ∈ dot_S96x4096x32_S96x32x3_S96x4096x3_2_1_1_2_0_0.rhsBatch by decide)]
  rfl
theorem rhs_out_1 (i : S96x4096x3.Idx) (q : dot_S96x4096x32_S96x32x3_S96x4096x3_2_1_1_2_0_0.contr.Idx) :
    (dot_S96x4096x32_S96x32x3_S96x4096x3_2_1_1_2_0_0.rhsIdx i q 1).val = (q ⟨0, by decide⟩).val :=
  dot_S96x4096x32_S96x32x3_S96x4096x3_2_1_1_2_0_0.rhsIdx_val_of_single rfl i q
theorem rhs_out_2 (i : S96x4096x3.Idx) (q : dot_S96x4096x32_S96x32x3_S96x4096x3_2_1_1_2_0_0.contr.Idx) :
    (dot_S96x4096x32_S96x32x3_S96x4096x3_2_1_1_2_0_0.rhsIdx i q 2).val = (i 2).val := by
  unfold DotDims.rhsIdx
  rw [dif_neg (show ¬(2 : Fin S96x32x3.rank) ∈ dot_S96x4096x32_S96x32x3_S96x4096x3_2_1_1_2_0_0.rhsBatch by decide),
    dif_pos (show (2 : Fin S96x32x3.rank) ∈ dot_S96x4096x32_S96x32x3_S96x4096x3_2_1_1_2_0_0.rhsNonContracting by decide)]
  rfl

/-- The output layer's product at an index. -/
theorem dot_out_apply (h : T3 96 4096 32) (W : T3 96 32 3) (j : S96x4096x3.Idx) :
    Host.dotGeneral dot_S96x4096x32_S96x32x3_S96x4096x3_2_1_1_2_0_0 none h W j
      = ∑ d : Fin 32, h (ix3 (j 0) (j 1) d) * W (ix3 (j 0) d (j 2)) := by
  simp only [Host.dotGeneral]
  rw [Ideal.dotGeneral_apply, ← Equiv.sum_comp (contrEquiv1 dot_S96x4096x32_S96x32x3_S96x4096x3_2_1_1_2_0_0 32 rfl rfl).symm]
  refine Finset.sum_congr rfl fun k _ => ?_
  have hk := contrEquiv1_symm_val dot_S96x4096x32_S96x32x3_S96x4096x3_2_1_1_2_0_0 32 rfl rfl k
  have el : dot_S96x4096x32_S96x32x3_S96x4096x3_2_1_1_2_0_0.lhsIdx j ((contrEquiv1 dot_S96x4096x32_S96x32x3_S96x4096x3_2_1_1_2_0_0 32 rfl rfl).symm k)
      = ix3 (j 0) (j 1) k := funext fun a => Fin.ext (by
    match a with
    | ⟨0, _⟩ => exact lhs_out_0 _ _
    | ⟨1, _⟩ => exact lhs_out_1 _ _
    | ⟨2, _⟩ => exact (lhs_out_2 _ _).trans hk)
  have er : dot_S96x4096x32_S96x32x3_S96x4096x3_2_1_1_2_0_0.rhsIdx j ((contrEquiv1 dot_S96x4096x32_S96x32x3_S96x4096x3_2_1_1_2_0_0 32 rfl rfl).symm k)
      = ix3 (j 0) k (j 2) := funext fun a => Fin.ext (by
    match a with
    | ⟨0, _⟩ => exact rhs_out_0 _ _
    | ⟨1, _⟩ => exact (rhs_out_1 _ _).trans hk
    | ⟨2, _⟩ => exact rhs_out_2 _ _)
  rw [el, er]
  rfl

/-- A layer's bias row read at every sample row. -/
theorem bias_hid_apply (b : T3 96 1 32) (j : S96x4096x32.Idx) :
    broadcastInDim S96x4096x32 ![0, 1, 2] bcast_S96x1x32_S96x4096x32_0_1_2 b j = b (ix3 (j 0) 0 (j 2)) := by
  refine broadcastInDim_apply ![0, 1, 2] bcast_S96x1x32_S96x4096x32_0_1_2 b j (ix3 (j 0) (0 : Fin 1) (j 2)) ?_
  intro a
  match a with
  | ⟨0, _⟩ => rfl
  | ⟨1, _⟩ => rfl
  | ⟨2, _⟩ => rfl

theorem bias_out_apply (b : T3 96 1 3) (j : S96x4096x3.Idx) :
    broadcastInDim S96x4096x3 ![0, 1, 2] bcast_S96x1x3_S96x4096x3_0_1_2 b j = b (ix3 (j 0) 0 (j 2)) := by
  refine broadcastInDim_apply ![0, 1, 2] bcast_S96x1x3_S96x4096x3_0_1_2 b j (ix3 (j 0) (0 : Fin 1) (j 2)) ?_
  intro a
  match a with
  | ⟨0, _⟩ => rfl
  | ⟨1, _⟩ => rfl
  | ⟨2, _⟩ => rfl

/-- One sine layer of the reference is the specification's. -/
theorem hidden_eq (h : T3 96 4096 32) (W : T3 96 32 32) (b : T3 96 1 32) :
    Host.sin (F := Ideal) (mulf (broadcastInDim S96x4096x32 ![] bcast_S_S96x4096x32 (constant (F := Ideal) S_ .f32 0x41F00000#32))
        (addf (Host.dotGeneral dot_S96x4096x32_S96x32x32_S96x4096x32_2_1_1_2_0_0 none h W)
          (broadcastInDim S96x4096x32 ![0, 1, 2] bcast_S96x1x32_S96x4096x32_0_1_2 b)))
      = Cert.Spec.hidden h W b := by
  funext j
  unfold Host.sin
  rw [Ideal.hostUnary_sin_def, mulf_apply, broadcastInDim_scalar_apply, constant_apply, addf_apply, dot_hid_apply, bias_hid_apply]
  rfl

/-- The reference's output layer is the specification's. -/
theorem last_eq (h : T3 96 4096 32) (W : T3 96 32 3) (b : T3 96 1 3) :
    addf (Host.dotGeneral dot_S96x4096x32_S96x32x3_S96x4096x3_2_1_1_2_0_0 none h W)
        (broadcastInDim S96x4096x3 ![0, 1, 2] bcast_S96x1x3_S96x4096x3_0_1_2 b)
      = Cert.Spec.last h W b := by
  funext j
  rw [addf_apply, dot_out_apply, bias_out_apply]
  rfl

/-! ## The layers' weights and biases as slices of a parameter array

Row `n` of the parameter array holds datapoint `n`'s network: three hidden layers of 1056 = 32 + 32·32 entries (the bias, then
the 32×32 weights row-major) and the output layer's 99 = 3 + 32·3. -/

section Params
variable (P : T2 96 3267)

abbrev W0 : T3 96 32 32 :=
  shapeCast S96x32x32 (extractStridedSlice S96x1024 ![0, 32] (extractStridedSlice S96x1056 ![0, 0] P slices_S96x3267_S96x1056_0_0) slices_S96x1056_S96x1024_0_32) shapeCasts_S96x1024_S96x32x32
abbrev b0 : T3 96 1 32 :=
  broadcastInDim S96x1x32 ![0, 2] bcast_S96x32_S96x1x32_0_2 (extractStridedSlice S96x32 ![0, 0] (extractStridedSlice S96x1056 ![0, 0] P slices_S96x3267_S96x1056_0_0) slices_S96x1056_S96x32_0_0)
abbrev W1 : T3 96 32 32 :=
  shapeCast S96x32x32 (extractStridedSlice S96x1024 ![0, 32] (extractStridedSlice S96x1056 ![0, 1056] P slices_S96x3267_S96x1056_0_1056) slices_S96x1056_S96x1024_0_32) shapeCasts_S96x1024_S96x32x32
abbrev b1 : T3 96 1 32 :=
  broadcastInDim S96x1x32 ![0, 2] bcast_S96x32_S96x1x32_0_2 (extractStridedSlice S96x32 ![0, 0] (extractStridedSlice S96x1056 ![0, 1056] P slices_S96x3267_S96x1056_0_1056) slices_S96x1056_S96x32_0_0)
abbrev W2 : T3 96 32 32 :=
  shapeCast S96x32x32 (extractStridedSlice S96x1024 ![0, 32] (extractStridedSlice S96x1056 ![0, 2112] P slices_S96x3267_S96x1056_0_2112) slices_S96x1056_S96x1024_0_32) shapeCasts_S96x1024_S96x32x32
abbrev b2 : T3 96 1 32 :=
  broadcastInDim S96x1x32 ![0, 2] bcast_S96x32_S96x1x32_0_2 (extractStridedSlice S96x32 ![0, 0] (extractStridedSlice S96x1056 ![0, 2112] P slices_S96x3267_S96x1056_0_2112) slices_S96x1056_S96x32_0_0)
abbrev W3 : T3 96 32 3 :=
  shapeCast S96x32x3 (extractStridedSlice S96x96 ![0, 3] (extractStridedSlice S96x99 ![0, 3168] P slices_S96x3267_S96x99_0_3168) slices_S96x99_S96x96_0_3) shapeCasts_S96x96_S96x32x3
abbrev b3 : T3 96 1 3 :=
  broadcastInDim S96x1x3 ![0, 2] bcast_S96x3_S96x1x3_0_2 (extractStridedSlice S96x3 ![0, 0] (extractStridedSlice S96x99 ![0, 3168] P slices_S96x3267_S96x99_0_3168) slices_S96x99_S96x3_0_0)

end Params

/-- The parameter array the tail computes from the contents it starts at. -/
abbrev paramsAt (V : Valuation τ sig (Elt Ideal)) : T2 96 3267 :=
  Cert.Spec.params (V (Proc.devRef .tc main_v48)) (V (Proc.devRef .tc main_arg10)) (fun j => V (Proc.devRef .tc main_arg11) (ix1 (j 1)))

set_option maxHeartbeats 4000000 in
set_option maxRecDepth 8192 in
/-- From any contents, the tail leaves the network of the parameter array applied to the samples. -/
theorem tail_eq (V : Valuation τ sig (Elt Ideal)) :
    after (opsT (F := Ideal)) V (Proc.devRef .tc main_v93)
      = Cert.Spec.mlp (V (Proc.devRef .tc main_arg0)) (W0 (paramsAt V)) (b0 (paramsAt V)) (W1 (paramsAt V)) (b1 (paramsAt V))
          (W2 (paramsAt V)) (b2 (paramsAt V)) (W3 (paramsAt V)) (b3 (paramsAt V)) := by
  after_results_simp
  rw [params_eq, hidden_eq, hidden_eq, hidden_eq, last_eq]
  rfl

/-! ## The latent code -/

set_option maxHeartbeats 4000000 in
set_option maxRecDepth 8192 in
/-- From any contents, the first 133 operations leave the latent code of the eleven arrays it is computed from. -/
theorem z_eq (V : Valuation τ sig (Elt Ideal)) :
    after (opsZ (F := Ideal)) V (Proc.devRef .tc main_v48)
      = Cert.Spec.ZChain gather_S6x1024_S96x1_S96x1024_1_0_n_n_0_1_11024 gather_S96x1024_S4096x1_S96x4096_0_1_n_n_1_1_961
          gather_S1x512_S96x1_S96x512_1_0_n_n_0_1_1512 gather_S96x512_S4096x1_S96x4096_0_1_n_n_1_1_961
          (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8))
          (V (Proc.devRef .tc main_arg9)) (V (Proc.devRef .tc main_arg12)) (V (Proc.devRef .tc main_arg13)) := by
  after_results_simp
  rfl

/-- The reference's latent code at launch contents `m` on device `c`. -/
abbrev refZ (m : (ℓ : Loc nD τ sig) → Buf (Elt Ideal) ℓ) (c : Dev nD) : T2 96 4096 :=
  Cert.Spec.ZChain gather_S6x1024_S96x1_S96x1024_1_0_n_n_0_1_11024 gather_S96x1024_S4096x1_S96x4096_0_1_n_n_1_1_961
    gather_S1x512_S96x1_S96x512_1_0_n_n_0_1_1512 gather_S96x512_S4096x1_S96x4096_0_1_n_n_1_1_961
    (m (c, Proc.devRef .tc main_arg1)) (m (c, Proc.devRef .tc main_arg2)) (m (c, Proc.devRef .tc main_arg3)) (m (c, Proc.devRef .tc main_arg4))
    (m (c, Proc.devRef .tc main_arg5)) (m (c, Proc.devRef .tc main_arg6)) (m (c, Proc.devRef .tc main_arg7)) (m (c, Proc.devRef .tc main_arg8))
    (m (c, Proc.devRef .tc main_arg9)) (m (c, Proc.devRef .tc main_arg12)) (m (c, Proc.devRef .tc main_arg13))

/-- The reference's parameter array: the parameter map of its latent code. -/
abbrev refParams (m : (ℓ : Loc nD τ sig) → Buf (Elt Ideal) ℓ) (c : Dev nD) : T2 96 3267 :=
  Cert.Spec.params (refZ m c) (m (c, Proc.devRef .tc main_arg10)) (fun j => m (c, Proc.devRef .tc main_arg11) (ix1 (j 1)))

/-! ## The whole run: the tail after the latent code -/

/-- Two lines run one after the other: the second starts at what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The first 133 operations write none of the three arguments the tail reads. -/
theorem z_arg0 (V : Valuation τ sig (Elt Ideal)) :
    after (opsZ (F := Ideal)) V (Proc.devRef .tc main_arg0) = V (Proc.devRef .tc main_arg0) :=
  after_of_writes_sub opsZ V opsZ_writes (by decide)
theorem z_arg10 (V : Valuation τ sig (Elt Ideal)) :
    after (opsZ (F := Ideal)) V (Proc.devRef .tc main_arg10) = V (Proc.devRef .tc main_arg10) :=
  after_of_writes_sub opsZ V opsZ_writes (by decide)
theorem z_arg11 (V : Valuation τ sig (Elt Ideal)) :
    after (opsZ (F := Ideal)) V (Proc.devRef .tc main_arg11) = V (Proc.devRef .tc main_arg11) :=
  after_of_writes_sub opsZ V opsZ_writes (by decide)

/-- THE REFERENCE'S RESULT: the network whose parameters are the parameter map of the latent code, applied to the samples. -/
theorem ref_eq (m : (ℓ : Loc nD τ sig) → Buf (Elt Ideal) ℓ) (c : Dev nD) :
    after (ops (F := Ideal)) (fun b => m (c, b)) (Proc.devRef .tc main_v93)
      = Cert.Spec.mlp (m (c, Proc.devRef .tc main_arg0)) (W0 (refParams m c)) (b0 (refParams m c)) (W1 (refParams m c)) (b1 (refParams m c))
          (W2 (refParams m c)) (b2 (refParams m c)) (W3 (refParams m c)) (b3 (refParams m c)) := by
  rw [ops_eq, after_append, tail_eq]
  unfold paramsAt
  rw [z_eq, z_arg0, z_arg10, z_arg11]

end Cert.ReferenceIdeal.Hand

end
-- ==== Proof.lean ====
/-
  The certificate's claim: the kernel program, at the word level and read over the extended reals, runs to the end
  without a fault and leaves its fourteen argument arrays as it found them; so does the reference; and over the
  extended reals the two programs, started on the same arguments, return the same array.

  Both programs first draw the latent `z = s + h[group] + hh[group]` by the same host operations, then compute the
  per-datapoint network parameters `P = z · W_map + b_map` and run a three-hidden-layer sine network with those
  parameters over every sample row. The kernel program computes `P` in a first call that walks the 4096 contracted
  positions in eight blocks of 512, adding each block's partial product into an accumulator that starts at zero and
  adding the bias at the last block; a finite sum may be regrouped into blocks in any additive commutative monoid, and
  `0 + x = x`, so this is `P`. Its second call walks the 4096 sample rows in sixteen blocks of 256; every layer of the
  network acts on each sample row by itself, so the blocks of the result are the result's blocks. The conversions to a
  narrower float format on the way into each product are the identity over the extended reals, and the sine layers'
  frequency is the same word in both programs. No hypothesis on the inputs is used.
-/
import proofs.«422240_j68229850464342_4_alg».proof.Defs
import proofs.«422240_j68229850464342_4_alg».proof.Proof.Gen.Kernel
import proofs.«422240_j68229850464342_4_alg».proof.Proof.Gen.KernelIdeal
import proofs.«422240_j68229850464342_4_alg».proof.Proof.Gen.ReferenceIdeal
import proofs.«422240_j68229850464342_4_alg».proof.Proof.Gen.Pre_finite_inputs
import proofs.«422240_j68229850464342_4_alg».proof.Proof.BRun
import proofs.«422240_j68229850464342_4_alg».proof.Proof.KRun
import proofs.«422240_j68229850464342_4_alg».proof.Proof.KOut
import proofs.«422240_j68229850464342_4_alg».proof.Proof.RRun
import proofs.«422240_j68229850464342_4_alg».proof.Proof.RVal
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Hand.frame m ρ

/-- So does the kernel program read over the extended reals. -/
theorem frame_kernelIdeal : Cert.frame_KernelIdeal := fun m ρ _ => Cert.KernelIdeal.Hand.frame m ρ

/-- So does the reference: its run with the result dropped. -/
theorem frame_referenceIdeal : Cert.frame_ReferenceIdeal := fun m ρ _ => Cert.ReferenceIdeal.Hand.frame (F := Ideal) m ρ

/-- The idealized kernel program is the kernel program's own text: nothing was rewritten. -/
theorem preserves : Cert.preserves_Kernel_KernelIdeal := trivial

/-- An unscoped buffer of the kernel program is among those the run's last state names. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- Both programs end with the network of the shared parameters applied to the shared input: the kernel program's
    result by its two calls' value legs, the reference's by reading its operations, and the two parameter arrays are one
    function of arguments that agree. -/
theorem algebraic : Cert.algebraic_KernelIdeal_ReferenceIdeal := by
  intro m ρ m' ρ' _ hagree
  refine ⟨fun c => Cert.KernelIdeal.Gen.V13 m (Cert.KernelIdeal.Hand.outsK (F := Ideal) m) c Cert.KernelIdeal.main_v76, ?_, ?_⟩
  · refine (θ_run Cert.KernelIdeal.defs _ _).mono (fun r h c => ?_) (Cert.KernelIdeal.Hand.run_all (F := Ideal) m ρ)
    exact ⟨h c _ (mem_uc Cert.KernelIdeal.main_v76 (by decide)),
      (h c _ (mem_uc Cert.KernelIdeal.main_arg0 (by decide))).trans (Cert.KernelIdeal.Gen.V13_main_arg0 m _ c),
      (h c _ (mem_uc Cert.KernelIdeal.main_arg1 (by decide))).trans (Cert.KernelIdeal.Gen.V13_main_arg1 m _ c),
      (h c _ (mem_uc Cert.KernelIdeal.main_arg2 (by decide))).trans (Cert.KernelIdeal.Gen.V13_main_arg2 m _ c),
      (h c _ (mem_uc Cert.KernelIdeal.main_arg3 (by decide))).trans (Cert.KernelIdeal.Gen.V13_main_arg3 m _ c),
      (h c _ (mem_uc Cert.KernelIdeal.main_arg4 (by decide))).trans (Cert.KernelIdeal.Gen.V13_main_arg4 m _ c),
      (h c _ (mem_uc Cert.KernelIdeal.main_arg5 (by decide))).trans (Cert.KernelIdeal.Gen.V13_main_arg5 m _ c),
      (h c _ (mem_uc Cert.KernelIdeal.main_arg6 (by decide))).trans (Cert.KernelIdeal.Gen.V13_main_arg6 m _ c),
      (h c _ (mem_uc Cert.KernelIdeal.main_arg7 (by decide))).trans (Cert.KernelIdeal.Gen.V13_main_arg7 m _ c),
      (h c _ (mem_uc Cert.KernelIdeal.main_arg8 (by decide))).trans (Cert.KernelIdeal.Gen.V13_main_arg8 m _ c),
      (h c _ (mem_uc Cert.KernelIdeal.main_arg9 (by decide))).trans (Cert.KernelIdeal.Gen.V13_main_arg9 m _ c),
      (h c _ (mem_uc Cert.KernelIdeal.main_arg10 (by decide))).trans (Cert.KernelIdeal.Gen.V13_main_arg10 m _ c),
      (h c _ (mem_uc Cert.KernelIdeal.main_arg11 (by decide))).trans (Cert.KernelIdeal.Gen.V13_main_arg11 m _ c),
      (h c _ (mem_uc Cert.KernelIdeal.main_arg12 (by decide))).trans (Cert.KernelIdeal.Gen.V13_main_arg12 m _ c),
      (h c _ (mem_uc Cert.KernelIdeal.main_arg13 (by decide))).trans (Cert.KernelIdeal.Gen.V13_main_arg13 m _ c)⟩
  · refine (θ_run Cert.ReferenceIdeal.defs _ _).mono (fun r h c => ⟨(h c).1.trans ?_, (h c).2⟩)
      (Cert.ReferenceIdeal.Hand.run (F := Ideal) m' ρ')
    obtain ⟨h0, h1, h2, h3, h4, h5, h6, h7, h8, h9, h10, h11, h12, h13⟩ := hagree c
    refine ((Cert.ReferenceIdeal.Hand.ref_eq m' c).trans ?_).trans (Cert.KernelIdeal.Hand.kernel_value m c).symm
    -- the arguments agree, buffer by buffer
    have e0 : m' (c, Proc.devRef .tc Cert.ReferenceIdeal.main_arg0) = m ((c.tc : Thread Cert.KernelIdeal.nD Cert.KernelIdeal.τ).loc Cert.KernelIdeal.main_arg0) := h0
    have e1 : m' (c, Proc.devRef .tc Cert.ReferenceIdeal.main_arg1) = m ((c.tc : Thread Cert.KernelIdeal.nD Cert.KernelIdeal.τ).loc Cert.KernelIdeal.main_arg1) := h1
    have e2 : m' (c, Proc.devRef .tc Cert.ReferenceIdeal.main_arg2) = m ((c.tc : Thread Cert.KernelIdeal.nD Cert.KernelIdeal.τ).loc Cert.KernelIdeal.main_arg2) := h2
    have e3 : m' (c, Proc.devRef .tc Cert.ReferenceIdeal.main_arg3) = m ((c.tc : Thread Cert.KernelIdeal.nD Cert.KernelIdeal.τ).loc Cert.KernelIdeal.main_arg3) := h3
    have e4 : m' (c, Proc.devRef .tc Cert.ReferenceIdeal.main_arg4) = m ((c.tc : Thread Cert.KernelIdeal.nD Cert.KernelIdeal.τ).loc Cert.KernelIdeal.main_arg4) := h4
    have e5 : m' (c, Proc.devRef .tc Cert.ReferenceIdeal.main_arg5) = m ((c.tc : Thread Cert.KernelIdeal.nD Cert.KernelIdeal.τ).loc Cert.KernelIdeal.main_arg5) := h5
    have e6 : m' (c, Proc.devRef .tc Cert.ReferenceIdeal.main_arg6) = m ((c.tc : Thread Cert.KernelIdeal.nD Cert.KernelIdeal.τ).loc Cert.KernelIdeal.main_arg6) := h6
    have e7 : m' (c, Proc.devRef .tc Cert.ReferenceIdeal.main_arg7) = m ((c.tc : Thread Cert.KernelIdeal.nD Cert.KernelIdeal.τ).loc Cert.KernelIdeal.main_arg7) := h7
    have e8 : m' (c, Proc.devRef .tc Cert.ReferenceIdeal.main_arg8) = m ((c.tc : Thread Cert.KernelIdeal.nD Cert.KernelIdeal.τ).loc Cert.KernelIdeal.main_arg8) := h8
    have e9 : m' (c, Proc.devRef .tc Cert.ReferenceIdeal.main_arg9) = m ((c.tc : Thread Cert.KernelIdeal.nD Cert.KernelIdeal.τ).loc Cert.KernelIdeal.main_arg9) := h9
    have e10 : m' (c, Proc.devRef .tc Cert.ReferenceIdeal.main_arg10) = m ((c.tc : Thread Cert.KernelIdeal.nD Cert.KernelIdeal.τ).loc Cert.KernelIdeal.main_arg10) := h10
    have e11 : m' (c, Proc.devRef .tc Cert.ReferenceIdeal.main_arg11) = m ((c.tc : Thread Cert.KernelIdeal.nD Cert.KernelIdeal.τ).loc Cert.KernelIdeal.main_arg11) := h11
    have e12 : m' (c, Proc.devRef .tc Cert.ReferenceIdeal.main_arg12) = m ((c.tc : Thread Cert.KernelIdeal.nD Cert.KernelIdeal.τ).loc Cert.KernelIdeal.main_arg12) := h12
    have e13 : m' (c, Proc.devRef .tc Cert.ReferenceIdeal.main_arg13) = m ((c.tc : Thread Cert.KernelIdeal.nD Cert.KernelIdeal.τ).loc Cert.KernelIdeal.main_arg13) := h13
    -- so the two parameter arrays are one: the same latent chain, the same matrix, the same bias
    have hP : Cert.ReferenceIdeal.Hand.refParams m' c = Cert.KernelIdeal.Hand.paramsK m c := by
      dsimp only [Cert.ReferenceIdeal.Hand.refParams, Cert.ReferenceIdeal.Hand.refZ, Cert.KernelIdeal.Hand.paramsK, Cert.KernelIdeal.Hand.zArgs]
      rw [e1, e2, e3, e4, e5, e6, e7, e8, e9, e10, e11, e12, e13]
      rfl
    -- and the weights and biases are the same slices of it
    rw [e0, hP]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
